-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256x1024 : Shape := ⟨3, ![128, 256, 1024]⟩
abbrev S128x1024 : Shape := ⟨2, ![128, 1024]⟩
abbrev S128 : Shape := ⟨1, ![128]⟩
abbrev S_ : Shape := ⟨0, ![]⟩

class Facts : Prop where
  bcast_S_S128x256x1024 : S_.BroadcastsInDim S128x256x1024 (![] : Fin 0 → Fin S128x256x1024.rank)
  reducesTo_S128x256x1024_S_d0_1_2 : S128x256x1024.ReducesTo [0, 1, 2] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : IVec S128 32) (main_arg5 : IVec S128 32) (main_v13 : IVec S_ 1) (main_v16 : IVec S128x1024 1) : IVec S_ 1 :=
  let main_c_5 : IVec S_ 1 := constantI S_ 1 1#1
  let main_v17 : IVec S_ 1 := (fun x v => Host.reduce IntOp.andi x v reducesTo_S128x1024_S_d0_1 h_S_) main_v16 main_c_5
  let main_v18 : IVec S_ 1 := andi main_v13 main_v17
  let main_c_6 : IVec S_ 32 := constantI S_ 32 256#32
  let main_v19 : IVec S128 32 := broadcastInDim S128 ![] bcast_S_S128 main_c_6
  let main_v20 : IVec S128 1 := cmpi .sle main_arg4 main_v19
  let main_c_7 : IVec S_ 1 := constantI S_ 1 1#1
  let main_v21 : IVec S_ 1 := (fun x v => Host.reduce IntOp.andi x v reducesTo_S128_S_d0 h_S_) main_v20 main_c_7
  let main_v22 : IVec S_ 1 := andi main_v18 main_v21
  let main_c_8 : IVec S_ 32 := constantI S_ 32 256#32
  let main_v23 : IVec S128 32 := broadcastInDim S128 ![] bcast_S_S128 main_c_8
  let main_v24 : IVec S128 1 := cmpi .sle main_arg5 main_v23
  let main_c_9 : IVec S_ 1 := constantI S_ 1 1#1
  let main_v25 : IVec S_ 1 := (fun x v => Host.reduce IntOp.andi x v reducesTo_S128_S_d0 h_S_) main_v24 main_c_9
  let main_v26 : IVec S_ 1 := andi main_v22 main_v25
  main_v26

def fn {F : FTy → Type} [FloatOps F] (main_arg0 : FVec F S128x256x1024 .f32) (main_arg1 : FVec F S128x256x1024 .f32) (main_arg2 : FVec F S128x1024 .f32) (main_arg3 : FVec F S128x1024 .f32) (main_arg4 : IVec S128 32) (main_arg5 : IVec S128 32) : IVec S_ 1 :=
  let main_v0 : FVec F S128x256x1024 .f32 := Host.absf main_arg0
  let main_cst : FVec F S_ .f32 := constant S_ .f32 0x7F800000#32
  let main_v1 : FVec F S128x256x1024 .f32 := broadcastInDim S128x256x1024 ![] bcast_S_S128x256x1024 main_cst
  let main_v2 : IVec S128x256x1024 1 := cmpf .olt main_v0 main_v1
  let main_c : IVec S_ 1 := constantI S_ 1 1#1
  let main_v3 : IVec S_ 1 := (fun x v => Host.reduce IntOp.andi x v reducesTo_S128x256x1024_S_d0_1_2 h_S_) main_v2 main_c
  let main_v4 : FVec F S128x256x1024 .f32 := Host.absf main_arg1
  let main_cst_0 : FVec F S_ .f32 := constant S_ .f32 0x7F800000#32
  let main_v5 : FVec F S128x256x1024 .f32 := broadcastInDim S128x256x1024 ![] bcast_S_S128x256x1024 main_cst_0
  let main_v6 : IVec S128x256x1024 1 := cmpf .olt main_v4 main_v5
  let main_c_1 : IVec S_ 1 := constantI S_ 1 1#1
  let main_v7 : IVec S_ 1 := (fun x v => Host.reduce IntOp.andi x v reducesTo_S128x256x1024_S_d0_1_2 h_S_) main_v6 main_c_1
  let main_v8 : IVec S_ 1 := andi main_v3 main_v7
  let main_v9 : FVec F S128x1024 .f32 := Host.absf main_arg2
  let main_cst_2 : FVec F S_ .f32 := constant S_ .f32 0x7F800000#32
  let main_v10 : FVec F S128x1024 .f32 := broadcastInDim S128x1024 ![] bcast_S_S128x1024 main_cst_2
  let main_v11 : IVec S128x1024 1 := cmpf .olt main_v9 main_v10
  let main_c_3 : IVec S_ 1 := constantI S_ 1 1#1
  let main_v12 : IVec S_ 1 := (fun x v => Host.reduce IntOp.andi x v reducesTo_S128x1024_S_d0_1 h_S_) main_v11 main_c_3
  let main_v13 : IVec S_ 1 := andi main_v8 main_v12
  let main_v14 : FVec F S128x1024 .f32 := Host.absf main_arg3
  let main_cst_4 : FVec F S_ .f32 := constant S_ .f32 0x7F800000#32
  let main_v15 : FVec F S128x1024 .f32 := broadcastInDim S128x1024 ![] bcast_S_S128x1024 main_cst_4
  let main_v16 : IVec S128x1024 1 := cmpf .olt main_v14 main_v15
  fn_part1 (F := F) main_arg4 main_arg5 main_v13 main_v16
-- ==== Kernel.lean ====
abbrev S128x256x1024 : Shape := ⟨3, ![128, 256, 1024]⟩
abbrev S128x1024 : Shape := ⟨2, ![128, 1024]⟩
abbrev S128 : Shape := ⟨1, ![128]⟩
abbrev S_ : Shape := ⟨0, ![]⟩
abbrev S16x1x128 : Shape := ⟨3, ![16, 1, 128]⟩
abbrev S8x256x1024 : Shape := ⟨3, ![8, 256, 1024]⟩
abbrev S1x1x128 : Shape := ⟨3, ![1, 1, 128]⟩
abbrev S1 : Shape := ⟨1, ![1]⟩
abbrev S8 : Shape := ⟨1, ![8]⟩
abbrev S1x8 : Shape := ⟨2, ![1, 8]⟩
abbrev S8x256 : Shape := ⟨2, ![8, 256]⟩
abbrev S8x1 : Shape := ⟨2, ![8, 1]⟩
abbrev S8x256x1 : Shape := ⟨3, ![8, 256, 1]⟩
abbrev S8x128 : Shape := ⟨2, ![8, 128]⟩
abbrev S8x1x128 : Shape := ⟨3, ![8, 1, 128]⟩
abbrev S2048x1024 : Shape := ⟨2, ![2048, 1024]⟩
abbrev S2048x128 : Shape := ⟨2, ![2048, 128]⟩
abbrev S8x256x128 : Shape := ⟨3, ![8, 256, 128]⟩
abbrev S8x1x1 : Shape := ⟨3, ![8, 1, 1]⟩
abbrev S1x1 : Shape := ⟨2, ![1, 1]⟩
abbrev S1x1x1 : Shape := ⟨3, ![1, 1, 1]⟩
abbrev S1x128 : Shape := ⟨2, ![1, 128]⟩

abbrev nBuf : Space → Nat
  | .hbm => 51
  | .vmem => 14
  | .smem => 2
  | _ => 0

abbrev bufTy : (tb : Table) → Fin (tcTables nBuf tb) → BufTy
  | .hbm, ⟨0, _⟩ => ⟨S128x256x1024, .f32⟩
  | .hbm, ⟨1, _⟩ => ⟨S128x256x1024, .f32⟩
  | .hbm, ⟨2, _⟩ => ⟨S128x1024, .f32⟩
  | .hbm, ⟨3, _⟩ => ⟨S128x1024, .f32⟩
  | .hbm, ⟨4, _⟩ => ⟨S128, .i32⟩
  | .hbm, ⟨5, _⟩ => ⟨S128, .i32⟩
  | .hbm, ⟨6, _⟩ => ⟨S_, .i32⟩
  | .hbm, ⟨7, _⟩ => ⟨S_, .i32⟩
  | .hbm, ⟨8, _⟩ => ⟨S128, .i32⟩
  | .hbm, ⟨9, _⟩ => ⟨S_, .i32⟩
  | .hbm, ⟨10, _⟩ => ⟨S_, .i32⟩
  | .hbm, ⟨11, _⟩ => ⟨S128, .i32⟩
  | .hbm, ⟨12, _⟩ => ⟨S128, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S128, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S16x1x128, .f32⟩
  | .hbm, ⟨26, _⟩ => ⟨S16x1x128, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S16x1x128, .f32⟩
  | .hbm, ⟨32, _⟩ => ⟨S16x1x128, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S128, .f32⟩
  | .hbm, ⟨38, _⟩ => ⟨S_, .f32⟩
  | .hbm, ⟨39, _⟩ => ⟨S_, .f32⟩
  | .hbm, ⟨40, _⟩ => ⟨S128, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .local _ .vmem, ⟨0, _⟩ => ⟨S8x256x1024, .f32⟩
  | .local _ .vmem, ⟨1, _⟩ => ⟨S8x256x1024, .f32⟩
  | .local _ .vmem, ⟨2, _⟩ => ⟨S128x1024, .f32⟩
  | .local _ .vmem, ⟨3, _⟩ => ⟨S1x1x128, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S8x256x1024, .f32⟩
  | .local _ .vmem, ⟨8, _⟩ => ⟨S8x256x1024, .f32⟩
  | .local _ .vmem, ⟨9, _⟩ => ⟨S128x1024, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .smem, ⟨0, _⟩ => ⟨S128, .i32⟩
  | .local _ .smem, ⟨1, _⟩ => ⟨S128, .i32⟩
  | _, _ => ⟨S128x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_c_0 : Ref sig .tc := ⟨.hbm, 9, rfl⟩
abbrev main_call1_v0 : Ref sig .tc := ⟨.hbm, 10, rfl⟩
abbrev main_call1_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_cst_3 : Ref sig .tc := ⟨.hbm, 20, rfl⟩
abbrev main_v7 : Ref sig .tc := ⟨.hbm, 21, rfl⟩
abbrev main_v8 : Ref sig .tc := ⟨.hbm, 22, rfl⟩
abbrev main_cst_4 : Ref sig .tc := ⟨.hbm, 23, rfl⟩
abbrev main_v9 : Ref sig .tc := ⟨.hbm, 24, rfl⟩
abbrev main_v10_0 : Ref sig .tc := ⟨.hbm, 25, rfl⟩
abbrev main_v10_1 : Ref sig .tc := ⟨.hbm, 26, rfl⟩
abbrev main_cst_5 : Ref sig .tc := ⟨.hbm, 27, rfl⟩
abbrev main_v11 : Ref sig .tc := ⟨.hbm, 28, rfl⟩
abbrev main_cst_6 : Ref sig .tc := ⟨.hbm, 29, rfl⟩
abbrev main_v12 : Ref sig .tc := ⟨.hbm, 30, rfl⟩
abbrev main_v13_0 : Ref sig .tc := ⟨.hbm, 31, rfl⟩
abbrev main_v13_1 : Ref sig .tc := ⟨.hbm, 32, rfl⟩
abbrev main_cst_7 : Ref sig .tc := ⟨.hbm, 33, rfl⟩
abbrev main_v14 : Ref sig .tc := ⟨.hbm, 34, rfl⟩
abbrev main_cst_8 : Ref sig .tc := ⟨.hbm, 35, rfl⟩
abbrev main_v15 : Ref sig .tc := ⟨.hbm, 36, rfl⟩
abbrev main_v16 : Ref sig .tc := ⟨.hbm, 37, rfl⟩
abbrev main_cst_9 : Ref sig .tc := ⟨.hbm, 38, rfl⟩
abbrev main_v17 : Ref sig .tc := ⟨.hbm, 39, rfl⟩
abbrev main_v18 : Ref sig .tc := ⟨.hbm, 40, rfl⟩
abbrev main_cst_10 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_11 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v0 : Ref sig .tc := ⟨.smem, 0, rfl⟩
abbrev main_v1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

abbrev pre1 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S128 : S_.BroadcastsInDim S128 (![] : Fin 0 → Fin S128.rank)
  reducesTo_S128_S_d0 : S128.ReducesTo [0] S_
  h_S_ : 0 < S_.numel
  numel1_S1 : S1.numel = 1
  concatenates_S1_S1_S1_S1_S1_S1_S1_S1_S8_d0 : Shape.Concatenates [S1, S1, S1, S1, S1, S1, S1, S1] S8 0
  iota_S1x8_d1_w32 : S1x8.Iotas .tc 32 [1]
  shapeCasts_S1x8_S8 : S1x8.ShapeCasts S8
  iota_S8x256_d1_w32 : S8x256.Iotas .tc 32 [1]
  shapeCasts_S8_S8x1 : S8.ShapeCasts S8x1
  broadcasts_S8x1_S8x256 : S8x1.Broadcasts S8x256
  natLt_1_32 : 1 < 32
  shapeCasts_S8x256_S8x256x1 : S8x256.ShapeCasts S8x256x1
  iota_S8x128_d1_w32 : S8x128.Iotas .tc 32 [1]
  broadcasts_S8x1_S8x128 : S8x1.Broadcasts S8x128
  shapeCasts_S8x128_S8x1x128 : S8x128.ShapeCasts S8x1x128
  inb_S8x256x1024_S8x256x1024_0_0_0 : ∀ a, (![0, 0, 0] : Fin 3 → Nat) a + S8x256x1024.size a ≤ S8x256x1024.size a
  h_S8x256x1024 : 0 < S8x256x1024.numel
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  shapeCasts_S8x256x1024_S2048x1024 : S8x256x1024.ShapeCasts S2048x1024
  shapeCasts_S2048x128_S8x256x128 : S2048x128.ShapeCasts S8x256x128
  broadcasts_S8x256x1_S8x256x128 : S8x256x1.Broadcasts S8x256x128
  broadcasts_S8x1x128_S8x256x128 : S8x1x128.Broadcasts S8x256x128
  reduces_S8x256x128_S8x256 : S8x256x128.Reduces [2] S8x256
  reduces_S8x256x1_S8x1 : S8x256x1.Reduces [1] S8x1
  shapeCasts_S8x1_S8x1x1 : S8x1.ShapeCasts S8x1x1
  reduces_S8x1x1_S1x1 : S8x1x1.Reduces [0] S1x1
  shapeCasts_S1x1_S1x1x1 : S1x1.ShapeCasts S1x1x1
  shapeCasts_S1x1x1_S1x1 : S1x1x1.ShapeCasts S1x1
  iota_S1x128_d1_w32 : S1x128.Iotas .tc 32 [1]
  broadcasts_S1x1_S1x128 : S1x1.Broadcasts S1x128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  reducesTo_S16x1x128_S_d0_1_2 : S16x1x128.ReducesTo [0, 1, 2] S_
  dot_S2048x1024_S128x1024_S2048x128_1_1_0_0_n_n_wf : DotDims.WF S2048x1024 S128x1024 S2048x128 [1] [1] [0] [0] [] []
  hrank0 : 0 < grid0.rank
  k0_off1_inb : ∀ i : grid0.Coords, ∀ (r : Fin 8), ∀ a, (k0_off1 i (BitVec.ofNat 32 r.val)) a + S1.size a ≤ S128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x1024.size a ≤ S128x256x1024.size a
  hwx0_0 : ∀ i : grid0.Coords, EltTy.bits .f32 = 32 ∨ (Rect.block (s := S128x256x1024) S8x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .f32 = 32 ∨ (Rect.block (s := S128x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S16x1x128.size a
  hwx0_2 : ∀ i : grid0.Coords, EltTy.bits .f32 = 32 ∨ (Rect.block (s := S16x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S16x1x128.size a
  hwx0_3 : ∀ i : grid0.Coords, EltTy.bits .f32 = 32 ∨ (Rect.block (s := S16x1x128) S1x1x128.size (cc0_transform_3 i) (hinb0_3 i)).WholeWords (EltTy.packing .f32)
  hrank1 : 0 < grid1.rank
  k1_off1_inb : ∀ i : grid1.Coords, ∀ (r : Fin 8), ∀ a, (k1_off1 i (BitVec.ofNat 32 r.val)) a + S1.size a ≤ S128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x1024.size a ≤ S128x256x1024.size a
  hwx1_0 : ∀ i : grid1.Coords, EltTy.bits .f32 = 32 ∨ (Rect.block (s := S128x256x1024) S8x256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x1024.size a ≤ S128x1024.size a
  hwx1_1 : ∀ i : grid1.Coords, EltTy.bits .f32 = 32 ∨ (Rect.block (s := S128x1024) S128x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x128.size a ≤ S16x1x128.size a
  hwx1_2 : ∀ i : grid1.Coords, EltTy.bits .f32 = 32 ∨ (Rect.block (s := S16x1x128) S1x1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x128.size a ≤ S16x1x128.size a
  hwx1_3 : ∀ i : grid1.Coords, EltTy.bits .f32 = 32 ∨ (Rect.block (s := S16x1x128) S1x1x128.size (cc1_transform_3 i) (hinb1_3 i)).WholeWords (EltTy.packing .f32)

variable [Facts₀]

def dot_S2048x1024_S128x1024_S2048x128_1_1_0_0_n_n : DotDims S2048x1024 S128x1024 S2048x128 where
  lhsContracting := [1]
  rhsContracting := [1]
  lhsNonContracting := [0]
  rhsNonContracting := [0]
  lhsBatch := []
  rhsBatch := []
  wf := dot_S2048x1024_S128x1024_S2048x128_1_1_0_0_n_n_wf

abbrev spec0_0 : Pipeline.WinSpec sig grid0.rank :=
  Pipeline.WinSpec.ofSpec (Memref.whole main_arg0) S8x256x1024.size reads0_0 false false 2 stage0_0 sem0_0 nbuf0_0 hstage0_0

abbrev spec0_1 : Pipeline.WinSpec sig grid0.rank :=
  Pipeline.WinSpec.ofSpec (Memref.whole main_arg2) S128x1024.size reads0_1 false true 1 stage0_1 sem0_1 nbuf0_1 hstage0_1

abbrev spec0_2 : Pipeline.WinSpec sig grid0.rank :=
  Pipeline.WinSpec.ofSpec (Memref.whole main_v10_0) S1x1x128.size reads0_2 true false 2 stage0_2 sem0_2 nbuf0_2 hstage0_2

abbrev spec0_3 : Pipeline.WinSpec sig grid0.rank :=
  Pipeline.WinSpec.ofSpec (Memref.whole main_v10_1) S1x1x128.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | ⟨_ + 4, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | ⟨_ + 4, h⟩ => absurd h (Nat.not_lt.2 (Nat.le_add_left _ _))
abbrev spec1_0 : Pipeline.WinSpec sig grid1.rank :=
  Pipeline.WinSpec.ofSpec (Memref.whole main_arg1) S8x256x1024.size reads1_0 false false 2 stage1_0 sem1_0 nbuf1_0 hstage1_0

abbrev spec1_1 : Pipeline.WinSpec sig grid1.rank :=
  Pipeline.WinSpec.ofSpec (Memref.whole main_arg3) S128x1024.size reads1_1 false true 1 stage1_1 sem1_1 nbuf1_1 hstage1_1

abbrev spec1_2 : Pipeline.WinSpec sig grid1.rank :=
  Pipeline.WinSpec.ofSpec (Memref.whole main_v13_0) S1x1x128.size reads1_2 true false 2 stage1_2 sem1_2 nbuf1_2 hstage1_2

abbrev spec1_3 : Pipeline.WinSpec sig grid1.rank :=
  Pipeline.WinSpec.ofSpec (Memref.whole main_v13_1) S1x1x128.size reads1_3 true false 2 stage1_3 sem1_3 nbuf1_3 hstage1_3

abbrev spec1 : Fin 4 → Pipeline.WinSpec sig grid1.rank := fun | 0 => spec1_0 | 1 => spec1_1 | 2 => spec1_2 | 3 => spec1_3 | ⟨_ + 4, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | ⟨_ + 4, h⟩ => absurd h (Nat.not_lt.2 (Nat.le_add_left _ _))
abbrev ix1 (pf : pre1.Contents (Elt F)) : (w : Fin 4) → grid1.Coords → Fin (spec1 w).shape.rank → Nat := fun | 0 => cc1_transform_0 | 1 => cc1_transform_1 | 2 => cc1_transform_2 | 3 => cc1_transform_3 | ⟨_ + 4, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | 2 => hreads1_2 | 3 => hreads1_3 | ⟨_ + 4, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | 2 => hinb1_2 | 3 => hinb1_3 | ⟨_ + 4, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | 2 => hwx1_2 | 3 => hwx1_3 | ⟨_ + 4, h⟩ => absurd h (Nat.not_lt.2 (Nat.le_add_left _ _))

class Facts : Prop extends Facts₀ where
  harr0 : ∀ w, (spec0 w).arr.IsWhole
  harr1 : ∀ w, (spec1 w).arr.IsWhole

variable [Facts]
-- ==== ReferenceIdeal.lean ====
abbrev S128x256x1024 : Shape := ⟨3, ![128, 256, 1024]⟩
abbrev S128x1024 : Shape := ⟨2, ![128, 1024]⟩
abbrev S128 : Shape := ⟨1, ![128]⟩
abbrev S_ : Shape := ⟨0, ![]⟩
abbrev S128x256x128 : Shape := ⟨3, ![128, 256, 128]⟩
abbrev S256 : Shape := ⟨1, ![256]⟩
abbrev S1x256 : Shape := ⟨2, ![1, 256]⟩
abbrev S128x1 : Shape := ⟨2, ![128, 1]⟩
abbrev S128x256 : Shape := ⟨2, ![128, 256]⟩
abbrev S128x128 : Shape := ⟨2, ![128, 128]⟩
abbrev S128x1x128 : Shape := ⟨3, ![128, 1, 128]⟩
abbrev S128x256x1 : Shape := ⟨3, ![128, 256, 1]⟩

abbrev nBuf : Space → Nat
  | .hbm => 176
  | .vmem => 0
  | .smem => 0
  | _ => 0

abbrev hbmTy0_0 (i : Nat) : BufTy := match i % 128 with
  | 0 => ⟨S128x256x1024, .f32⟩
  | 1 => ⟨S128x256x1024, .f32⟩
  | 2 => ⟨S128x1024, .f32⟩
  | 3 => ⟨S128x1024, .f32⟩
  | 4 => ⟨S128, .i32⟩
  | 5 => ⟨S128, .i32⟩
  | 6 => ⟨S_, .i32⟩
  | 7 => ⟨S_, .i32⟩
  | 8 => ⟨S128, .i32⟩
  | 9 => ⟨S128, .i32⟩
  | 10 => ⟨S_, .i32⟩
  | 11 => ⟨S_, .i32⟩
  | 12 => ⟨S128, .i32⟩
  | 13 => ⟨S128, .i32⟩
  | 14 => ⟨S128, .f32⟩
  | 15 => ⟨S_, .f32⟩
  | 16 => ⟨S_, .f32⟩
  | 17 => ⟨S_, .f32⟩
  | 18 => ⟨S_, .f32⟩
  | 19 => ⟨S128, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S128x256x128, .f32⟩
  | 28 => ⟨S256, .i32⟩
  | 29 => ⟨S1x256, .i32⟩
  | 30 => ⟨S128x1, .i32⟩
  | 31 => ⟨S128x256, .i32⟩
  | 32 => ⟨S128x256, .i32⟩
  | 33 => ⟨S128x256, .i1⟩
  | 34 => ⟨S128x128, .i32⟩
  | 35 => ⟨S128x128, .i32⟩
  | 36 => ⟨S_, .i32⟩
  | 37 => ⟨S128x128, .i32⟩
  | 38 => ⟨S128x128, .i32⟩
  | 39 => ⟨S128x128, .i1⟩
  | 40 => ⟨S128x1x128, .i1⟩
  | 41 => ⟨S128x256x1, .i1⟩
  | 42 => ⟨S128x256x128, .i1⟩
  | 43 => ⟨S128x256x128, .i1⟩
  | 44 => ⟨S128x256x128, .i1⟩
  | 45 => ⟨S128x256x1, .i1⟩
  | 46 => ⟨S128x1x128, .i1⟩
  | 47 => ⟨S128x256x128, .i1⟩
  | 48 => ⟨S128x256x128, .i1⟩
  | 49 => ⟨S128x256x128, .i1⟩
  | 50 => ⟨S128x256x128, .f32⟩
  | 51 => ⟨S_, .f32⟩
  | 52 => ⟨S128x256x128, .f32⟩
  | 53 => ⟨S128x256x128, .f32⟩
  | 54 => ⟨S128x256x128, .f32⟩
  | 55 => ⟨S128x256x128, .f32⟩
  | 56 => ⟨S128x256x128, .i1⟩
  | 57 => ⟨S128x256x128, .f32⟩
  | 58 => ⟨S128x256x128, .f32⟩
  | 59 => ⟨S128x256x128, .f32⟩
  | 60 => ⟨S128x256x128, .f32⟩
  | 61 => ⟨S128x256x128, .f32⟩
  | 62 => ⟨S128x256x128, .f32⟩
  | 63 => ⟨S128x256x128, .f32⟩
  | 64 => ⟨S128x256x128, .f32⟩
  | 65 => ⟨S128x256x128, .f32⟩
  | 66 => ⟨S_, .f32⟩
  | 67 => ⟨S_, .f32⟩
  | 68 => ⟨S128x256x128, .f32⟩
  | 69 => ⟨S128x256x128, .f32⟩
  | 70 => ⟨S_, .f32⟩
  | 71 => ⟨S_, .f32⟩
  | 72 => ⟨S128x256x128, .f32⟩
  | 73 => ⟨S_, .f32⟩
  | 74 => ⟨S128x256x128, .f32⟩
  | 75 => ⟨S128x256x128, .f32⟩
  | 76 => ⟨S128x256x128, .f32⟩
  | 77 => ⟨S128x256x128, .f32⟩
  | 78 => ⟨S128x256x128, .i1⟩
  | 79 => ⟨S128x256x128, .f32⟩
  | 80 => ⟨S128x256x128, .f32⟩
  | 81 => ⟨S128x256x128, .f32⟩
  | 82 => ⟨S128x256x128, .f32⟩
  | 83 => ⟨S128x256x128, .f32⟩
  | 84 => ⟨S128x256x128, .f32⟩
  | 85 => ⟨S128x256x128, .f32⟩
  | 86 => ⟨S128x256x128, .f32⟩
  | 87 => ⟨S128x256x128, .f32⟩
  | 88 => ⟨S_, .f32⟩
  | 89 => ⟨S_, .f32⟩
  | 90 => ⟨S128x256x128, .f32⟩
  | 91 => ⟨S128x256x128, .f32⟩
  | 92 => ⟨S_, .f32⟩
  | 93 => ⟨S_, .f32⟩
  | 94 => ⟨S128x256x128, .f32⟩
  | 95 => ⟨S256, .i32⟩
  | 96 => ⟨S1x256, .i32⟩
  | 97 => ⟨S128x1, .i32⟩
  | 98 => ⟨S128x256, .i32⟩
  | 99 => ⟨S128x256, .i32⟩
  | 100 => ⟨S128x256, .i1⟩
  | 101 => ⟨S128x128, .i32⟩
  | 102 => ⟨S128x128, .i32⟩
  | 103 => ⟨S_, .i32⟩
  | 104 => ⟨S128x128, .i32⟩
  | 105 => ⟨S128x128, .i32⟩
  | 106 => ⟨S128x128, .i1⟩
  | 107 => ⟨S128x1x128, .i1⟩
  | 108 => ⟨S128x256x1, .i1⟩
  | 109 => ⟨S128x256x128, .i1⟩
  | 110 => ⟨S128x256x128, .i1⟩
  | 111 => ⟨S128x256x128, .i1⟩
  | 112 => ⟨S128x256x1, .i1⟩
  | 113 => ⟨S128x1x128, .i1⟩
  | 114 => ⟨S128x256x128, .i1⟩
  | 115 => ⟨S128x256x128, .i1⟩
  | 116 => ⟨S128x256x128, .i1⟩
  | 117 => ⟨S128x256x128, .f32⟩
  | 118 => ⟨S_, .f32⟩
  | 119 => ⟨S128x256x128, .f32⟩
  | 120 => ⟨S128x256x128, .f32⟩
  | 121 => ⟨S128x256x128, .f32⟩
  | 122 => ⟨S128x256x128, .f32⟩
  | 123 => ⟨S128x256x128, .i1⟩
  | 124 => ⟨S128x256x128, .f32⟩
  | 125 => ⟨S128x256x128, .f32⟩
  | 126 => ⟨S128x256x128, .f32⟩
  | 127 => ⟨S128x256x128, .f32⟩
  | _ => ⟨S128x256x1024, .f32⟩

abbrev hbmTy0_1 (i : Nat) : BufTy := match i % 128 with
  | 0 => ⟨S128x256x128, .f32⟩
  | 1 => ⟨S128x256x128, .f32⟩
  | 2 => ⟨S128x256x128, .f32⟩
  | 3 => ⟨S128x256x128, .f32⟩
  | 4 => ⟨S128x256x128, .f32⟩
  | 5 => ⟨S_, .f32⟩
  | 6 => ⟨S_, .f32⟩
  | 7 => ⟨S128x256x128, .f32⟩
  | 8 => ⟨S128x256x128, .f32⟩
  | 9 => ⟨S_, .f32⟩
  | 10 => ⟨S_, .f32⟩
  | 11 => ⟨S128x256x128, .f32⟩
  | 12 => ⟨S_, .f32⟩
  | 13 => ⟨S128x256x128, .f32⟩
  | 14 => ⟨S128x256x128, .f32⟩
  | 15 => ⟨S128x256x128, .f32⟩
  | 16 => ⟨S128x256x128, .f32⟩
  | 17 => ⟨S128x256x128, .i1⟩
  | 18 => ⟨S128x256x128, .f32⟩
  | 19 => ⟨S128x256x128, .f32⟩
  | 20 => ⟨S128x256x128, .f32⟩
  | 21 => ⟨S128x256x128, .f32⟩
  | 22 => ⟨S128x256x128, .f32⟩
  | 23 => ⟨S128x256x128, .f32⟩
  | 24 => ⟨S128x256x128, .f32⟩
  | 25 => ⟨S128x256x128, .f32⟩
  | 26 => ⟨S128x256x128, .f32⟩
  | 27 => ⟨S_, .f32⟩
  | 28 => ⟨S_, .f32⟩
  | 29 => ⟨S128x256x128, .f32⟩
  | 30 => ⟨S128x256x128, .f32⟩
  | 31 => ⟨S_, .f32⟩
  | 32 => ⟨S_, .f32⟩
  | 33 => ⟨S_, .i32⟩
  | 34 => ⟨S_, .i32⟩
  | 35 => ⟨S_, .i32⟩
  | 36 => ⟨S_, .i32⟩
  | 37 => ⟨S_, .i32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | _ => ⟨S128x256x1024, .f32⟩

abbrev hbmTy (i : Nat) : BufTy := match i / 128 with
  | 0 => hbmTy0_0 i
  | 1 => hbmTy0_1 i
  | _ => ⟨S128x256x1024, .f32⟩

abbrev bufTy : (tb : Table) → Fin (tcTables nBuf tb) → BufTy
  | .hbm, ⟨i, _⟩ => hbmTy i
  | _, _ => ⟨S128x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_v0 : Ref sig .tc := ⟨.hbm, 9, rfl⟩
abbrev main_c_0 : Ref sig .tc := ⟨.hbm, 10, rfl⟩
abbrev main_call1_v0 : Ref sig .tc := ⟨.hbm, 11, rfl⟩
abbrev main_call1_v1 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_cst_3 : Ref sig .tc := ⟨.hbm, 22, rfl⟩
abbrev main_v7 : Ref sig .tc := ⟨.hbm, 23, rfl⟩
abbrev main_v8 : Ref sig .tc := ⟨.hbm, 24, rfl⟩
abbrev main_cst_4 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call2_cst : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_v33 : Ref sig .tc := ⟨.hbm, 64, rfl⟩
abbrev main_v34 : Ref sig .tc := ⟨.hbm, 65, rfl⟩
abbrev main_cst_6 : Ref sig .tc := ⟨.hbm, 66, rfl⟩
abbrev main_call3_v0 : Ref sig .tc := ⟨.hbm, 67, rfl⟩
abbrev main_call3_v1 : Ref sig .tc := ⟨.hbm, 68, rfl⟩
abbrev main_v35 : Ref sig .tc := ⟨.hbm, 69, rfl⟩
abbrev main_cst_7 : Ref sig .tc := ⟨.hbm, 70, rfl⟩
abbrev main_v36 : Ref sig .tc := ⟨.hbm, 71, rfl⟩
abbrev main_v37 : Ref sig .tc := ⟨.hbm, 72, rfl⟩
abbrev main_call4_cst : Ref sig .tc := ⟨.hbm, 73, rfl⟩
abbrev main_call4_v0 : Ref sig .tc := ⟨.hbm, 74, rfl⟩
abbrev main_call4_v1 : Ref sig .tc := ⟨.hbm, 75, rfl⟩
abbrev main_call4_v2 : Ref sig .tc := ⟨.hbm, 76, rfl⟩
abbrev main_call4_v3 : Ref sig .tc := ⟨.hbm, 77, rfl⟩
abbrev main_call4_v4 : Ref sig .tc := ⟨.hbm, 78, rfl⟩
abbrev main_call4_v5 : Ref sig .tc := ⟨.hbm, 79, rfl⟩
abbrev main_call4_v6 : Ref sig .tc := ⟨.hbm, 80, rfl⟩
abbrev main_call4_v7 : Ref sig .tc := ⟨.hbm, 81, rfl⟩
abbrev main_call4_v8 : Ref sig .tc := ⟨.hbm, 82, rfl⟩
abbrev main_call4_v9 : Ref sig .tc := ⟨.hbm, 83, rfl⟩
abbrev main_call4_v10 : Ref sig .tc := ⟨.hbm, 84, rfl⟩
abbrev main_call4_v11 : Ref sig .tc := ⟨.hbm, 85, rfl⟩
abbrev main_v38 : Ref sig .tc := ⟨.hbm, 86, rfl⟩
abbrev main_v39 : Ref sig .tc := ⟨.hbm, 87, rfl⟩
abbrev main_cst_8 : Ref sig .tc := ⟨.hbm, 88, rfl⟩
abbrev main_call5_v0 : Ref sig .tc := ⟨.hbm, 89, rfl⟩
abbrev main_call5_v1 : Ref sig .tc := ⟨.hbm, 90, rfl⟩
abbrev main_v40 : Ref sig .tc := ⟨.hbm, 91, rfl⟩
abbrev main_cst_9 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_c_10 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_call6_cst : Ref sig .tc := ⟨.hbm, 118, rfl⟩
abbrev main_call6_v0 : Ref sig .tc := ⟨.hbm, 119, rfl⟩
abbrev main_call6_v1 : Ref sig .tc := ⟨.hbm, 120, rfl⟩
abbrev main_call6_v2 : Ref sig .tc := ⟨.hbm, 121, rfl⟩
abbrev main_call6_v3 : Ref sig .tc := ⟨.hbm, 122, rfl⟩
abbrev main_call6_v4 : Ref sig .tc := ⟨.hbm, 123, rfl⟩
abbrev main_call6_v5 : Ref sig .tc := ⟨.hbm, 124, rfl⟩
abbrev main_call6_v6 : Ref sig .tc := ⟨.hbm, 125, rfl⟩
abbrev main_call6_v7 : Ref sig .tc := ⟨.hbm, 126, rfl⟩
abbrev main_call6_v8 : Ref sig .tc := ⟨.hbm, 127, rfl⟩
abbrev main_call6_v9 : Ref sig .tc := ⟨.hbm, 128, rfl⟩
abbrev main_call6_v10 : Ref sig .tc := ⟨.hbm, 129, rfl⟩
abbrev main_call6_v11 : Ref sig .tc := ⟨.hbm, 130, rfl⟩
abbrev main_v65 : Ref sig .tc := ⟨.hbm, 131, rfl⟩
abbrev main_v66 : Ref sig .tc := ⟨.hbm, 132, rfl⟩
abbrev main_cst_11 : Ref sig .tc := ⟨.hbm, 133, rfl⟩
abbrev main_call7_v0 : Ref sig .tc := ⟨.hbm, 134, rfl⟩
abbrev main_call7_v1 : Ref sig .tc := ⟨.hbm, 135, rfl⟩
abbrev main_v67 : Ref sig .tc := ⟨.hbm, 136, rfl⟩
abbrev main_cst_12 : Ref sig .tc := ⟨.hbm, 137, rfl⟩
abbrev main_v68 : Ref sig .tc := ⟨.hbm, 138, rfl⟩
abbrev main_v69 : Ref sig .tc := ⟨.hbm, 139, rfl⟩
abbrev main_call8_cst : Ref sig .tc := ⟨.hbm, 140, rfl⟩
abbrev main_call8_v0 : Ref sig .tc := ⟨.hbm, 141, rfl⟩
abbrev main_call8_v1 : Ref sig .tc := ⟨.hbm, 142, rfl⟩
abbrev main_call8_v2 : Ref sig .tc := ⟨.hbm, 143, rfl⟩
abbrev main_call8_v3 : Ref sig .tc := ⟨.hbm, 144, rfl⟩
abbrev main_call8_v4 : Ref sig .tc := ⟨.hbm, 145, rfl⟩
abbrev main_call8_v5 : Ref sig .tc := ⟨.hbm, 146, rfl⟩
abbrev main_call8_v6 : Ref sig .tc := ⟨.hbm, 147, rfl⟩
abbrev main_call8_v7 : Ref sig .tc := ⟨.hbm, 148, rfl⟩
abbrev main_call8_v8 : Ref sig .tc := ⟨.hbm, 149, rfl⟩
abbrev main_call8_v9 : Ref sig .tc := ⟨.hbm, 150, rfl⟩
abbrev main_call8_v10 : Ref sig .tc := ⟨.hbm, 151, rfl⟩
abbrev main_call8_v11 : Ref sig .tc := ⟨.hbm, 152, rfl⟩
abbrev main_v70 : Ref sig .tc := ⟨.hbm, 153, rfl⟩
abbrev main_v71 : Ref sig .tc := ⟨.hbm, 154, rfl⟩
abbrev main_cst_13 : Ref sig .tc := ⟨.hbm, 155, rfl⟩
abbrev main_call9_v0 : Ref sig .tc := ⟨.hbm, 156, rfl⟩
abbrev main_call9_v1 : Ref sig .tc := ⟨.hbm, 157, rfl⟩
abbrev main_v72 : Ref sig .tc := ⟨.hbm, 158, rfl⟩
abbrev main_cst_14 : Ref sig .tc := ⟨.hbm, 159, rfl⟩
abbrev main_v73 : Ref sig .tc := ⟨.hbm, 160, rfl⟩
abbrev main_c_15 : Ref sig .tc := ⟨.hbm, 161, rfl⟩
abbrev main_v74 : Ref sig .tc := ⟨.hbm, 162, rfl⟩
abbrev main_c_16 : Ref sig .tc := ⟨.hbm, 163, rfl⟩
abbrev main_v75 : Ref sig .tc := ⟨.hbm, 164, rfl⟩
abbrev main_v76 : Ref sig .tc := ⟨.hbm, 165, rfl⟩
abbrev main_v77 : Ref sig .tc := ⟨.hbm, 166, rfl⟩
abbrev main_v78 : Ref sig .tc := ⟨.hbm, 167, rfl⟩
abbrev main_v79 : Ref sig .tc := ⟨.hbm, 168, rfl⟩
abbrev main_v80 : Ref sig .tc := ⟨.hbm, 169, rfl⟩
abbrev main_cst_17 : Ref sig .tc := ⟨.hbm, 170, rfl⟩
abbrev main_cst_18 : Ref sig .tc := ⟨.hbm, 171, rfl⟩
abbrev main_v81 : Ref sig .tc := ⟨.hbm, 172, rfl⟩
abbrev main_v82 : Ref sig .tc := ⟨.hbm, 173, rfl⟩
abbrev main_v83 : Ref sig .tc := ⟨.hbm, 174, rfl⟩
abbrev main_v84 : Ref sig .tc := ⟨.hbm, 175, rfl⟩

abbrev nD : Nat := 1
abbrev τ : Topo := Topo.v7x

variable {F : FTy → Type} [FloatOps F]

class Facts₀ : Prop where
  bcast_S_S128 : S_.BroadcastsInDim S128 (![] : Fin 0 → Fin S128.rank)
  reducesTo_S128_S_d0 : S128.ReducesTo [0] S_
  h_S_ : 0 < S_.numel
  bcast_S256_S1x256_1 : S256.BroadcastsInDim S1x256 (![1] : Fin 1 → Fin S1x256.rank)
  bcast_S128_S128x1_0 : S128.BroadcastsInDim S128x1 (![0] : Fin 1 → Fin S128x1.rank)
  bcast_S1x256_S128x256_0_1 : S1x256.BroadcastsInDim S128x256 (![0, 1] : Fin 2 → Fin S128x256.rank)
  bcast_S128x1_S128x256_0_1 : S128x1.BroadcastsInDim S128x256 (![0, 1] : Fin 2 → Fin S128x256.rank)
  bcast_S_S128x128 : S_.BroadcastsInDim S128x128 (![] : Fin 0 → Fin S128x128.rank)
  bcast_S128x128_S128x1x128_0_2 : S128x128.BroadcastsInDim S128x1x128 (![0, 2] : Fin 2 → Fin S128x1x128.rank)
  bcast_S128x256_S128x256x1_0_1 : S128x256.BroadcastsInDim S128x256x1 (![0, 1] : Fin 2 → Fin S128x256x1.rank)
  bcast_S128x256x1_S128x256x128_0_1_2 : S128x256x1.BroadcastsInDim S128x256x128 (![0, 1, 2] : Fin 3 → Fin S128x256x128.rank)
  bcast_S128x1x128_S128x256x128_0_1_2 : S128x1x128.BroadcastsInDim S128x256x128 (![0, 1, 2] : Fin 3 → Fin S128x256x128.rank)
  bcast_S_S128x256x128 : S_.BroadcastsInDim S128x256x128 (![] : Fin 0 → Fin S128x256x128.rank)
  reducesTo_S128x256x128_S_d0_1_2 : S128x256x128.ReducesTo [0, 1, 2] S_
  dot_S128x256x1024_S128x1024_S128x256x128_2_1_01_0_n_n_wf : DotDims.WF S128x256x1024 S128x1024 S128x256x128 [2] [1] [0, 1] [0] [] []

variable [Facts₀]

def dot_S128x256x1024_S128x1024_S128x256x128_2_1_01_0_n_n : DotDims S128x256x1024 S128x1024 S128x256x128 where
  lhsContracting := [2]
  rhsContracting := [1]
  lhsNonContracting := [0, 1]
  rhsNonContracting := [0]
  lhsBatch := []
  rhsBatch := []
  wf := dot_S128x256x1024_S128x1024_S128x256x128_2_1_01_0_n_n_wf

class Facts : Prop extends Facts₀ where

variable [Facts]
-- ==== Proof.K.Body.lean ====
/-
  One block of eight sentences, as the kernel body computes it.

  At block `i` the body reads the eight clipped sentence lengths at offsets `8 i + k` (`k < 8`) of the length table,
  the whole token block `x0` (8 sentences of 256 tokens of 1024 features) and the whole array `x1` of the 128 global
  vectors, and stores two rows of 128 lanes. Each row carries one scalar in lane 0 and zero in the other lanes: the
  first row minus the masked sum of the softplus terms over the block's own sentences, the second row the sum over the
  valid tokens against all sentences less the part against the own sentence. The masks are 0/1 values made from the
  eight lengths (token position below the length) and from the block index (global vector `8 i + k` is sentence `k`'s
  own). All of this arithmetic is carried here as the named value terms of the body; what this file establishes is which
  values meet which buffers:

  * `wd`: the `k`-th word read is the table's entry at `8 i + k`;
  * `outP`, `outN`: the two rows the body leaves, as functions of the block index, the table, the token block and the
    global vectors — a store of a whole row leaves its payload, a load of a whole buffer reads the buffer;
  * the body, run at any block on buffers holding the block, the global vectors and the table, leaves exactly those
    rows and everything it only read unchanged;
  * hence, at every block of the grid, the step of the staged execution: each input buffer holds its block of the
    array it stages (fetched at this block or kept from the block before), the outputs afterwards hold `outP`, `outN`.

  The two launches (view 0, view 1) run the same body on their own arrays and their own length table, so everything is
  stated twice, once per launch, at arbitrary contents `V` of the buffers when the launch starts.
-/
import proofs.«414042_j68504728371273_3_alg».proof.Proof.Gen.Kernel.Launch
import proofs.«414042_j68504728371273_3_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # What the two launches share: the whole-buffer rectangles the body loads and stores through -/

/-- The whole token block, the whole array of global vectors, the whole output row. -/
abbrev rTok : Rect S8x256x1024 := Rect.unit (s := S8x256x1024) ![0, 0, 0] S8x256x1024.size inb_S8x256x1024_S8x256x1024_0_0_0
abbrev rGlob : Rect S128x1024 := Rect.unit (s := S128x1024) ![0, 0] S128x1024.size inb_S128x1024_S128x1024_0_0
abbrev rRow : Rect S1x1x128 := Rect.unit (s := S1x1x128) ![0, 0, 0] S1x1x128.size inb_S1x1x128_S1x1x128_0_0_0

/-- A store of the whole output row covers it. -/
theorem coverRow (p0 : Vec F S1x1x128 .f32) (y : S1x1x128.Idx) :
    ∃ pc ∈ ([⟨rRow, p0⟩] : List (View.Piece (Elt F) S1x1x128 .f32)), y ∈ pc.1.set :=
  View.cover_of_tiled [⟨rRow, p0⟩] S1x1x128.size (by rfl) y

/-- The zero offsets, at rank three and at rank two. -/
theorem offZero3 : (![0, 0, 0] : Fin 3 → Nat) = fun _ => 0 := by
  funext a; match a with | ⟨0, _⟩ => rfl | ⟨1, _⟩ => rfl | ⟨2, _⟩ => rfl
theorem offZero2 : (![0, 0] : Fin 2 → Nat) = fun _ => 0 := by
  funext a; match a with | ⟨0, _⟩ => rfl | ⟨1, _⟩ => rfl

/-! # The first launch of the kernel (view 0), at the buffer contents `V` it starts from -/

/-! ## The table of clipped sentence lengths -/

/-- The table's contents when the region is entered (one device: device 0's). -/
def tbl0 : pre0.Contents (Elt F) := fun j => V (0 : Dev nD) (pre0.ref j)

/-- On every device the table holds those contents (there is one device). -/
theorem V_pre0 (c : Dev nD) (j : Fin 1) : V c (pre0.ref j) = tbl0 V j := by
  obtain rfl : c = 0 := Subsingleton.elim _ _; rfl

/-- The table's contents as admissible contents (no index map reads it, so there is no side condition),
    and the pipeline at them. -/
abbrev adm0 : (pcfg0 (F := F)).Adm := ⟨tbl0 V, trivial⟩
abbrev cfgM0 : Pipeline.Cfg sig Λ₀ := cfg0 (adm0 V)

/-- The table as the body is handed it: its whole buffer as a memref. -/
abbrev tbM0 : Memref sig .tc .smem S128 .i32 := Memref.whole main_v0
abbrev htbM0 : tbM0.IsWhole := Memref.isWhole_whole _

/-- The table's buffer on core `c`: its contents type, and the buffer held whole at contents `f`. -/
abbrev TbBuf0 (c : Dev nD) : Type := Buf (Elt F) (tbM0.view.loc (c : Thread nD τ))
abbrev tbPt0 (c : Dev nD) (f : TbBuf0 (F := F) c) : sProp 𝕄 :=
  tbM0.view.loc (c : Thread nD τ) ↦{fullShare} f

/-- The one table the region hands the body, held whole. -/
theorem prefHeld0_eq (c : Dev nD) :
    (Pipeline.prefHeld (Ix := Unit) (Name := ℕ) (U := UR sig nD τ) (Lvl := ℕ) pre0 c (fun _ => fullShare) (tbl0 V) : sProp 𝕄)
      = tbPt0 c (tbl0 V 0) := by
  unfold Pipeline.prefHeld
  rw [show (Finset.univ : Finset (Fin 1)) = {(0 : Fin 1)} from by decide, bigSep_singleton]
  rfl

/-! ## The windows' blocks -/

/-- Window `w`'s block at point `t`, read off its array as the region finds it (`V`). -/
def iblk0 (c : Dev nD) (w : Fin (cfgM0 V).W) (t : Fin (cfgM0 V).N) : (((cfgM0 V).win w).xblock ((cfgM0 V).grid.coords t)).Idx → Elt F ((cfgM0 V).win w).elt :=
  (((cfgM0 V).win w).blk t).view.read (Elt F) (V c (Pipeline.arrRef spec0 w))

/-- An input window's current staging buffer holds its block at every point, fetched there or not, for any proof
    data whose array is `V`'s and whose body leaves the block in place: unfetched, the block index has not moved. -/
theorem before0_0_of {c : Dev nD} (dat : Dat τ (Elt F) Unit ℕ (UR sig nD τ) ℕ (cfgM0 V) c) (hA : dat.A 0 = V c (Pipeline.arrRef spec0 0))
    (hafter : ∀ t, dat.after 0 t = iblk0 V c 0 t) (t : Fin (cfgM0 V).N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ (cfgM0 V) c) (hA : dat.A 1 = V c (Pipeline.arrRef spec0 1))
    (hafter : ∀ t, dat.after 1 t = iblk0 V c 1 t) (t : Fin (cfgM0 V).N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The words the body reads -/

/-- The `k`-th length word the body reads at block `i` of a table holding `f`: the word at offset `8 i + k`. -/
def wd0 (i : grid0.Coords) (f : S128.Idx → Elt F .i32) (k : Fin 8) : Elt F .i32 :=
  tbM0.view.readAt (Elt F) (Rect.unit (s := S128) (k0_off1 i (BitVec.ofNat 32 k.val)) S1.size (k0_off1_inb i k)).toLoadRect f
    (Shape.Idx.first (numel1_S1.symm ▸ Nat.one_pos))

/-- The 0/1 mask of the valid token positions of the block's eight sentences, from the eight words read. -/
abbrev vm0 (i : grid0.Coords) (f : S128.Idx → Elt F .i32) : FVec F S8x256x1 .f32 :=
  k0_pay4 (wd0 i f 0) (wd0 i f 1) (wd0 i f 2) (wd0 i f 3) (wd0 i f 4) (wd0 i f 5) (wd0 i f 6) (wd0 i f 7)

/-! ## What the body leaves in each output window's buffer -/

/-- The first output row after the body: its one store, of the whole row. -/
def outP0 (i : grid0.Coords) (f : S128.Idx → Elt F .i32) (x0 : Vec F S8x256x1024 .f32) (x1 : Vec F S128x1024 .f32) : Vec F S1x1x128 .f32 :=
  View.canon [⟨rRow, k0_pay2 (k0_pay12 (vm0 i f) (k0_pay5 i) (View.ld x0 rTok) (View.ld x1 rGlob))⟩]

/-- The second output row after the body: its one store, of the whole row. -/
def outN0 (i : grid0.Coords) (f : S128.Idx → Elt F .i32) (x0 : Vec F S8x256x1024 .f32) (x1 : Vec F S128x1024 .f32) : Vec F S1x1x128 .f32 :=
  View.canon [⟨rRow, k0_pay3 (k0_pay10 (vm0 i f) (k0_pay5 i) (View.ld x0 rTok) (View.ld x1 rGlob)) (k0_pay11 (vm0 i f) (View.ld x0 rTok) (View.ld x1 rGlob))⟩]

/-- The rows in the clean form: a whole-row store leaves its payload, a whole-buffer load reads the buffer. -/
theorem outP0_eq (i : grid0.Coords) (f : S128.Idx → Elt F .i32) (x0 : Vec F S8x256x1024 .f32) (x1 : Vec F S128x1024 .f32) :
    outP0 i f x0 x1 = k0_pay2 (k0_pay12 (k0_pay4 (wd0 i f 0) (wd0 i f 1) (wd0 i f 2) (wd0 i f 3) (wd0 i f 4) (wd0 i f 5) (wd0 i f 6) (wd0 i f 7)) (k0_pay5 i) x0 x1) := by
  unfold outP0
  rw [View.canon_unit_zero offZero3]
  simp only [View.ld_unit_zero (S := S8x256x1024) offZero3, View.ld_unit_zero (S := S128x1024) offZero2]

theorem outN0_eq (i : grid0.Coords) (f : S128.Idx → Elt F .i32) (x0 : Vec F S8x256x1024 .f32) (x1 : Vec F S128x1024 .f32) :
    outN0 i f x0 x1 = k0_pay3 (k0_pay10 (k0_pay4 (wd0 i f 0) (wd0 i f 1) (wd0 i f 2) (wd0 i f 3) (wd0 i f 4) (wd0 i f 5) (wd0 i f 6) (wd0 i f 7)) (k0_pay5 i) x0 x1)
      (k0_pay11 (k0_pay4 (wd0 i f 0) (wd0 i f 1) (wd0 i f 2) (wd0 i f 3) (wd0 i f 4) (wd0 i f 5) (wd0 i f 6) (wd0 i f 7)) x0 x1) := by
  unfold outN0
  rw [View.canon_unit_zero offZero3]
  simp only [View.ld_unit_zero (S := S8x256x1024) offZero3, View.ld_unit_zero (S := S128x1024) offZero2]

/-- The word read is the table's entry at `8 i + k`. -/
theorem wd0_eq (i : grid0.Coords) (f : S128.Idx → Elt F .i32) (k : Fin 8) :
    wd0 i f k = f (ValueIdx.ix1 ⟨8 * (i 0).val + k.val, by have h : (i 0).val < 16 := (i 0).isLt; have := k.isLt; omega⟩) := by
  unfold wd0
  show f ((Rect.unit (s := S128) (k0_off1 i (BitVec.ofNat 32 k.val)) S1.size (k0_off1_inb i k)).emb _) = f _
  refine congrArg f ?_
  funext a
  match a with
  | ⟨0, _⟩ =>
    refine Fin.ext ?_
    rw [Rect.emb_apply]
    show (k0_off1 i (BitVec.ofNat 32 k.val)) 0 + 1 * 0 = 8 * (i 0).val + k.val
    rw [k0_off1_eq i k]
    rfl

/-! ## The body's triple -/

set_option maxHeartbeats 1000000 in
/-- The body at block `i` on whole staging memrefs — the two inputs' at contents `x0`, `x1`, the two outputs' at
    anything, the table held at `xt` — runs to the continuation holding the inputs and the table as they were and the
    two output rows at `outP0`, `outN0` of the inputs and the table's words. -/
theorem sound_kernel0 (c : Dev nD) (E : Set ℕ) (i : grid0.Coords)
    (arg2 : Memref sig .tc .vmem S8x256x1024 .f32) (harg2 : arg2.IsWhole) (arg3 : Memref sig .tc .vmem S128x1024 .f32) (harg3 : arg3.IsWhole)
    (arg4 : Memref sig .tc .vmem S1x1x128 .f32) (harg4 : arg4.IsWhole) (arg5 : Memref sig .tc .vmem S1x1x128 .f32) (harg5 : arg5.IsWhole)
    (x0 : Vec F S8x256x1024 .f32) (x1 : Vec F S128x1024 .f32) (xt : TbBuf0 (F := F) c) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ tbPt0 c xt
        ∗ (iprop(owns (c : Thread nD τ) arg2 fullShare x0 ∗ owns (c : Thread nD τ) arg3 fullShare x1
            ∗ owns (c : Thread nD τ) arg4 fullShare (outP0 i xt x0 x1) ∗ owns (c : Thread nD τ) arg5 fullShare (outN0 i xt x0 x1)
            ∗ tbPt0 c xt) -∗ K ⟨⟩))
      ⊢ wp frame (wpE (defs₀ (F := F)) Variants.none c none) E (cc0_kernel i tbM0 htbM0 arg2 harg2 arg3 harg3 arg4 harg4 arg5 harg5) K := by
  simp only [cc0_kernel_eq_skeleton]; unfold cc0_kernel_skel
  simp only [k0_part1_eq_skeleton, k0_part2_eq_skeleton]
  unfold owns
  iintro ⟨⟨%f0, %hf0, H0⟩, ⟨%f1, %hf1, H1⟩, ⟨%d2, %f2, -, H2⟩, ⟨%d3, %f3, -, H3⟩, HT, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverRow _)
  isplitl [H3]
  · iexists _; isplitr
    swap; · iexact H3
    ipureintro
    exact View.read_writes_eq_canon _ _ _ (coverRow _)
  iexact HT

/-! ## The pipeline's proof data -/

/-- The proof data of the first launch on core `c`: the arrays as the region finds them (`V`); after the body at
    point `t` each input's buffer at its block and the two output rows at `outP0`, `outN0` of the input blocks and
    the table's words; the invariant the untouched scoped rest and generator register, and the table held whole;
    nothing owed; full shares. -/
def dat0 (c : Dev nD) : Dat τ (Elt F) Unit ℕ (UR sig nD τ) ℕ (cfgM0 V) c where
  A w := V c (Pipeline.arrRef spec0 w)
  after w t := match w with
    | ⟨0, _⟩ => iblk0 V c 0 t
    | ⟨1, _⟩ => iblk0 V c 1 t
    | ⟨2, _⟩ => outP0 (grid0.coords t) (tbl0 V 0) (iblk0 V c 0 t) (iblk0 V c 1 t)
    | ⟨3, _⟩ => outN0 (grid0.coords t) (tbl0 V 0) (iblk0 V c 0 t) (iblk0 V c 1 t)
  Φ _ := iprop(Pipeline.ΦA spec0 c ∗ Pipeline.prefHeld (Ix := Unit) (Name := ℕ) (U := UR sig nD τ) (Lvl := ℕ) pre0 c (fun _ => fullShare) (tbl0 V))
  q _ := fullShare
  owed _ := 0

/-- The proof data's arrays are the region-entry contents. -/
theorem A_eq0 (c : Dev nD) (w : Fin (cfgM0 V).W) : (dat0 V c).A w = V c (Pipeline.arrRef spec0 w) := by
  dsimp only [dat0]

/-- What the body leaves, window by window. -/
theorem after0_0 (c : Dev nD) (t : Fin (cfgM0 V).N) : (dat0 V c).after 0 t = iblk0 V c 0 t := by dsimp only [dat0]; rfl
theorem after0_1 (c : Dev nD) (t : Fin (cfgM0 V).N) : (dat0 V c).after 1 t = iblk0 V c 1 t := by dsimp only [dat0]; rfl
theorem after0_2 (c : Dev nD) (t : Fin (cfgM0 V).N) :
    (dat0 V c).after 2 t = outP0 (grid0.coords t) (tbl0 V 0) (iblk0 V c 0 t) (iblk0 V c 1 t) := by dsimp only [dat0]; rfl
theorem after0_3 (c : Dev nD) (t : Fin (cfgM0 V).N) :
    (dat0 V c).after 3 t = outN0 (grid0.coords t) (tbl0 V 0) (iblk0 V c 0 t) (iblk0 V c 1 t) := by dsimp only [dat0]; rfl

/-- Each input's current staging buffer holds its block at every point, fetched there or not. -/
theorem before0_0 (c : Dev nD) (t : Fin (cfgM0 V).N) (d) : (dat0 V c).before 0 t d = iblk0 V c 0 t :=
  before0_0_of V (dat0 V c) (A_eq0 V c 0) (after0_0 V c) t d
theorem before0_1 (c : Dev nD) (t : Fin (cfgM0 V).N) (d) : (dat0 V c).before 1 t d = iblk0 V c 1 t :=
  before0_1_of V (dat0 V c) (A_eq0 V c 1) (after0_1 V c) t d

/-! ## The body obligation, at a generic point -/

/-- The current staging memref of each window at point `t`. -/
abbrev st0_0 (t : Fin (cfgM0 V).N) := ((cfgM0 V).win 0).stage ((cfgM0 V).slots t 0)
abbrev st0_1 (t : Fin (cfgM0 V).N) := ((cfgM0 V).win 1).stage ((cfgM0 V).slots t 1)
abbrev st0_2 (t : Fin (cfgM0 V).N) := ((cfgM0 V).win 2).stage ((cfgM0 V).slots t 2)
abbrev st0_3 (t : Fin (cfgM0 V).N) := ((cfgM0 V).win 3).stage ((cfgM0 V).slots t 3)

/-- The body at point `t`, on what the pipeline calls it with: the block's coordinates, the table's memref, each
    window's current staging memref. -/
abbrev bodyAt0 (t : Fin (cfgM0 V).N) : Prog (TpuEff nD τ sig (Elt F) Λ₀ .tc) PUnit :=
  cc0_kernel (grid0.coords t) (Memref.whole main_v0) (Memref.isWhole_whole _)
    (spec0_0.stage ((cfgM0 V).slots t 0)) (hstage0_0 (((cfgM0 V).slots t 0).cast nbuf0_0))
    (spec0_1.stage ((cfgM0 V).slots t 1)) (hstage0_1 (((cfgM0 V).slots t 1).cast nbuf0_1))
    (spec0_2.stage ((cfgM0 V).slots t 2)) (hstage0_2 (((cfgM0 V).slots t 2).cast nbuf0_2))
    (spec0_3.stage ((cfgM0 V).slots t 3)) (hstage0_3 (((cfgM0 V).slots t 3).cast nbuf0_3))

/-- What the body is called with at point `t`, the windows one by one, -/
def bodyPre0 (c : Dev nD) (t : Fin (cfgM0 V).N) : sProp 𝕄 :=
  iprop((dat0 V c).Φ t.castSucc ∗ (dat0 V c).owesAt () t.castSucc
    ∗ (∃ d, owns (c : Thread nD τ) (st0_0 V t) fullShare ((dat0 V c).before 0 t d))
    ∗ (∃ d, owns (c : Thread nD τ) (st0_1 V t) fullShare ((dat0 V c).before 1 t d))
    ∗ (∃ d, owns (c : Thread nD τ) (st0_2 V t) fullShare ((dat0 V c).before 2 t d))
    ∗ (∃ d, owns (c : Thread nD τ) (st0_3 V t) fullShare ((dat0 V c).before 3 t d)))

/-- and what it returns. -/
def bodyPost0 (c : Dev nD) (t : Fin (cfgM0 V).N) : sProp 𝕄 :=
  iprop((dat0 V c).Φ t.succ ∗ (dat0 V c).owesAt () t.succ
    ∗ owns (c : Thread nD τ) (st0_0 V t) fullShare ((dat0 V c).after 0 t)
    ∗ owns (c : Thread nD τ) (st0_1 V t) fullShare ((dat0 V c).after 1 t)
    ∗ owns (c : Thread nD τ) (st0_2 V t) fullShare ((dat0 V c).after 2 t)
    ∗ owns (c : Thread nD τ) (st0_3 V t) fullShare ((dat0 V c).after 3 t))

/-- The body at any point: the inputs' memrefs hold their blocks, the table is held whole inside the invariant, so the
    body's triple applies; the rest of the invariant and the core's debts pass through unread. -/
theorem sound_body0 (c : Dev nD) (t : Fin (cfgM0 V).N) :
    bodyPre0 V c t ⊢ wp frame (wpE (defs₀ (F := F)) Variants.none c none) Set.univ (bodyAt0 V t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  rw [show (dat0 V c).Φ t.castSucc = iprop(Pipeline.ΦA spec0 c ∗ Pipeline.prefHeld (Ix := Unit) (Name := ℕ) (U := UR sig nD τ) (Lvl := ℕ) pre0 c (fun _ => fullShare) (tbl0 V)) from rfl,
    prefHeld0_eq]
  iintro ⟨⟨HΦ, HT⟩, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (tbl0 V 0) _)
  isplitl [H0]; · iexact H0
  isplitl [H1]; · iexact H1
  isplitl [H2]; · iexists _; iexact H2
  isplitl [H3]; · iexists _; iexact H3
  isplitl [HT]; · iexact HT
  iintro ⟨H0, H1, H2, H3, HT⟩
  isplitl [HΦ HT]
  · isplitl [HΦ]; · iexact HΦ
    iexact HT
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-! # The second launch of the kernel (view 1), at the buffer contents `V` it starts from -/

/-! ## The table of clipped sentence lengths -/

/-- The table's contents when the region is entered (one device: device 0's). -/
def tbl1 : pre1.Contents (Elt F) := fun j => V (0 : Dev nD) (pre1.ref j)

/-- On every device the table holds those contents (there is one device). -/
theorem V_pre1 (c : Dev nD) (j : Fin 1) : V c (pre1.ref j) = tbl1 V j := by
  obtain rfl : c = 0 := Subsingleton.elim _ _; rfl

/-- The table's contents as admissible contents (no index map reads it, so there is no side condition),
    and the pipeline at them. -/
abbrev adm1 : (pcfg1 (F := F)).Adm := ⟨tbl1 V, trivial⟩
abbrev cfgM1 : Pipeline.Cfg sig Λ₀ := cfg1 (adm1 V)

/-- The table as the body is handed it: its whole buffer as a memref. -/
abbrev tbM1 : Memref sig .tc .smem S128 .i32 := Memref.whole main_v1
abbrev htbM1 : tbM1.IsWhole := Memref.isWhole_whole _

/-- The table's buffer on core `c`: its contents type, and the buffer held whole at contents `f`. -/
abbrev TbBuf1 (c : Dev nD) : Type := Buf (Elt F) (tbM1.view.loc (c : Thread nD τ))
abbrev tbPt1 (c : Dev nD) (f : TbBuf1 (F := F) c) : sProp 𝕄 :=
  tbM1.view.loc (c : Thread nD τ) ↦{fullShare} f

/-- The one table the region hands the body, held whole. -/
theorem prefHeld1_eq (c : Dev nD) :
    (Pipeline.prefHeld (Ix := Unit) (Name := ℕ) (U := UR sig nD τ) (Lvl := ℕ) pre1 c (fun _ => fullShare) (tbl1 V) : sProp 𝕄)
      = tbPt1 c (tbl1 V 0) := by
  unfold Pipeline.prefHeld
  rw [show (Finset.univ : Finset (Fin 1)) = {(0 : Fin 1)} from by decide, bigSep_singleton]
  rfl

/-! ## The windows' blocks -/

/-- Window `w`'s block at point `t`, read off its array as the region finds it (`V`). -/
def iblk1 (c : Dev nD) (w : Fin (cfgM1 V).W) (t : Fin (cfgM1 V).N) : (((cfgM1 V).win w).xblock ((cfgM1 V).grid.coords t)).Idx → Elt F ((cfgM1 V).win w).elt :=
  (((cfgM1 V).win w).blk t).view.read (Elt F) (V c (Pipeline.arrRef spec1 w))

/-- An input window's current staging buffer holds its block at every point, fetched there or not, for any proof
    data whose array is `V`'s and whose body leaves the block in place: unfetched, the block index has not moved. -/
theorem before1_0_of {c : Dev nD} (dat : Dat τ (Elt F) Unit ℕ (UR sig nD τ) ℕ (cfgM1 V) c) (hA : dat.A 0 = V c (Pipeline.arrRef spec1 0))
    (hafter : ∀ t, dat.after 0 t = iblk1 V c 0 t) (t : Fin (cfgM1 V).N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ (cfgM1 V) c) (hA : dat.A 1 = V c (Pipeline.arrRef spec1 1))
    (hafter : ∀ t, dat.after 1 t = iblk1 V c 1 t) (t : Fin (cfgM1 V).N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The words the body reads -/

/-- The `k`-th length word the body reads at block `i` of a table holding `f`: the word at offset `8 i + k`. -/
def wd1 (i : grid1.Coords) (f : S128.Idx → Elt F .i32) (k : Fin 8) : Elt F .i32 :=
  tbM1.view.readAt (Elt F) (Rect.unit (s := S128) (k1_off1 i (BitVec.ofNat 32 k.val)) S1.size (k1_off1_inb i k)).toLoadRect f
    (Shape.Idx.first (numel1_S1.symm ▸ Nat.one_pos))

/-- The 0/1 mask of the valid token positions of the block's eight sentences, from the eight words read. -/
abbrev vm1 (i : grid1.Coords) (f : S128.Idx → Elt F .i32) : FVec F S8x256x1 .f32 :=
  k1_pay4 (wd1 i f 0) (wd1 i f 1) (wd1 i f 2) (wd1 i f 3) (wd1 i f 4) (wd1 i f 5) (wd1 i f 6) (wd1 i f 7)

/-! ## What the body leaves in each output window's buffer -/

/-- The first output row after the body: its one store, of the whole row. -/
def outP1 (i : grid1.Coords) (f : S128.Idx → Elt F .i32) (x0 : Vec F S8x256x1024 .f32) (x1 : Vec F S128x1024 .f32) : Vec F S1x1x128 .f32 :=
  View.canon [⟨rRow, k1_pay2 (k1_pay12 (vm1 i f) (k1_pay5 i) (View.ld x0 rTok) (View.ld x1 rGlob))⟩]

/-- The second output row after the body: its one store, of the whole row. -/
def outN1 (i : grid1.Coords) (f : S128.Idx → Elt F .i32) (x0 : Vec F S8x256x1024 .f32) (x1 : Vec F S128x1024 .f32) : Vec F S1x1x128 .f32 :=
  View.canon [⟨rRow, k1_pay3 (k1_pay10 (vm1 i f) (k1_pay5 i) (View.ld x0 rTok) (View.ld x1 rGlob)) (k1_pay11 (vm1 i f) (View.ld x0 rTok) (View.ld x1 rGlob))⟩]

/-- The rows in the clean form: a whole-row store leaves its payload, a whole-buffer load reads the buffer. -/
theorem outP1_eq (i : grid1.Coords) (f : S128.Idx → Elt F .i32) (x0 : Vec F S8x256x1024 .f32) (x1 : Vec F S128x1024 .f32) :
    outP1 i f x0 x1 = k1_pay2 (k1_pay12 (k1_pay4 (wd1 i f 0) (wd1 i f 1) (wd1 i f 2) (wd1 i f 3) (wd1 i f 4) (wd1 i f 5) (wd1 i f 6) (wd1 i f 7)) (k1_pay5 i) x0 x1) := by
  unfold outP1
  rw [View.canon_unit_zero offZero3]
  simp only [View.ld_unit_zero (S := S8x256x1024) offZero3, View.ld_unit_zero (S := S128x1024) offZero2]

theorem outN1_eq (i : grid1.Coords) (f : S128.Idx → Elt F .i32) (x0 : Vec F S8x256x1024 .f32) (x1 : Vec F S128x1024 .f32) :
    outN1 i f x0 x1 = k1_pay3 (k1_pay10 (k1_pay4 (wd1 i f 0) (wd1 i f 1) (wd1 i f 2) (wd1 i f 3) (wd1 i f 4) (wd1 i f 5) (wd1 i f 6) (wd1 i f 7)) (k1_pay5 i) x0 x1)
      (k1_pay11 (k1_pay4 (wd1 i f 0) (wd1 i f 1) (wd1 i f 2) (wd1 i f 3) (wd1 i f 4) (wd1 i f 5) (wd1 i f 6) (wd1 i f 7)) x0 x1) := by
  unfold outN1
  rw [View.canon_unit_zero offZero3]
  simp only [View.ld_unit_zero (S := S8x256x1024) offZero3, View.ld_unit_zero (S := S128x1024) offZero2]

/-- The word read is the table's entry at `8 i + k`. -/
theorem wd1_eq (i : grid1.Coords) (f : S128.Idx → Elt F .i32) (k : Fin 8) :
    wd1 i f k = f (ValueIdx.ix1 ⟨8 * (i 0).val + k.val, by have h : (i 0).val < 16 := (i 0).isLt; have := k.isLt; omega⟩) := by
  unfold wd1
  show f ((Rect.unit (s := S128) (k1_off1 i (BitVec.ofNat 32 k.val)) S1.size (k1_off1_inb i k)).emb _) = f _
  refine congrArg f ?_
  funext a
  match a with
  | ⟨0, _⟩ =>
    refine Fin.ext ?_
    rw [Rect.emb_apply]
    show (k1_off1 i (BitVec.ofNat 32 k.val)) 0 + 1 * 0 = 8 * (i 0).val + k.val
    rw [k1_off1_eq i k]
    rfl

/-! ## The body's triple -/

set_option maxHeartbeats 1000000 in
/-- The body at block `i` on whole staging memrefs — the two inputs' at contents `x0`, `x1`, the two outputs' at
    anything, the table held at `xt` — runs to the continuation holding the inputs and the table as they were and the
    two output rows at `outP1`, `outN1` of the inputs and the table's words. -/
theorem sound_kernel1 (c : Dev nD) (E : Set ℕ) (i : grid1.Coords)
    (arg2 : Memref sig .tc .vmem S8x256x1024 .f32) (harg2 : arg2.IsWhole) (arg3 : Memref sig .tc .vmem S128x1024 .f32) (harg3 : arg3.IsWhole)
    (arg4 : Memref sig .tc .vmem S1x1x128 .f32) (harg4 : arg4.IsWhole) (arg5 : Memref sig .tc .vmem S1x1x128 .f32) (harg5 : arg5.IsWhole)
    (x0 : Vec F S8x256x1024 .f32) (x1 : Vec F S128x1024 .f32) (xt : TbBuf1 (F := F) c) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ tbPt1 c xt
        ∗ (iprop(owns (c : Thread nD τ) arg2 fullShare x0 ∗ owns (c : Thread nD τ) arg3 fullShare x1
            ∗ owns (c : Thread nD τ) arg4 fullShare (outP1 i xt x0 x1) ∗ owns (c : Thread nD τ) arg5 fullShare (outN1 i xt x0 x1)
            ∗ tbPt1 c xt) -∗ K ⟨⟩))
      ⊢ wp frame (wpE (defs₀ (F := F)) Variants.none c none) E (cc1_kernel i tbM1 htbM1 arg2 harg2 arg3 harg3 arg4 harg4 arg5 harg5) K := by
  simp only [cc1_kernel_eq_skeleton]; unfold cc1_kernel_skel
  simp only [k1_part1_eq_skeleton, k1_part2_eq_skeleton]
  unfold owns
  iintro ⟨⟨%f0, %hf0, H0⟩, ⟨%f1, %hf1, H1⟩, ⟨%d2, %f2, -, H2⟩, ⟨%d3, %f3, -, H3⟩, HT, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverRow _)
  isplitl [H3]
  · iexists _; isplitr
    swap; · iexact H3
    ipureintro
    exact View.read_writes_eq_canon _ _ _ (coverRow _)
  iexact HT

/-! ## The pipeline's proof data -/

/-- The proof data of the second launch on core `c`: the arrays as the region finds them (`V`); after the body at
    point `t` each input's buffer at its block and the two output rows at `outP1`, `outN1` of the input blocks and
    the table's words; the invariant the untouched scoped rest and generator register, and the table held whole;
    nothing owed; full shares. -/
def dat1 (c : Dev nD) : Dat τ (Elt F) Unit ℕ (UR sig nD τ) ℕ (cfgM1 V) c where
  A w := V c (Pipeline.arrRef spec1 w)
  after w t := match w with
    | ⟨0, _⟩ => iblk1 V c 0 t
    | ⟨1, _⟩ => iblk1 V c 1 t
    | ⟨2, _⟩ => outP1 (grid1.coords t) (tbl1 V 0) (iblk1 V c 0 t) (iblk1 V c 1 t)
    | ⟨3, _⟩ => outN1 (grid1.coords t) (tbl1 V 0) (iblk1 V c 0 t) (iblk1 V c 1 t)
  Φ _ := iprop(Pipeline.ΦA spec1 c ∗ Pipeline.prefHeld (Ix := Unit) (Name := ℕ) (U := UR sig nD τ) (Lvl := ℕ) pre1 c (fun _ => fullShare) (tbl1 V))
  q _ := fullShare
  owed _ := 0

/-- The proof data's arrays are the region-entry contents. -/
theorem A_eq1 (c : Dev nD) (w : Fin (cfgM1 V).W) : (dat1 V c).A w = V c (Pipeline.arrRef spec1 w) := by
  dsimp only [dat1]

/-- What the body leaves, window by window. -/
theorem after1_0 (c : Dev nD) (t : Fin (cfgM1 V).N) : (dat1 V c).after 0 t = iblk1 V c 0 t := by dsimp only [dat1]; rfl
theorem after1_1 (c : Dev nD) (t : Fin (cfgM1 V).N) : (dat1 V c).after 1 t = iblk1 V c 1 t := by dsimp only [dat1]; rfl
theorem after1_2 (c : Dev nD) (t : Fin (cfgM1 V).N) :
    (dat1 V c).after 2 t = outP1 (grid1.coords t) (tbl1 V 0) (iblk1 V c 0 t) (iblk1 V c 1 t) := by dsimp only [dat1]; rfl
theorem after1_3 (c : Dev nD) (t : Fin (cfgM1 V).N) :
    (dat1 V c).after 3 t = outN1 (grid1.coords t) (tbl1 V 0) (iblk1 V c 0 t) (iblk1 V c 1 t) := by dsimp only [dat1]; rfl

/-- Each input's current staging buffer holds its block at every point, fetched there or not. -/
theorem before1_0 (c : Dev nD) (t : Fin (cfgM1 V).N) (d) : (dat1 V c).before 0 t d = iblk1 V c 0 t :=
  before1_0_of V (dat1 V c) (A_eq1 V c 0) (after1_0 V c) t d
theorem before1_1 (c : Dev nD) (t : Fin (cfgM1 V).N) (d) : (dat1 V c).before 1 t d = iblk1 V c 1 t :=
  before1_1_of V (dat1 V c) (A_eq1 V c 1) (after1_1 V c) t d

/-! ## The body obligation, at a generic point -/

/-- The current staging memref of each window at point `t`. -/
abbrev st1_0 (t : Fin (cfgM1 V).N) := ((cfgM1 V).win 0).stage ((cfgM1 V).slots t 0)
abbrev st1_1 (t : Fin (cfgM1 V).N) := ((cfgM1 V).win 1).stage ((cfgM1 V).slots t 1)
abbrev st1_2 (t : Fin (cfgM1 V).N) := ((cfgM1 V).win 2).stage ((cfgM1 V).slots t 2)
abbrev st1_3 (t : Fin (cfgM1 V).N) := ((cfgM1 V).win 3).stage ((cfgM1 V).slots t 3)

/-- The body at point `t`, on what the pipeline calls it with: the block's coordinates, the table's memref, each
    window's current staging memref. -/
abbrev bodyAt1 (t : Fin (cfgM1 V).N) : Prog (TpuEff nD τ sig (Elt F) Λ₀ .tc) PUnit :=
  cc1_kernel (grid1.coords t) (Memref.whole main_v1) (Memref.isWhole_whole _)
    (spec1_0.stage ((cfgM1 V).slots t 0)) (hstage1_0 (((cfgM1 V).slots t 0).cast nbuf1_0))
    (spec1_1.stage ((cfgM1 V).slots t 1)) (hstage1_1 (((cfgM1 V).slots t 1).cast nbuf1_1))
    (spec1_2.stage ((cfgM1 V).slots t 2)) (hstage1_2 (((cfgM1 V).slots t 2).cast nbuf1_2))
    (spec1_3.stage ((cfgM1 V).slots t 3)) (hstage1_3 (((cfgM1 V).slots t 3).cast nbuf1_3))

/-- What the body is called with at point `t`, the windows one by one, -/
def bodyPre1 (c : Dev nD) (t : Fin (cfgM1 V).N) : sProp 𝕄 :=
  iprop((dat1 V c).Φ t.castSucc ∗ (dat1 V c).owesAt () t.castSucc
    ∗ (∃ d, owns (c : Thread nD τ) (st1_0 V t) fullShare ((dat1 V c).before 0 t d))
    ∗ (∃ d, owns (c : Thread nD τ) (st1_1 V t) fullShare ((dat1 V c).before 1 t d))
    ∗ (∃ d, owns (c : Thread nD τ) (st1_2 V t) fullShare ((dat1 V c).before 2 t d))
    ∗ (∃ d, owns (c : Thread nD τ) (st1_3 V t) fullShare ((dat1 V c).before 3 t d)))

/-- and what it returns. -/
def bodyPost1 (c : Dev nD) (t : Fin (cfgM1 V).N) : sProp 𝕄 :=
  iprop((dat1 V c).Φ t.succ ∗ (dat1 V c).owesAt () t.succ
    ∗ owns (c : Thread nD τ) (st1_0 V t) fullShare ((dat1 V c).after 0 t)
    ∗ owns (c : Thread nD τ) (st1_1 V t) fullShare ((dat1 V c).after 1 t)
    ∗ owns (c : Thread nD τ) (st1_2 V t) fullShare ((dat1 V c).after 2 t)
    ∗ owns (c : Thread nD τ) (st1_3 V t) fullShare ((dat1 V c).after 3 t))

/-- The body at any point: the inputs' memrefs hold their blocks, the table is held whole inside the invariant, so the
    body's triple applies; the rest of the invariant and the core's debts pass through unread. -/
theorem sound_body1 (c : Dev nD) (t : Fin (cfgM1 V).N) :
    bodyPre1 V c t ⊢ wp frame (wpE (defs₀ (F := F)) Variants.none c none) Set.univ (bodyAt1 V t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  rw [show (dat1 V c).Φ t.castSucc = iprop(Pipeline.ΦA spec1 c ∗ Pipeline.prefHeld (Ix := Unit) (Name := ℕ) (U := UR sig nD τ) (Lvl := ℕ) pre1 c (fun _ => fullShare) (tbl1 V)) from rfl,
    prefHeld1_eq]
  iintro ⟨⟨HΦ, HT⟩, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (tbl1 V 0) _)
  isplitl [H0]; · iexact H0
  isplitl [H1]; · iexact H1
  isplitl [H2]; · iexists _; iexact H2
  isplitl [H3]; · iexists _; iexact H3
  isplitl [HT]; · iexact HT
  iintro ⟨H0, H1, H2, H3, HT⟩
  isplitl [HΦ HT]
  · isplitl [HΦ]; · iexact HΦ
    iexact HT
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.K.Run.lean ====
/-
  The run of @main around its two kernel launches.

  @main is nine items in order: five stretches of host operations (the two clipped length tables, the average
  sentence length), launch 0, a stretch (two sums of launch 0's rows), launch 1, and a last stretch (the sums of
  launch 1's rows, the counts, the loss). Between two items a core holds every unscoped buffer whole at a known
  valuation, beside its generator register at some state and nothing owed.

  * A host stretch takes the valuation to the one after its operations.
  * A launch takes it to the valuation that differs only at the launch's four arrays, where it holds what the staged
    execution leaves after the last grid block: an input array as entered (it is never written), an output array its
    rows written back block by block. The launch's table of lengths is an unscoped buffer that no window stages: it is
    split out of the buffers at entry, rides through the launch's invariant whole at the contents the launch found, and
    is put back at exit, unchanged.
  * Launch 1's entry valuation is made from launch 0's exit valuation, so the contents are defined in that order:
    launch 0's data at the valuation before it, then launch 1's data at the valuation the stretch between makes of
    launch 0's exit.

  Two statements follow: every execution terminates with the six argument arrays as launched, and moreover the two
  result buffers end at what the last valuation holds there.
-/
import proofs.«414042_j68504728371273_3_alg».proof.Proof.K.Body
import proofs.«414042_j68504728371273_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Pipeline.Kit

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents around the two kernel regions -/

/-- The unscoped buffers as region 0 finds them, read at the TensorCore's references. -/
abbrev V5' : (c : Dev nD) → (b : Ref sig .tc) → Buf (Elt F) ((c : Thread nD τ).loc b) := fun c b => V5 m c b

/-- What region 0 leaves: its four arrays at what the pipeline's write-backs make of them after the last grid
    point (an input array is never written, so it is as entered), every other buffer as entered. -/
def W6 (c : Dev nD) : Valuation τ sig (Elt F) :=
  Pipeline.withArrays spec0 c (V5 m c) (fun w => (dat0 (V5' m) c).arrAt w (cfgM0 (V5' m)).N)

theorem W6_arr (c : Dev nD) (w : Fin 4) :
    W6 m c (Proc.devRef .tc (Pipeline.arrRef spec0 w)) = (dat0 (V5' m) c).arrAt w (cfgM0 (V5' m)).N := by
  unfold W6; exact Pipeline.withArrays_arr spec0 winFacts0.arr_inj c _ _ w

theorem W6_of_ne (c : Dev nD) (b : Ref sig .tc) (hb : ∀ w, Pipeline.arrRef spec0 w ≠ b) :
    W6 m c (Proc.devRef .tc b) = V5 m c (Proc.devRef .tc b) := by
  unfold W6; exact Pipeline.withArrays_of_ne spec0 c _ _ b hb

/-- The unknown contents of the generated valuations, as far as region 0 fixes them. -/
def outs0 : Outs (F := F) := fun _ r c => W6 m c r

/-- The unscoped buffers as region 1 finds them. -/
abbrev V7' : (c : Dev nD) → (b : Ref sig .tc) → Buf (Elt F) ((c : Thread nD τ).loc b) := fun c b => V7 m (outs0 m) c b

/-- What region 1 leaves, likewise. -/
def W8 (c : Dev nD) : Valuation τ sig (Elt F) :=
  Pipeline.withArrays spec1 c (V7 m (outs0 m) c) (fun w => (dat1 (V7' m) c).arrAt w (cfgM1 (V7' m)).N)

theorem W8_arr (c : Dev nD) (w : Fin 4) :
    W8 m c (Proc.devRef .tc (Pipeline.arrRef spec1 w)) = (dat1 (V7' m) c).arrAt w (cfgM1 (V7' m)).N := by
  unfold W8; exact Pipeline.withArrays_arr spec1 winFacts1.arr_inj c _ _ w

theorem W8_of_ne (c : Dev nD) (b : Ref sig .tc) (hb : ∀ w, Pipeline.arrRef spec1 w ≠ b) :
    W8 m c (Proc.devRef .tc b) = V7 m (outs0 m) c (Proc.devRef .tc b) := by
  unfold W8; exact Pipeline.withArrays_of_ne spec1 c _ _ b hb

/-- The unknowns of the generated valuations: after region 1 (item 7) what it leaves, before that what region 0 leaves. -/
def outs : Outs (F := F) := fun J r c => if J = 8 then W8 m c r else W6 m c r

theorem outs_six (r : Ref sig .tc) (c : Dev nD) : outs m 6 r c = W6 m c r := rfl
theorem outs_eight (r : Ref sig .tc) (c : Dev nD) : outs m 8 r c = W8 m c r := rfl

/-- An input array of region 0 leaves the region as it entered. -/
theorem W6_in (c : Dev nD) (w : Fin 4) (hin : ((cfgM0 (V5' m)).win w).isOut = false) :
    W6 m c (Proc.devRef .tc (Pipeline.arrRef spec0 w)) = V5 m c (Proc.devRef .tc (Pipeline.arrRef spec0 w)) :=
  (W6_arr m c w).trans (((dat0 (V5' m) c).arrAt_in w hin _).trans (A_eq0 (V5' m) c w))

theorem W8_in (c : Dev nD) (w : Fin 4) (hin : ((cfgM1 (V7' m)).win w).isOut = false) :
    W8 m c (Proc.devRef .tc (Pipeline.arrRef spec1 w)) = V7 m (outs0 m) c (Proc.devRef .tc (Pipeline.arrRef spec1 w)) :=
  (W8_arr m c w).trans (((dat1 (V7' m) c).arrAt_in w hin _).trans (A_eq1 (V7' m) c w))

/-- Updating the entry contents at the two output arrays by what region 0 leaves there is what region 0 leaves:
    elsewhere it leaves the entry contents. -/
theorem V6_eq_aux (o : Outs (F := F)) (ho0 : o 6 main_v10_0 = fun c => W6 m c main_v10_0) (ho1 : o 6 main_v10_1 = fun c => W6 m c main_v10_1)
    (c : Dev nD) : V6 m o c = W6 m c := by
  funext b
  unfold V6
  rw [ho0, ho1]
  by_cases h1 : b = Proc.devRef .tc main_v10_1
  · subst h1; rw [Function.update_self]
  rw [Function.update_of_ne h1]
  by_cases h0 : b = Proc.devRef .tc main_v10_0
  · subst h0; rw [Function.update_self]
  rw [Function.update_of_ne h0]
  by_cases h : ∃ w, Proc.devRef .tc (Pipeline.arrRef spec0 w) = b
  · obtain ⟨w, rfl⟩ := h
    fin_cases w
    · exact (W6_in m c 0 rfl).symm
    · exact (W6_in m c 1 rfl).symm
    · exact absurd rfl h0
    · exact absurd rfl h1
  · unfold W6 Pipeline.withArrays; rw [dif_neg h]

theorem V6_eq (c : Dev nD) : V6 m (outs m) c = W6 m c := V6_eq_aux m (outs m) rfl rfl c
theorem V6_eq0 (c : Dev nD) : V6 m (outs0 m) c = W6 m c := V6_eq_aux m (outs0 m) rfl rfl c

theorem V7_eq (c : Dev nD) : V7 m (outs m) c = V7 m (outs0 m) c := by
  show StableHlo.after hostOps1 (V6 m (outs m) c) = StableHlo.after hostOps1 (V6 m (outs0 m) c)
  rw [V6_eq, V6_eq0]

theorem V8_eq (c : Dev nD) : V8 m (outs m) c = W8 m c := by
  funext b
  unfold V8
  rw [V7_eq, show outs m 8 main_v13_0 c = W8 m c main_v13_0 from rfl, show outs m 8 main_v13_1 c = W8 m c main_v13_1 from rfl]
  by_cases h1 : b = Proc.devRef .tc main_v13_1
  · subst h1; rw [Function.update_self]
  rw [Function.update_of_ne h1]
  by_cases h0 : b = Proc.devRef .tc main_v13_0
  · subst h0; rw [Function.update_self]
  rw [Function.update_of_ne h0]
  by_cases h : ∃ w, Proc.devRef .tc (Pipeline.arrRef spec1 w) = b
  · obtain ⟨w, rfl⟩ := h
    fin_cases w
    · exact (W8_in m c 0 rfl).symm
    · exact (W8_in m c 1 rfl).symm
    · exact absurd rfl h0
    · exact absurd rfl h1
  · unfold W8 Pipeline.withArrays; rw [dif_neg h]

/-- The last valuation: what the host stretch after region 1 makes of what region 1 leaves. -/
def Vend (c : Dev nD) : Valuation τ sig (Elt F) := V9 m (outs m) c

/-! ## The proof data family and the thread state -/

/-- The prefetched tables' contents: each region's table of clipped sentence lengths as the region finds it. Region 1's
    is read off what region 0 leaves (which does not touch it). -/
abbrev adm : (p : Fin 2) → (pcfgs (F := F) p).Adm
  | ⟨0, _⟩ => adm0 (V5' m)
  | ⟨1, _⟩ => adm1 (V7' m)

/-- Every pipeline's proof data, each at its region's entry contents. -/
def pdats : (p : Fin 2) → (c : Dev nD) → Dat τ (Elt F) Unit ℕ (UR sig nD τ) ℕ (Pipeline.pin (pcfgs (F := F)) (adm m) p) c
  | ⟨0, _⟩ => fun c => dat0 (V5' m) c
  | ⟨1, _⟩ => fun c => dat1 (V7' m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the core's generator register at some state and its dues, none. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-- Region 0's exit contents at the TensorCore's references. -/
abbrev V6' : (c : Dev nD) → (b : Ref sig .tc) → Buf (Elt F) ((c : Thread nD τ).loc b) := fun c b => W6 m c b
/-- Region 1's exit contents at the TensorCore's references. -/
abbrev V8' : (c : Dev nD) → (b : Ref sig .tc) → Buf (Elt F) ((c : Thread nD τ).loc b) := fun c b => W8 m c b

theorem hF0 (c : Dev nD) (w : Fin 4) : (dat0 (V5' m) c).arrAt w (cfgM0 (V5' m)).N = V6' m c (Pipeline.arrRef spec0 w) :=
  (W6_arr m c w).symm
theorem hrest0 (c : Dev nD) : ∀ b, b ∉ Finset.univ.image (Pipeline.arrRef spec0) → V6' m c b = V5' m c b :=
  fun b hb => W6_of_ne m c b fun w e => hb (Finset.mem_image.mpr ⟨w, Finset.mem_univ _, e⟩)
theorem hF1 (c : Dev nD) (w : Fin 4) : (dat1 (V7' m) c).arrAt w (cfgM1 (V7' m)).N = V8' m c (Pipeline.arrRef spec1 w) :=
  (W8_arr m c w).symm
theorem hrest1 (c : Dev nD) : ∀ b, b ∉ Finset.univ.image (Pipeline.arrRef spec1) → V8' m c b = V7' m c b :=
  fun b hb => W8_of_ne m c b fun w e => hb (Finset.mem_image.mpr ⟨w, Finset.mem_univ _, e⟩)

/-- The table of region 0 as the thread state holds it is the admissible contents the pipeline is pinned at. -/
theorem tbl0_eq (c : Dev nD) : (fun k => V5' m c (pre0.ref k)) = tbl0 (V5' m) := funext fun k => V_pre0 (V5' m) c k
theorem tbl1_eq (c : Dev nD) : (fun k => V7' m c (pre1.ref k)) = tbl1 (V7' m) := funext fun k => V_pre1 (V7' m) c k

/-- The unscoped buffers that are no array of region 0: its table, and the rest. -/
theorem rest0_split (c : Dev nD) :
    (Pipeline.unscopedRest (Ix := Unit) (Name := ℕ) (U := UR sig nD τ) (Lvl := ℕ) spec0 c (V5' m c) : sProp 𝕄)
      = iprop(Pipeline.prefHeld pre0 c (fun _ => fullShare) (tbl0 (V5' m)) ∗ Pipeline.unscopedRestP pre0 spec0 c (V5' m c)) := by
  rw [Pipeline.unscopedRest_split preFacts0 c (V5' m c), tbl0_eq]
theorem rest1_split (c : Dev nD) :
    (Pipeline.unscopedRest (Ix := Unit) (Name := ℕ) (U := UR sig nD τ) (Lvl := ℕ) spec1 c (V7' m c) : sProp 𝕄)
      = iprop(Pipeline.prefHeld pre1 c (fun _ => fullShare) (tbl1 (V7' m)) ∗ Pipeline.unscopedRestP pre1 spec1 c (V7' m c)) := by
  rw [Pipeline.unscopedRest_split preFacts1 c (V7' m c), tbl1_eq]

/-! ## The regions as segments -/

set_option backward.isDefEq.respectTransparency.types false in
/-- REGION 0 over the thread state: entered from every unscoped buffer at `V5`, left at `V6` at the contents the
    pipeline leaves. Its arrays and its table are split out of the unscoped buffers and put back at the exit; the table
    rides through the invariant whole; the generator register goes into the invariant and comes back; nothing is owed. -/
def reg0 : Pipeline.RegionSeg (pcfgs (F := F)) (adm m) (pdats m) () defs₀ 𝒱₀ L lv 0 where
  win := winFacts0.to₀
  block_pos := block_pos0
  stage_whole := stage_whole0
  K := PEmpty
  osem k := k.elim
  ho := Pipeline.OwnSemFacts.none _
  hbody c := (body_obligation0 (V5' m) c).loose
  hwaits := Pipeline.hwaits_of_owed_zero _ _ _ _ L lv 0 fun _ _ => rfl
  pre c := iprop(StableHlo.held (c : Thread nD τ) (Pipeline.ucRefs τ sig) (V5 m c) ∗ E 0 c)
  post c := iprop(StableHlo.held (c : Thread nD τ) (Pipeline.ucRefs τ sig) (V6 m (outs m) c) ∗ E 1 c)
  X c := iprop(∃ r, prngReg c r)
  Y c := iprop((∃ r, prngReg c r) ∗ Pipeline.prefHeld (Ix := Unit) (Name := ℕ) (U := UR sig nD τ) (Lvl := ℕ) pre0 c (fun _ => fullShare) (tbl0 (V5' m)))
  Z c := Pipeline.unscopedRestP (Ix := Unit) (Name := ℕ) (U := UR sig nD τ) (Lvl := ℕ) pre0 spec0 c (V5' m c)
  hentry c := by
    rw [Pipeline.ownSems0_none]
    have hsplit := Pipeline.arrays_of_unscopedBufs (p := 0) (pcfgs (F := F)) (adm m) (pdats m) winFacts0 arr_whole0 c
      ((pdats m 0 c).share_full fun _ => rfl) (V5' m c) fun _ => rfl
    rw [Pipeline.unscopedBufs_held] at hsplit
    replace hsplit := hsplit.trans (sep_mono .rfl (Entails.of_eq (rest0_split m c)))
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = iprop(Pipeline.ΦA spec0 c ∗ Pipeline.prefHeld (Ix := Unit) (Name := ℕ) (U := UR sig nD τ) (Lvl := ℕ) pre0 c (fun _ => fullShare) (tbl0 (V5' m))) from rfl]
    unfold Pipeline.ΦA
    iintro ⟨Hp, Ht, Hr⟩
    isplitr [Ht]
    · isplitl [Hr]; · iexact Hr
      iexact Hp
    iexact Ht
  hout c := by
    rw [Pipeline.ownSems0_none, show (pdats m 0 c).Φ (Fin.last _) = iprop(Pipeline.ΦA spec0 c ∗ Pipeline.prefHeld (Ix := Unit) (Name := ℕ) (U := UR sig nD τ) (Lvl := ℕ) pre0 c (fun _ => fullShare) (tbl0 (V5' m))) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 0) (pcfgs (F := F)) (adm m) (Ix := Unit) (Name := ℕ) (U := UR sig nD τ) (Lvl := ℕ)
      winFacts0 arr_whole0 c (pdats m) ((pdats m 0 c).share_full fun _ => rfl)
      (V5' m c) (V6' m c) ((pdats m 0 c).arrAt · (cfgM0 (V5' m)).N) (hF0 m c) (hrest0 m c)
    rw [Pipeline.unscopedBufs_held, ← V6_eq] at hjoin
    replace hjoin := (sep_mono .rfl (Entails.of_eq (rest0_split m c).symm)).trans hjoin
    iintro ⟨Ha, HO, ⟨Hp, Ht⟩, Hrest⟩
    imodintro
    isplitl [Ha Ht Hrest]
    · iapply hjoin; isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

set_option backward.isDefEq.respectTransparency.types false in
/-- REGION 1 over the thread state: entered from every unscoped buffer at `V7`, left at `V8`, as region 0. -/
def reg1 : Pipeline.RegionSeg (pcfgs (F := F)) (adm m) (pdats m) () defs₀ 𝒱₀ L lv 1 where
  win := winFacts1.to₀
  block_pos := block_pos1
  stage_whole := stage_whole1
  K := PEmpty
  osem k := k.elim
  ho := Pipeline.OwnSemFacts.none _
  hbody c := (body_obligation1 (V7' m) c).loose
  hwaits := Pipeline.hwaits_of_owed_zero _ _ _ _ L lv 1 fun _ _ => rfl
  pre c := iprop(StableHlo.held (c : Thread nD τ) (Pipeline.ucRefs τ sig) (V7 m (outs m) c) ∗ E 1 c)
  post c := iprop(StableHlo.held (c : Thread nD τ) (Pipeline.ucRefs τ sig) (V8 m (outs m) c) ∗ E 2 c)
  X c := iprop(∃ r, prngReg c r)
  Y c := iprop((∃ r, prngReg c r) ∗ Pipeline.prefHeld (Ix := Unit) (Name := ℕ) (U := UR sig nD τ) (Lvl := ℕ) pre1 c (fun _ => fullShare) (tbl1 (V7' m)))
  Z c := Pipeline.unscopedRestP (Ix := Unit) (Name := ℕ) (U := UR sig nD τ) (Lvl := ℕ) pre1 spec1 c (V7' m c)
  hentry c := by
    rw [Pipeline.ownSems0_none]
    have hsplit := Pipeline.arrays_of_unscopedBufs (p := 1) (pcfgs (F := F)) (adm m) (pdats m) winFacts1 arr_whole1 c
      ((pdats m 1 c).share_full fun _ => rfl) (V7' m c) fun _ => rfl
    rw [Pipeline.unscopedBufs_held, ← V7_eq] at hsplit
    replace hsplit := hsplit.trans (sep_mono .rfl (Entails.of_eq (rest1_split m c)))
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = iprop(Pipeline.ΦA spec1 c ∗ Pipeline.prefHeld (Ix := Unit) (Name := ℕ) (U := UR sig nD τ) (Lvl := ℕ) pre1 c (fun _ => fullShare) (tbl1 (V7' m))) from rfl]
    unfold Pipeline.ΦA
    iintro ⟨Hp, Ht, Hr⟩
    isplitr [Ht]
    · isplitl [Hr]; · iexact Hr
      iexact Hp
    iexact Ht
  hout c := by
    rw [Pipeline.ownSems0_none, show (pdats m 1 c).Φ (Fin.last _) = iprop(Pipeline.ΦA spec1 c ∗ Pipeline.prefHeld (Ix := Unit) (Name := ℕ) (U := UR sig nD τ) (Lvl := ℕ) pre1 c (fun _ => fullShare) (tbl1 (V7' m))) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 1) (pcfgs (F := F)) (adm m) (Ix := Unit) (Name := ℕ) (U := UR sig nD τ) (Lvl := ℕ)
      winFacts1 arr_whole1 c (pdats m) ((pdats m 1 c).share_full fun _ => rfl)
      (V7' m c) (V8' m c) ((pdats m 1 c).arrAt · (cfgM1 (V7' m)).N) (hF1 m c) (hrest1 m c)
    rw [Pipeline.unscopedBufs_held, ← V8_eq] at hjoin
    replace hjoin := (sep_mono .rfl (Entails.of_eq (rest1_split m c).symm)).trans hjoin
    iintro ⟨Ha, HO, ⟨Hp, Ht⟩, Hrest⟩
    imodintro
    isplitl [Ha Ht Hrest]
    · iapply hjoin; isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

/-! ## The launch -/

variable (ρ : Dev nD → PrngReg)

/-- The launch's ghost element yields the pipeline library's at every staging cell; no ghost resource besides. -/
theorem hu₀ :
    (ownU (initOf (Pipeline.cells (Pipeline.pin (pcfgs (F := F)) (adm m)) (cellOf_inj (adm m))) (Pipeline.launchToks (Pipeline.pin (pcfgs (F := F)) (adm m)) (cellOf_inj (adm m)))) : sProp 𝕄)
      ⊢ |={Set.univ}=> iprop(BI.own ((emb₁ : Emb (UR sig nD τ) 𝕄) (initOf (Pipeline.cells (Pipeline.pin (pcfgs (F := F)) (adm m)) (cellOf_inj (adm m))) (Pipeline.launchToks (Pipeline.pin (pcfgs (F := F)) (adm m)) (cellOf_inj (adm m)))))
          ∗ bigSep Finset.univ (fun _ : Dev nD => (BI.emp : sProp 𝕄))) := by
  iintro Hu; imodintro
  isplitl [Hu]
  · iapply (show (ownU (initOf (Pipeline.cells (Pipeline.pin (pcfgs (F := F)) (adm m)) (cellOf_inj (adm m))) (Pipeline.launchToks (Pipeline.pin (pcfgs (F := F)) (adm m)) (cellOf_inj (adm m)))) : sProp 𝕄)
        ⊢ BI.own ((emb₁ : Emb (UR sig nD τ) 𝕄) (initOf (Pipeline.cells (Pipeline.pin (pcfgs (F := F)) (adm m)) (cellOf_inj (adm m))) (Pipeline.launchToks (Pipeline.pin (pcfgs (F := F)) (adm m)) (cellOf_inj (adm m))))) from .rfl)
    iexact Hu
  iapply (show (BI.emp : sProp 𝕄) ⊢ bigSep Finset.univ (fun _ : Dev nD => (BI.emp : sProp 𝕄)) from by rw [BI.bigSep_emp_const])
  iempintro

/-- The launch makes the rest state on every core: the generator register at its launch state, nothing owed. -/
theorem hE0 :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : E (F := F) 2 c ⊢ (iprop(∃ W, owes (c : Thread nD τ) (0 : CellTallies nD τ sig Unit) W) : sProp 𝕄) := by
  iintro ⟨-, HO⟩; iexact HO

set_option backward.isDefEq.respectTransparency.types false in
/-- THE FRAME at any `F`: every execution of @main terminates and the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_cond m emb₁ () 𝒱₀ L lv (fun _ _ => rfl) ρ (outs m) (adm m) (pdats m) 0 (fun _ => iprop(emp))
    (initOf (Pipeline.cells (Pipeline.pin (pcfgs (F := F)) (adm m)) (cellOf_inj (adm m))) (Pipeline.launchToks (Pipeline.pin (pcfgs (F := F)) (adm m)) (cellOf_inj (adm m))))
    (hu₀ m) E (hE0 ρ) hE2 (reg0 m) (fun _ => .rfl) (fun _ => .rfl) (reg1 m) (fun _ => .rfl) (fun _ => .rfl)

set_option backward.isDefEq.respectTransparency.types false in
/-- THE RUN WITH ITS RESULTS: as `frame`, and the two result buffers end at what the last valuation holds there. The
    launch over the same items; the last thread state holds EVERY unscoped buffer at the last valuation, so the two
    results are read off it beside the arguments. -/
theorem run_vals : θ_run defs (onTc (τ := τ) (main (F := F))) ⟨m, fun _ => 0, ρ⟩ (fun r => ∀ c : Dev nD,
      r.2.mem ((c.tc : Thread nD τ).loc main_v26) = Vend m c main_v26
      ∧ r.2.mem ((c.tc : Thread nD τ).loc main_v9) = Vend m c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) (adm m) (pdats m) () (cellOf_inj (adm m)) emb₁ defs₀ 𝒱₀ L lv m ρ main
    (segs m (outs m) 𝒱₀ L lv E () (adm m) (pdats m) (reg0 m) (reg1 m))
    (fun c Q => by
      rewrite [main_chain c, Seg.run_eq_chain,
        show (segs m (outs m) 𝒱₀ L lv E () (adm m) (pdats m) (reg0 m) (reg1 m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide) 0 (fun _ _ => rfl) (fun _ => iprop(emp))
    (initOf (Pipeline.cells (Pipeline.pin (pcfgs (F := F)) (adm m)) (cellOf_inj (adm m))) (Pipeline.launchToks (Pipeline.pin (pcfgs (F := F)) (adm m)) (cellOf_inj (adm m))))
    (hu₀ m)
    (T₀ := fun c => iprop(StableHlo.held (c : Thread nD τ) (Pipeline.ucRefs τ sig) (V0 m c) ∗ E 0 c))
    (Tₙ := fun c => StableHlo.held (c : Thread nD τ) (Pipeline.ucRefs τ sig) (V9 m (outs m) c))
    (hch := fun c => ⟨.rfl, .rfl, .rfl, .rfl, .rfl, .rfl, .rfl, .rfl, .rfl, sep_mono .rfl (hE2 c)⟩)
    (hinit := ?_) (QY := fun c s => s.mem ((c.tc : Thread nD τ).loc main_v26) = Vend m c main_v26 ∧ s.mem ((c.tc : Thread nD τ).loc main_v9) = Vend m c main_v9 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · -- the launch: the unscoped buffers are held at the launch contents; the rest makes `E 0` on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 (F := F) ρ) $$ [Hr Hla] with HE
    · isplitl [Hr]; · iexact Hr
      iexact Hla
    imodintro
    rw [bigSep_sep' Finset.univ (fun c : Dev nD => StableHlo.held (c : Thread nD τ) (Pipeline.ucRefs τ sig) (V0 m c)) (E (F := F) 0)]
    isplitl [Hh]; · iexact Hh
    iexact HE
  · -- the end: each buffer read off the last valuation
    unfold StableHlo.held
    iintro ⟨Hh, HSI⟩
    ihave Hr := (pointsTo_read_all (Pipeline.ucRefs τ sig) (fun b => ((c : Thread nD τ).1, b)) (V9 m (outs m) c) s') $$ [Hh HSI]
    · isplitl [Hh] <;> iassumption
    icases Hr with ⟨%h, HSI⟩
    imodintro
    isplitr
    · ipureintro
      exact ⟨h (Proc.devRef .tc main_v26) (Finset.mem_filter.mpr ⟨StableHlo.devRef_mem_tcRefs main_v26, by decide⟩),
        h (Proc.devRef .tc main_v9) (Finset.mem_filter.mpr ⟨StableHlo.devRef_mem_tcRefs main_v9, by decide⟩),
        (h (Proc.devRef .tc main_arg0) (Finset.mem_filter.mpr ⟨StableHlo.devRef_mem_tcRefs main_arg0, by decide⟩)).trans (V9_main_arg0 m (outs m) c),
        (h (Proc.devRef .tc main_arg1) (Finset.mem_filter.mpr ⟨StableHlo.devRef_mem_tcRefs main_arg1, by decide⟩)).trans (V9_main_arg1 m (outs m) c),
        (h (Proc.devRef .tc main_arg2) (Finset.mem_filter.mpr ⟨StableHlo.devRef_mem_tcRefs main_arg2, by decide⟩)).trans (V9_main_arg2 m (outs m) c),
        (h (Proc.devRef .tc main_arg3) (Finset.mem_filter.mpr ⟨StableHlo.devRef_mem_tcRefs main_arg3, by decide⟩)).trans (V9_main_arg3 m (outs m) c),
        (h (Proc.devRef .tc main_arg4) (Finset.mem_filter.mpr ⟨StableHlo.devRef_mem_tcRefs main_arg4, by decide⟩)).trans (V9_main_arg4 m (outs m) c),
        (h (Proc.devRef .tc main_arg5) (Finset.mem_filter.mpr ⟨StableHlo.devRef_mem_tcRefs main_arg5, by decide⟩)).trans (V9_main_arg5 m (outs m) c)⟩
    · iexact HSI

end Cert.Kernel.Hand

end
-- ==== Proof.KI.Body.lean ====
/-
  One block of eight sentences, as the kernel body computes it.

  At block `i` the body reads the eight clipped sentence lengths at offsets `8 i + k` (`k < 8`) of the length table,
  the whole token block `x0` (8 sentences of 256 tokens of 1024 features) and the whole array `x1` of the 128 global
  vectors, and stores two rows of 128 lanes. Each row carries one scalar in lane 0 and zero in the other lanes: the
  first row minus the masked sum of the softplus terms over the block's own sentences, the second row the sum over the
  valid tokens against all sentences less the part against the own sentence. The masks are 0/1 values made from the
  eight lengths (token position below the length) and from the block index (global vector `8 i + k` is sentence `k`'s
  own). All of this arithmetic is carried here as the named value terms of the body; what this file establishes is which
  values meet which buffers:

  * `wd`: the `k`-th word read is the table's entry at `8 i + k`;
  * `outP`, `outN`: the two rows the body leaves, as functions of the block index, the table, the token block and the
    global vectors — a store of a whole row leaves its payload, a load of a whole buffer reads the buffer;
  * the body, run at any block on buffers holding the block, the global vectors and the table, leaves exactly those
    rows and everything it only read unchanged;
  * hence, at every block of the grid, the step of the staged execution: each input buffer holds its block of the
    array it stages (fetched at this block or kept from the block before), the outputs afterwards hold `outP`, `outN`.

  The two launches (view 0, view 1) run the same body on their own arrays and their own length table, so everything is
  stated twice, once per launch, at arbitrary contents `V` of the buffers when the launch starts.
-/
import proofs.«414042_j68504728371273_3_alg».proof.Proof.Gen.KernelIdeal.Launch
import proofs.«414042_j68504728371273_3_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # What the two launches share: the whole-buffer rectangles the body loads and stores through -/

/-- The whole token block, the whole array of global vectors, the whole output row. -/
abbrev rTok : Rect S8x256x1024 := Rect.unit (s := S8x256x1024) ![0, 0, 0] S8x256x1024.size inb_S8x256x1024_S8x256x1024_0_0_0
abbrev rGlob : Rect S128x1024 := Rect.unit (s := S128x1024) ![0, 0] S128x1024.size inb_S128x1024_S128x1024_0_0
abbrev rRow : Rect S1x1x128 := Rect.unit (s := S1x1x128) ![0, 0, 0] S1x1x128.size inb_S1x1x128_S1x1x128_0_0_0

/-- A store of the whole output row covers it. -/
theorem coverRow (p0 : Vec F S1x1x128 .f32) (y : S1x1x128.Idx) :
    ∃ pc ∈ ([⟨rRow, p0⟩] : List (View.Piece (Elt F) S1x1x128 .f32)), y ∈ pc.1.set :=
  View.cover_of_tiled [⟨rRow, p0⟩] S1x1x128.size (by rfl) y

/-- The zero offsets, at rank three and at rank two. -/
theorem offZero3 : (![0, 0, 0] : Fin 3 → Nat) = fun _ => 0 := by
  funext a; match a with | ⟨0, _⟩ => rfl | ⟨1, _⟩ => rfl | ⟨2, _⟩ => rfl
theorem offZero2 : (![0, 0] : Fin 2 → Nat) = fun _ => 0 := by
  funext a; match a with | ⟨0, _⟩ => rfl | ⟨1, _⟩ => rfl

/-! # The first launch of the kernel (view 0), at the buffer contents `V` it starts from -/

/-! ## The table of clipped sentence lengths -/

/-- The table's contents when the region is entered (one device: device 0's). -/
def tbl0 : pre0.Contents (Elt F) := fun j => V (0 : Dev nD) (pre0.ref j)

/-- On every device the table holds those contents (there is one device). -/
theorem V_pre0 (c : Dev nD) (j : Fin 1) : V c (pre0.ref j) = tbl0 V j := by
  obtain rfl : c = 0 := Subsingleton.elim _ _; rfl

/-- The table's contents as admissible contents (no index map reads it, so there is no side condition),
    and the pipeline at them. -/
abbrev adm0 : (pcfg0 (F := F)).Adm := ⟨tbl0 V, trivial⟩
abbrev cfgM0 : Pipeline.Cfg sig Λ₀ := cfg0 (adm0 V)

/-- The table as the body is handed it: its whole buffer as a memref. -/
abbrev tbM0 : Memref sig .tc .smem S128 .i32 := Memref.whole main_v0
abbrev htbM0 : tbM0.IsWhole := Memref.isWhole_whole _

/-- The table's buffer on core `c`: its contents type, and the buffer held whole at contents `f`. -/
abbrev TbBuf0 (c : Dev nD) : Type := Buf (Elt F) (tbM0.view.loc (c : Thread nD τ))
abbrev tbPt0 (c : Dev nD) (f : TbBuf0 (F := F) c) : sProp 𝕄 :=
  tbM0.view.loc (c : Thread nD τ) ↦{fullShare} f

/-- The one table the region hands the body, held whole. -/
theorem prefHeld0_eq (c : Dev nD) :
    (Pipeline.prefHeld (Ix := Unit) (Name := ℕ) (U := UR sig nD τ) (Lvl := ℕ) pre0 c (fun _ => fullShare) (tbl0 V) : sProp 𝕄)
      = tbPt0 c (tbl0 V 0) := by
  unfold Pipeline.prefHeld
  rw [show (Finset.univ : Finset (Fin 1)) = {(0 : Fin 1)} from by decide, bigSep_singleton]
  rfl

/-! ## The windows' blocks -/

/-- Window `w`'s block at point `t`, read off its array as the region finds it (`V`). -/
def iblk0 (c : Dev nD) (w : Fin (cfgM0 V).W) (t : Fin (cfgM0 V).N) : (((cfgM0 V).win w).xblock ((cfgM0 V).grid.coords t)).Idx → Elt F ((cfgM0 V).win w).elt :=
  (((cfgM0 V).win w).blk t).view.read (Elt F) (V c (Pipeline.arrRef spec0 w))

/-- An input window's current staging buffer holds its block at every point, fetched there or not, for any proof
    data whose array is `V`'s and whose body leaves the block in place: unfetched, the block index has not moved. -/
theorem before0_0_of {c : Dev nD} (dat : Dat τ (Elt F) Unit ℕ (UR sig nD τ) ℕ (cfgM0 V) c) (hA : dat.A 0 = V c (Pipeline.arrRef spec0 0))
    (hafter : ∀ t, dat.after 0 t = iblk0 V c 0 t) (t : Fin (cfgM0 V).N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ (cfgM0 V) c) (hA : dat.A 1 = V c (Pipeline.arrRef spec0 1))
    (hafter : ∀ t, dat.after 1 t = iblk0 V c 1 t) (t : Fin (cfgM0 V).N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The words the body reads -/

/-- The `k`-th length word the body reads at block `i` of a table holding `f`: the word at offset `8 i + k`. -/
def wd0 (i : grid0.Coords) (f : S128.Idx → Elt F .i32) (k : Fin 8) : Elt F .i32 :=
  tbM0.view.readAt (Elt F) (Rect.unit (s := S128) (k0_off1 i (BitVec.ofNat 32 k.val)) S1.size (k0_off1_inb i k)).toLoadRect f
    (Shape.Idx.first (numel1_S1.symm ▸ Nat.one_pos))

/-- The 0/1 mask of the valid token positions of the block's eight sentences, from the eight words read. -/
abbrev vm0 (i : grid0.Coords) (f : S128.Idx → Elt F .i32) : FVec F S8x256x1 .f32 :=
  k0_pay4 (wd0 i f 0) (wd0 i f 1) (wd0 i f 2) (wd0 i f 3) (wd0 i f 4) (wd0 i f 5) (wd0 i f 6) (wd0 i f 7)

/-! ## What the body leaves in each output window's buffer -/

/-- The first output row after the body: its one store, of the whole row. -/
def outP0 (i : grid0.Coords) (f : S128.Idx → Elt F .i32) (x0 : Vec F S8x256x1024 .f32) (x1 : Vec F S128x1024 .f32) : Vec F S1x1x128 .f32 :=
  View.canon [⟨rRow, k0_pay2 (k0_pay12 (vm0 i f) (k0_pay5 i) (View.ld x0 rTok) (View.ld x1 rGlob))⟩]

/-- The second output row after the body: its one store, of the whole row. -/
def outN0 (i : grid0.Coords) (f : S128.Idx → Elt F .i32) (x0 : Vec F S8x256x1024 .f32) (x1 : Vec F S128x1024 .f32) : Vec F S1x1x128 .f32 :=
  View.canon [⟨rRow, k0_pay3 (k0_pay10 (vm0 i f) (k0_pay5 i) (View.ld x0 rTok) (View.ld x1 rGlob)) (k0_pay11 (vm0 i f) (View.ld x0 rTok) (View.ld x1 rGlob))⟩]

/-- The rows in the clean form: a whole-row store leaves its payload, a whole-buffer load reads the buffer. -/
theorem outP0_eq (i : grid0.Coords) (f : S128.Idx → Elt F .i32) (x0 : Vec F S8x256x1024 .f32) (x1 : Vec F S128x1024 .f32) :
    outP0 i f x0 x1 = k0_pay2 (k0_pay12 (k0_pay4 (wd0 i f 0) (wd0 i f 1) (wd0 i f 2) (wd0 i f 3) (wd0 i f 4) (wd0 i f 5) (wd0 i f 6) (wd0 i f 7)) (k0_pay5 i) x0 x1) := by
  unfold outP0
  rw [View.canon_unit_zero offZero3]
  simp only [View.ld_unit_zero (S := S8x256x1024) offZero3, View.ld_unit_zero (S := S128x1024) offZero2]

theorem outN0_eq (i : grid0.Coords) (f : S128.Idx → Elt F .i32) (x0 : Vec F S8x256x1024 .f32) (x1 : Vec F S128x1024 .f32) :
    outN0 i f x0 x1 = k0_pay3 (k0_pay10 (k0_pay4 (wd0 i f 0) (wd0 i f 1) (wd0 i f 2) (wd0 i f 3) (wd0 i f 4) (wd0 i f 5) (wd0 i f 6) (wd0 i f 7)) (k0_pay5 i) x0 x1)
      (k0_pay11 (k0_pay4 (wd0 i f 0) (wd0 i f 1) (wd0 i f 2) (wd0 i f 3) (wd0 i f 4) (wd0 i f 5) (wd0 i f 6) (wd0 i f 7)) x0 x1) := by
  unfold outN0
  rw [View.canon_unit_zero offZero3]
  simp only [View.ld_unit_zero (S := S8x256x1024) offZero3, View.ld_unit_zero (S := S128x1024) offZero2]

/-- The word read is the table's entry at `8 i + k`. -/
theorem wd0_eq (i : grid0.Coords) (f : S128.Idx → Elt F .i32) (k : Fin 8) :
    wd0 i f k = f (ValueIdx.ix1 ⟨8 * (i 0).val + k.val, by have h : (i 0).val < 16 := (i 0).isLt; have := k.isLt; omega⟩) := by
  unfold wd0
  show f ((Rect.unit (s := S128) (k0_off1 i (BitVec.ofNat 32 k.val)) S1.size (k0_off1_inb i k)).emb _) = f _
  refine congrArg f ?_
  funext a
  match a with
  | ⟨0, _⟩ =>
    refine Fin.ext ?_
    rw [Rect.emb_apply]
    show (k0_off1 i (BitVec.ofNat 32 k.val)) 0 + 1 * 0 = 8 * (i 0).val + k.val
    rw [k0_off1_eq i k]
    rfl

/-! ## The body's triple -/

set_option maxHeartbeats 1000000 in
/-- The body at block `i` on whole staging memrefs — the two inputs' at contents `x0`, `x1`, the two outputs' at
    anything, the table held at `xt` — runs to the continuation holding the inputs and the table as they were and the
    two output rows at `outP0`, `outN0` of the inputs and the table's words. -/
theorem sound_kernel0 (c : Dev nD) (E : Set ℕ) (i : grid0.Coords)
    (arg2 : Memref sig .tc .vmem S8x256x1024 .f32) (harg2 : arg2.IsWhole) (arg3 : Memref sig .tc .vmem S128x1024 .f32) (harg3 : arg3.IsWhole)
    (arg4 : Memref sig .tc .vmem S1x1x128 .f32) (harg4 : arg4.IsWhole) (arg5 : Memref sig .tc .vmem S1x1x128 .f32) (harg5 : arg5.IsWhole)
    (x0 : Vec F S8x256x1024 .f32) (x1 : Vec F S128x1024 .f32) (xt : TbBuf0 (F := F) c) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ tbPt0 c xt
        ∗ (iprop(owns (c : Thread nD τ) arg2 fullShare x0 ∗ owns (c : Thread nD τ) arg3 fullShare x1
            ∗ owns (c : Thread nD τ) arg4 fullShare (outP0 i xt x0 x1) ∗ owns (c : Thread nD τ) arg5 fullShare (outN0 i xt x0 x1)
            ∗ tbPt0 c xt) -∗ K ⟨⟩))
      ⊢ wp frame (wpE (defs₀ (F := F)) Variants.none c none) E (cc0_kernel i tbM0 htbM0 arg2 harg2 arg3 harg3 arg4 harg4 arg5 harg5) K := by
  simp only [cc0_kernel_eq_skeleton]; unfold cc0_kernel_skel
  simp only [k0_part1_eq_skeleton, k0_part2_eq_skeleton]
  unfold owns
  iintro ⟨⟨%f0, %hf0, H0⟩, ⟨%f1, %hf1, H1⟩, ⟨%d2, %f2, -, H2⟩, ⟨%d3, %f3, -, H3⟩, HT, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverRow _)
  isplitl [H3]
  · iexists _; isplitr
    swap; · iexact H3
    ipureintro
    exact View.read_writes_eq_canon _ _ _ (coverRow _)
  iexact HT

/-! ## The pipeline's proof data -/

/-- The proof data of the first launch on core `c`: the arrays as the region finds them (`V`); after the body at
    point `t` each input's buffer at its block and the two output rows at `outP0`, `outN0` of the input blocks and
    the table's words; the invariant the untouched scoped rest and generator register, and the table held whole;
    nothing owed; full shares. -/
def dat0 (c : Dev nD) : Dat τ (Elt F) Unit ℕ (UR sig nD τ) ℕ (cfgM0 V) c where
  A w := V c (Pipeline.arrRef spec0 w)
  after w t := match w with
    | ⟨0, _⟩ => iblk0 V c 0 t
    | ⟨1, _⟩ => iblk0 V c 1 t
    | ⟨2, _⟩ => outP0 (grid0.coords t) (tbl0 V 0) (iblk0 V c 0 t) (iblk0 V c 1 t)
    | ⟨3, _⟩ => outN0 (grid0.coords t) (tbl0 V 0) (iblk0 V c 0 t) (iblk0 V c 1 t)
  Φ _ := iprop(Pipeline.ΦA spec0 c ∗ Pipeline.prefHeld (Ix := Unit) (Name := ℕ) (U := UR sig nD τ) (Lvl := ℕ) pre0 c (fun _ => fullShare) (tbl0 V))
  q _ := fullShare
  owed _ := 0

/-- The proof data's arrays are the region-entry contents. -/
theorem A_eq0 (c : Dev nD) (w : Fin (cfgM0 V).W) : (dat0 V c).A w = V c (Pipeline.arrRef spec0 w) := by
  dsimp only [dat0]

/-- What the body leaves, window by window. -/
theorem after0_0 (c : Dev nD) (t : Fin (cfgM0 V).N) : (dat0 V c).after 0 t = iblk0 V c 0 t := by dsimp only [dat0]; rfl
theorem after0_1 (c : Dev nD) (t : Fin (cfgM0 V).N) : (dat0 V c).after 1 t = iblk0 V c 1 t := by dsimp only [dat0]; rfl
theorem after0_2 (c : Dev nD) (t : Fin (cfgM0 V).N) :
    (dat0 V c).after 2 t = outP0 (grid0.coords t) (tbl0 V 0) (iblk0 V c 0 t) (iblk0 V c 1 t) := by dsimp only [dat0]; rfl
theorem after0_3 (c : Dev nD) (t : Fin (cfgM0 V).N) :
    (dat0 V c).after 3 t = outN0 (grid0.coords t) (tbl0 V 0) (iblk0 V c 0 t) (iblk0 V c 1 t) := by dsimp only [dat0]; rfl

/-- Each input's current staging buffer holds its block at every point, fetched there or not. -/
theorem before0_0 (c : Dev nD) (t : Fin (cfgM0 V).N) (d) : (dat0 V c).before 0 t d = iblk0 V c 0 t :=
  before0_0_of V (dat0 V c) (A_eq0 V c 0) (after0_0 V c) t d
theorem before0_1 (c : Dev nD) (t : Fin (cfgM0 V).N) (d) : (dat0 V c).before 1 t d = iblk0 V c 1 t :=
  before0_1_of V (dat0 V c) (A_eq0 V c 1) (after0_1 V c) t d

/-! ## The body obligation, at a generic point -/

/-- The current staging memref of each window at point `t`. -/
abbrev st0_0 (t : Fin (cfgM0 V).N) := ((cfgM0 V).win 0).stage ((cfgM0 V).slots t 0)
abbrev st0_1 (t : Fin (cfgM0 V).N) := ((cfgM0 V).win 1).stage ((cfgM0 V).slots t 1)
abbrev st0_2 (t : Fin (cfgM0 V).N) := ((cfgM0 V).win 2).stage ((cfgM0 V).slots t 2)
abbrev st0_3 (t : Fin (cfgM0 V).N) := ((cfgM0 V).win 3).stage ((cfgM0 V).slots t 3)

/-- The body at point `t`, on what the pipeline calls it with: the block's coordinates, the table's memref, each
    window's current staging memref. -/
abbrev bodyAt0 (t : Fin (cfgM0 V).N) : Prog (TpuEff nD τ sig (Elt F) Λ₀ .tc) PUnit :=
  cc0_kernel (grid0.coords t) (Memref.whole main_v0) (Memref.isWhole_whole _)
    (spec0_0.stage ((cfgM0 V).slots t 0)) (hstage0_0 (((cfgM0 V).slots t 0).cast nbuf0_0))
    (spec0_1.stage ((cfgM0 V).slots t 1)) (hstage0_1 (((cfgM0 V).slots t 1).cast nbuf0_1))
    (spec0_2.stage ((cfgM0 V).slots t 2)) (hstage0_2 (((cfgM0 V).slots t 2).cast nbuf0_2))
    (spec0_3.stage ((cfgM0 V).slots t 3)) (hstage0_3 (((cfgM0 V).slots t 3).cast nbuf0_3))

/-- What the body is called with at point `t`, the windows one by one, -/
def bodyPre0 (c : Dev nD) (t : Fin (cfgM0 V).N) : sProp 𝕄 :=
  iprop((dat0 V c).Φ t.castSucc ∗ (dat0 V c).owesAt () t.castSucc
    ∗ (∃ d, owns (c : Thread nD τ) (st0_0 V t) fullShare ((dat0 V c).before 0 t d))
    ∗ (∃ d, owns (c : Thread nD τ) (st0_1 V t) fullShare ((dat0 V c).before 1 t d))
    ∗ (∃ d, owns (c : Thread nD τ) (st0_2 V t) fullShare ((dat0 V c).before 2 t d))
    ∗ (∃ d, owns (c : Thread nD τ) (st0_3 V t) fullShare ((dat0 V c).before 3 t d)))

/-- and what it returns. -/
def bodyPost0 (c : Dev nD) (t : Fin (cfgM0 V).N) : sProp 𝕄 :=
  iprop((dat0 V c).Φ t.succ ∗ (dat0 V c).owesAt () t.succ
    ∗ owns (c : Thread nD τ) (st0_0 V t) fullShare ((dat0 V c).after 0 t)
    ∗ owns (c : Thread nD τ) (st0_1 V t) fullShare ((dat0 V c).after 1 t)
    ∗ owns (c : Thread nD τ) (st0_2 V t) fullShare ((dat0 V c).after 2 t)
    ∗ owns (c : Thread nD τ) (st0_3 V t) fullShare ((dat0 V c).after 3 t))

/-- The body at any point: the inputs' memrefs hold their blocks, the table is held whole inside the invariant, so the
    body's triple applies; the rest of the invariant and the core's debts pass through unread. -/
theorem sound_body0 (c : Dev nD) (t : Fin (cfgM0 V).N) :
    bodyPre0 V c t ⊢ wp frame (wpE (defs₀ (F := F)) Variants.none c none) Set.univ (bodyAt0 V t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  rw [show (dat0 V c).Φ t.castSucc = iprop(Pipeline.ΦA spec0 c ∗ Pipeline.prefHeld (Ix := Unit) (Name := ℕ) (U := UR sig nD τ) (Lvl := ℕ) pre0 c (fun _ => fullShare) (tbl0 V)) from rfl,
    prefHeld0_eq]
  iintro ⟨⟨HΦ, HT⟩, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (tbl0 V 0) _)
  isplitl [H0]; · iexact H0
  isplitl [H1]; · iexact H1
  isplitl [H2]; · iexists _; iexact H2
  isplitl [H3]; · iexists _; iexact H3
  isplitl [HT]; · iexact HT
  iintro ⟨H0, H1, H2, H3, HT⟩
  isplitl [HΦ HT]
  · isplitl [HΦ]; · iexact HΦ
    iexact HT
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-! # The second launch of the kernel (view 1), at the buffer contents `V` it starts from -/

/-! ## The table of clipped sentence lengths -/

/-- The table's contents when the region is entered (one device: device 0's). -/
def tbl1 : pre1.Contents (Elt F) := fun j => V (0 : Dev nD) (pre1.ref j)

/-- On every device the table holds those contents (there is one device). -/
theorem V_pre1 (c : Dev nD) (j : Fin 1) : V c (pre1.ref j) = tbl1 V j := by
  obtain rfl : c = 0 := Subsingleton.elim _ _; rfl

/-- The table's contents as admissible contents (no index map reads it, so there is no side condition),
    and the pipeline at them. -/
abbrev adm1 : (pcfg1 (F := F)).Adm := ⟨tbl1 V, trivial⟩
abbrev cfgM1 : Pipeline.Cfg sig Λ₀ := cfg1 (adm1 V)

/-- The table as the body is handed it: its whole buffer as a memref. -/
abbrev tbM1 : Memref sig .tc .smem S128 .i32 := Memref.whole main_v1
abbrev htbM1 : tbM1.IsWhole := Memref.isWhole_whole _

/-- The table's buffer on core `c`: its contents type, and the buffer held whole at contents `f`. -/
abbrev TbBuf1 (c : Dev nD) : Type := Buf (Elt F) (tbM1.view.loc (c : Thread nD τ))
abbrev tbPt1 (c : Dev nD) (f : TbBuf1 (F := F) c) : sProp 𝕄 :=
  tbM1.view.loc (c : Thread nD τ) ↦{fullShare} f

/-- The one table the region hands the body, held whole. -/
theorem prefHeld1_eq (c : Dev nD) :
    (Pipeline.prefHeld (Ix := Unit) (Name := ℕ) (U := UR sig nD τ) (Lvl := ℕ) pre1 c (fun _ => fullShare) (tbl1 V) : sProp 𝕄)
      = tbPt1 c (tbl1 V 0) := by
  unfold Pipeline.prefHeld
  rw [show (Finset.univ : Finset (Fin 1)) = {(0 : Fin 1)} from by decide, bigSep_singleton]
  rfl

/-! ## The windows' blocks -/

/-- Window `w`'s block at point `t`, read off its array as the region finds it (`V`). -/
def iblk1 (c : Dev nD) (w : Fin (cfgM1 V).W) (t : Fin (cfgM1 V).N) : (((cfgM1 V).win w).xblock ((cfgM1 V).grid.coords t)).Idx → Elt F ((cfgM1 V).win w).elt :=
  (((cfgM1 V).win w).blk t).view.read (Elt F) (V c (Pipeline.arrRef spec1 w))

/-- An input window's current staging buffer holds its block at every point, fetched there or not, for any proof
    data whose array is `V`'s and whose body leaves the block in place: unfetched, the block index has not moved. -/
theorem before1_0_of {c : Dev nD} (dat : Dat τ (Elt F) Unit ℕ (UR sig nD τ) ℕ (cfgM1 V) c) (hA : dat.A 0 = V c (Pipeline.arrRef spec1 0))
    (hafter : ∀ t, dat.after 0 t = iblk1 V c 0 t) (t : Fin (cfgM1 V).N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ (cfgM1 V) c) (hA : dat.A 1 = V c (Pipeline.arrRef spec1 1))
    (hafter : ∀ t, dat.after 1 t = iblk1 V c 1 t) (t : Fin (cfgM1 V).N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The words the body reads -/

/-- The `k`-th length word the body reads at block `i` of a table holding `f`: the word at offset `8 i + k`. -/
def wd1 (i : grid1.Coords) (f : S128.Idx → Elt F .i32) (k : Fin 8) : Elt F .i32 :=
  tbM1.view.readAt (Elt F) (Rect.unit (s := S128) (k1_off1 i (BitVec.ofNat 32 k.val)) S1.size (k1_off1_inb i k)).toLoadRect f
    (Shape.Idx.first (numel1_S1.symm ▸ Nat.one_pos))

/-- The 0/1 mask of the valid token positions of the block's eight sentences, from the eight words read. -/
abbrev vm1 (i : grid1.Coords) (f : S128.Idx → Elt F .i32) : FVec F S8x256x1 .f32 :=
  k1_pay4 (wd1 i f 0) (wd1 i f 1) (wd1 i f 2) (wd1 i f 3) (wd1 i f 4) (wd1 i f 5) (wd1 i f 6) (wd1 i f 7)

/-! ## What the body leaves in each output window's buffer -/

/-- The first output row after the body: its one store, of the whole row. -/
def outP1 (i : grid1.Coords) (f : S128.Idx → Elt F .i32) (x0 : Vec F S8x256x1024 .f32) (x1 : Vec F S128x1024 .f32) : Vec F S1x1x128 .f32 :=
  View.canon [⟨rRow, k1_pay2 (k1_pay12 (vm1 i f) (k1_pay5 i) (View.ld x0 rTok) (View.ld x1 rGlob))⟩]

/-- The second output row after the body: its one store, of the whole row. -/
def outN1 (i : grid1.Coords) (f : S128.Idx → Elt F .i32) (x0 : Vec F S8x256x1024 .f32) (x1 : Vec F S128x1024 .f32) : Vec F S1x1x128 .f32 :=
  View.canon [⟨rRow, k1_pay3 (k1_pay10 (vm1 i f) (k1_pay5 i) (View.ld x0 rTok) (View.ld x1 rGlob)) (k1_pay11 (vm1 i f) (View.ld x0 rTok) (View.ld x1 rGlob))⟩]

/-- The rows in the clean form: a whole-row store leaves its payload, a whole-buffer load reads the buffer. -/
theorem outP1_eq (i : grid1.Coords) (f : S128.Idx → Elt F .i32) (x0 : Vec F S8x256x1024 .f32) (x1 : Vec F S128x1024 .f32) :
    outP1 i f x0 x1 = k1_pay2 (k1_pay12 (k1_pay4 (wd1 i f 0) (wd1 i f 1) (wd1 i f 2) (wd1 i f 3) (wd1 i f 4) (wd1 i f 5) (wd1 i f 6) (wd1 i f 7)) (k1_pay5 i) x0 x1) := by
  unfold outP1
  rw [View.canon_unit_zero offZero3]
  simp only [View.ld_unit_zero (S := S8x256x1024) offZero3, View.ld_unit_zero (S := S128x1024) offZero2]

theorem outN1_eq (i : grid1.Coords) (f : S128.Idx → Elt F .i32) (x0 : Vec F S8x256x1024 .f32) (x1 : Vec F S128x1024 .f32) :
    outN1 i f x0 x1 = k1_pay3 (k1_pay10 (k1_pay4 (wd1 i f 0) (wd1 i f 1) (wd1 i f 2) (wd1 i f 3) (wd1 i f 4) (wd1 i f 5) (wd1 i f 6) (wd1 i f 7)) (k1_pay5 i) x0 x1)
      (k1_pay11 (k1_pay4 (wd1 i f 0) (wd1 i f 1) (wd1 i f 2) (wd1 i f 3) (wd1 i f 4) (wd1 i f 5) (wd1 i f 6) (wd1 i f 7)) x0 x1) := by
  unfold outN1
  rw [View.canon_unit_zero offZero3]
  simp only [View.ld_unit_zero (S := S8x256x1024) offZero3, View.ld_unit_zero (S := S128x1024) offZero2]

/-- The word read is the table's entry at `8 i + k`. -/
theorem wd1_eq (i : grid1.Coords) (f : S128.Idx → Elt F .i32) (k : Fin 8) :
    wd1 i f k = f (ValueIdx.ix1 ⟨8 * (i 0).val + k.val, by have h : (i 0).val < 16 := (i 0).isLt; have := k.isLt; omega⟩) := by
  unfold wd1
  show f ((Rect.unit (s := S128) (k1_off1 i (BitVec.ofNat 32 k.val)) S1.size (k1_off1_inb i k)).emb _) = f _
  refine congrArg f ?_
  funext a
  match a with
  | ⟨0, _⟩ =>
    refine Fin.ext ?_
    rw [Rect.emb_apply]
    show (k1_off1 i (BitVec.ofNat 32 k.val)) 0 + 1 * 0 = 8 * (i 0).val + k.val
    rw [k1_off1_eq i k]
    rfl

/-! ## The body's triple -/

set_option maxHeartbeats 1000000 in
/-- The body at block `i` on whole staging memrefs — the two inputs' at contents `x0`, `x1`, the two outputs' at
    anything, the table held at `xt` — runs to the continuation holding the inputs and the table as they were and the
    two output rows at `outP1`, `outN1` of the inputs and the table's words. -/
theorem sound_kernel1 (c : Dev nD) (E : Set ℕ) (i : grid1.Coords)
    (arg2 : Memref sig .tc .vmem S8x256x1024 .f32) (harg2 : arg2.IsWhole) (arg3 : Memref sig .tc .vmem S128x1024 .f32) (harg3 : arg3.IsWhole)
    (arg4 : Memref sig .tc .vmem S1x1x128 .f32) (harg4 : arg4.IsWhole) (arg5 : Memref sig .tc .vmem S1x1x128 .f32) (harg5 : arg5.IsWhole)
    (x0 : Vec F S8x256x1024 .f32) (x1 : Vec F S128x1024 .f32) (xt : TbBuf1 (F := F) c) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ tbPt1 c xt
        ∗ (iprop(owns (c : Thread nD τ) arg2 fullShare x0 ∗ owns (c : Thread nD τ) arg3 fullShare x1
            ∗ owns (c : Thread nD τ) arg4 fullShare (outP1 i xt x0 x1) ∗ owns (c : Thread nD τ) arg5 fullShare (outN1 i xt x0 x1)
            ∗ tbPt1 c xt) -∗ K ⟨⟩))
      ⊢ wp frame (wpE (defs₀ (F := F)) Variants.none c none) E (cc1_kernel i tbM1 htbM1 arg2 harg2 arg3 harg3 arg4 harg4 arg5 harg5) K := by
  simp only [cc1_kernel_eq_skeleton]; unfold cc1_kernel_skel
  simp only [k1_part1_eq_skeleton, k1_part2_eq_skeleton]
  unfold owns
  iintro ⟨⟨%f0, %hf0, H0⟩, ⟨%f1, %hf1, H1⟩, ⟨%d2, %f2, -, H2⟩, ⟨%d3, %f3, -, H3⟩, HT, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverRow _)
  isplitl [H3]
  · iexists _; isplitr
    swap; · iexact H3
    ipureintro
    exact View.read_writes_eq_canon _ _ _ (coverRow _)
  iexact HT

/-! ## The pipeline's proof data -/

/-- The proof data of the second launch on core `c`: the arrays as the region finds them (`V`); after the body at
    point `t` each input's buffer at its block and the two output rows at `outP1`, `outN1` of the input blocks and
    the table's words; the invariant the untouched scoped rest and generator register, and the table held whole;
    nothing owed; full shares. -/
def dat1 (c : Dev nD) : Dat τ (Elt F) Unit ℕ (UR sig nD τ) ℕ (cfgM1 V) c where
  A w := V c (Pipeline.arrRef spec1 w)
  after w t := match w with
    | ⟨0, _⟩ => iblk1 V c 0 t
    | ⟨1, _⟩ => iblk1 V c 1 t
    | ⟨2, _⟩ => outP1 (grid1.coords t) (tbl1 V 0) (iblk1 V c 0 t) (iblk1 V c 1 t)
    | ⟨3, _⟩ => outN1 (grid1.coords t) (tbl1 V 0) (iblk1 V c 0 t) (iblk1 V c 1 t)
  Φ _ := iprop(Pipeline.ΦA spec1 c ∗ Pipeline.prefHeld (Ix := Unit) (Name := ℕ) (U := UR sig nD τ) (Lvl := ℕ) pre1 c (fun _ => fullShare) (tbl1 V))
  q _ := fullShare
  owed _ := 0

/-- The proof data's arrays are the region-entry contents. -/
theorem A_eq1 (c : Dev nD) (w : Fin (cfgM1 V).W) : (dat1 V c).A w = V c (Pipeline.arrRef spec1 w) := by
  dsimp only [dat1]

/-- What the body leaves, window by window. -/
theorem after1_0 (c : Dev nD) (t : Fin (cfgM1 V).N) : (dat1 V c).after 0 t = iblk1 V c 0 t := by dsimp only [dat1]; rfl
theorem after1_1 (c : Dev nD) (t : Fin (cfgM1 V).N) : (dat1 V c).after 1 t = iblk1 V c 1 t := by dsimp only [dat1]; rfl
theorem after1_2 (c : Dev nD) (t : Fin (cfgM1 V).N) :
    (dat1 V c).after 2 t = outP1 (grid1.coords t) (tbl1 V 0) (iblk1 V c 0 t) (iblk1 V c 1 t) := by dsimp only [dat1]; rfl
theorem after1_3 (c : Dev nD) (t : Fin (cfgM1 V).N) :
    (dat1 V c).after 3 t = outN1 (grid1.coords t) (tbl1 V 0) (iblk1 V c 0 t) (iblk1 V c 1 t) := by dsimp only [dat1]; rfl

/-- Each input's current staging buffer holds its block at every point, fetched there or not. -/
theorem before1_0 (c : Dev nD) (t : Fin (cfgM1 V).N) (d) : (dat1 V c).before 0 t d = iblk1 V c 0 t :=
  before1_0_of V (dat1 V c) (A_eq1 V c 0) (after1_0 V c) t d
theorem before1_1 (c : Dev nD) (t : Fin (cfgM1 V).N) (d) : (dat1 V c).before 1 t d = iblk1 V c 1 t :=
  before1_1_of V (dat1 V c) (A_eq1 V c 1) (after1_1 V c) t d

/-! ## The body obligation, at a generic point -/

/-- The current staging memref of each window at point `t`. -/
abbrev st1_0 (t : Fin (cfgM1 V).N) := ((cfgM1 V).win 0).stage ((cfgM1 V).slots t 0)
abbrev st1_1 (t : Fin (cfgM1 V).N) := ((cfgM1 V).win 1).stage ((cfgM1 V).slots t 1)
abbrev st1_2 (t : Fin (cfgM1 V).N) := ((cfgM1 V).win 2).stage ((cfgM1 V).slots t 2)
abbrev st1_3 (t : Fin (cfgM1 V).N) := ((cfgM1 V).win 3).stage ((cfgM1 V).slots t 3)

/-- The body at point `t`, on what the pipeline calls it with: the block's coordinates, the table's memref, each
    window's current staging memref. -/
abbrev bodyAt1 (t : Fin (cfgM1 V).N) : Prog (TpuEff nD τ sig (Elt F) Λ₀ .tc) PUnit :=
  cc1_kernel (grid1.coords t) (Memref.whole main_v1) (Memref.isWhole_whole _)
    (spec1_0.stage ((cfgM1 V).slots t 0)) (hstage1_0 (((cfgM1 V).slots t 0).cast nbuf1_0))
    (spec1_1.stage ((cfgM1 V).slots t 1)) (hstage1_1 (((cfgM1 V).slots t 1).cast nbuf1_1))
    (spec1_2.stage ((cfgM1 V).slots t 2)) (hstage1_2 (((cfgM1 V).slots t 2).cast nbuf1_2))
    (spec1_3.stage ((cfgM1 V).slots t 3)) (hstage1_3 (((cfgM1 V).slots t 3).cast nbuf1_3))

/-- What the body is called with at point `t`, the windows one by one, -/
def bodyPre1 (c : Dev nD) (t : Fin (cfgM1 V).N) : sProp 𝕄 :=
  iprop((dat1 V c).Φ t.castSucc ∗ (dat1 V c).owesAt () t.castSucc
    ∗ (∃ d, owns (c : Thread nD τ) (st1_0 V t) fullShare ((dat1 V c).before 0 t d))
    ∗ (∃ d, owns (c : Thread nD τ) (st1_1 V t) fullShare ((dat1 V c).before 1 t d))
    ∗ (∃ d, owns (c : Thread nD τ) (st1_2 V t) fullShare ((dat1 V c).before 2 t d))
    ∗ (∃ d, owns (c : Thread nD τ) (st1_3 V t) fullShare ((dat1 V c).before 3 t d)))

/-- and what it returns. -/
def bodyPost1 (c : Dev nD) (t : Fin (cfgM1 V).N) : sProp 𝕄 :=
  iprop((dat1 V c).Φ t.succ ∗ (dat1 V c).owesAt () t.succ
    ∗ owns (c : Thread nD τ) (st1_0 V t) fullShare ((dat1 V c).after 0 t)
    ∗ owns (c : Thread nD τ) (st1_1 V t) fullShare ((dat1 V c).after 1 t)
    ∗ owns (c : Thread nD τ) (st1_2 V t) fullShare ((dat1 V c).after 2 t)
    ∗ owns (c : Thread nD τ) (st1_3 V t) fullShare ((dat1 V c).after 3 t))

/-- The body at any point: the inputs' memrefs hold their blocks, the table is held whole inside the invariant, so the
    body's triple applies; the rest of the invariant and the core's debts pass through unread. -/
theorem sound_body1 (c : Dev nD) (t : Fin (cfgM1 V).N) :
    bodyPre1 V c t ⊢ wp frame (wpE (defs₀ (F := F)) Variants.none c none) Set.univ (bodyAt1 V t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  rw [show (dat1 V c).Φ t.castSucc = iprop(Pipeline.ΦA spec1 c ∗ Pipeline.prefHeld (Ix := Unit) (Name := ℕ) (U := UR sig nD τ) (Lvl := ℕ) pre1 c (fun _ => fullShare) (tbl1 V)) from rfl,
    prefHeld1_eq]
  iintro ⟨⟨HΦ, HT⟩, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (tbl1 V 0) _)
  isplitl [H0]; · iexact H0
  isplitl [H1]; · iexact H1
  isplitl [H2]; · iexists _; iexact H2
  isplitl [H3]; · iexists _; iexact H3
  isplitl [HT]; · iexact HT
  iintro ⟨H0, H1, H2, H3, HT⟩
  isplitl [HΦ HT]
  · isplitl [HΦ]; · iexact HΦ
    iexact HT
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KI.Run.lean ====
/-
  The run of @main around its two kernel launches.

  @main is nine items in order: five stretches of host operations (the two clipped length tables, the average
  sentence length), launch 0, a stretch (two sums of launch 0's rows), launch 1, and a last stretch (the sums of
  launch 1's rows, the counts, the loss). Between two items a core holds every unscoped buffer whole at a known
  valuation, beside its generator register at some state and nothing owed.

  * A host stretch takes the valuation to the one after its operations.
  * A launch takes it to the valuation that differs only at the launch's four arrays, where it holds what the staged
    execution leaves after the last grid block: an input array as entered (it is never written), an output array its
    rows written back block by block. The launch's table of lengths is an unscoped buffer that no window stages: it is
    split out of the buffers at entry, rides through the launch's invariant whole at the contents the launch found, and
    is put back at exit, unchanged.
  * Launch 1's entry valuation is made from launch 0's exit valuation, so the contents are defined in that order:
    launch 0's data at the valuation before it, then launch 1's data at the valuation the stretch between makes of
    launch 0's exit.

  Two statements follow: every execution terminates with the six argument arrays as launched, and moreover the two
  result buffers end at what the last valuation holds there.
-/
import proofs.«414042_j68504728371273_3_alg».proof.Proof.KI.Body
import proofs.«414042_j68504728371273_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Pipeline.Kit

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents around the two kernel regions -/

/-- The unscoped buffers as region 0 finds them, read at the TensorCore's references. -/
abbrev V5' : (c : Dev nD) → (b : Ref sig .tc) → Buf (Elt F) ((c : Thread nD τ).loc b) := fun c b => V5 m c b

/-- What region 0 leaves: its four arrays at what the pipeline's write-backs make of them after the last grid
    point (an input array is never written, so it is as entered), every other buffer as entered. -/
def W6 (c : Dev nD) : Valuation τ sig (Elt F) :=
  Pipeline.withArrays spec0 c (V5 m c) (fun w => (dat0 (V5' m) c).arrAt w (cfgM0 (V5' m)).N)

theorem W6_arr (c : Dev nD) (w : Fin 4) :
    W6 m c (Proc.devRef .tc (Pipeline.arrRef spec0 w)) = (dat0 (V5' m) c).arrAt w (cfgM0 (V5' m)).N := by
  unfold W6; exact Pipeline.withArrays_arr spec0 winFacts0.arr_inj c _ _ w

theorem W6_of_ne (c : Dev nD) (b : Ref sig .tc) (hb : ∀ w, Pipeline.arrRef spec0 w ≠ b) :
    W6 m c (Proc.devRef .tc b) = V5 m c (Proc.devRef .tc b) := by
  unfold W6; exact Pipeline.withArrays_of_ne spec0 c _ _ b hb

/-- The unknown contents of the generated valuations, as far as region 0 fixes them. -/
def outs0 : Outs (F := F) := fun _ r c => W6 m c r

/-- The unscoped buffers as region 1 finds them. -/
abbrev V7' : (c : Dev nD) → (b : Ref sig .tc) → Buf (Elt F) ((c : Thread nD τ).loc b) := fun c b => V7 m (outs0 m) c b

/-- What region 1 leaves, likewise. -/
def W8 (c : Dev nD) : Valuation τ sig (Elt F) :=
  Pipeline.withArrays spec1 c (V7 m (outs0 m) c) (fun w => (dat1 (V7' m) c).arrAt w (cfgM1 (V7' m)).N)

theorem W8_arr (c : Dev nD) (w : Fin 4) :
    W8 m c (Proc.devRef .tc (Pipeline.arrRef spec1 w)) = (dat1 (V7' m) c).arrAt w (cfgM1 (V7' m)).N := by
  unfold W8; exact Pipeline.withArrays_arr spec1 winFacts1.arr_inj c _ _ w

theorem W8_of_ne (c : Dev nD) (b : Ref sig .tc) (hb : ∀ w, Pipeline.arrRef spec1 w ≠ b) :
    W8 m c (Proc.devRef .tc b) = V7 m (outs0 m) c (Proc.devRef .tc b) := by
  unfold W8; exact Pipeline.withArrays_of_ne spec1 c _ _ b hb

/-- The unknowns of the generated valuations: after region 1 (item 7) what it leaves, before that what region 0 leaves. -/
def outs : Outs (F := F) := fun J r c => if J = 8 then W8 m c r else W6 m c r

theorem outs_six (r : Ref sig .tc) (c : Dev nD) : outs m 6 r c = W6 m c r := rfl
theorem outs_eight (r : Ref sig .tc) (c : Dev nD) : outs m 8 r c = W8 m c r := rfl

/-- An input array of region 0 leaves the region as it entered. -/
theorem W6_in (c : Dev nD) (w : Fin 4) (hin : ((cfgM0 (V5' m)).win w).isOut = false) :
    W6 m c (Proc.devRef .tc (Pipeline.arrRef spec0 w)) = V5 m c (Proc.devRef .tc (Pipeline.arrRef spec0 w)) :=
  (W6_arr m c w).trans (((dat0 (V5' m) c).arrAt_in w hin _).trans (A_eq0 (V5' m) c w))

theorem W8_in (c : Dev nD) (w : Fin 4) (hin : ((cfgM1 (V7' m)).win w).isOut = false) :
    W8 m c (Proc.devRef .tc (Pipeline.arrRef spec1 w)) = V7 m (outs0 m) c (Proc.devRef .tc (Pipeline.arrRef spec1 w)) :=
  (W8_arr m c w).trans (((dat1 (V7' m) c).arrAt_in w hin _).trans (A_eq1 (V7' m) c w))

/-- Updating the entry contents at the two output arrays by what region 0 leaves there is what region 0 leaves:
    elsewhere it leaves the entry contents. -/
theorem V6_eq_aux (o : Outs (F := F)) (ho0 : o 6 main_v10_0 = fun c => W6 m c main_v10_0) (ho1 : o 6 main_v10_1 = fun c => W6 m c main_v10_1)
    (c : Dev nD) : V6 m o c = W6 m c := by
  funext b
  unfold V6
  rw [ho0, ho1]
  by_cases h1 : b = Proc.devRef .tc main_v10_1
  · subst h1; rw [Function.update_self]
  rw [Function.update_of_ne h1]
  by_cases h0 : b = Proc.devRef .tc main_v10_0
  · subst h0; rw [Function.update_self]
  rw [Function.update_of_ne h0]
  by_cases h : ∃ w, Proc.devRef .tc (Pipeline.arrRef spec0 w) = b
  · obtain ⟨w, rfl⟩ := h
    fin_cases w
    · exact (W6_in m c 0 rfl).symm
    · exact (W6_in m c 1 rfl).symm
    · exact absurd rfl h0
    · exact absurd rfl h1
  · unfold W6 Pipeline.withArrays; rw [dif_neg h]

theorem V6_eq (c : Dev nD) : V6 m (outs m) c = W6 m c := V6_eq_aux m (outs m) rfl rfl c
theorem V6_eq0 (c : Dev nD) : V6 m (outs0 m) c = W6 m c := V6_eq_aux m (outs0 m) rfl rfl c

theorem V7_eq (c : Dev nD) : V7 m (outs m) c = V7 m (outs0 m) c := by
  show StableHlo.after hostOps1 (V6 m (outs m) c) = StableHlo.after hostOps1 (V6 m (outs0 m) c)
  rw [V6_eq, V6_eq0]

theorem V8_eq (c : Dev nD) : V8 m (outs m) c = W8 m c := by
  funext b
  unfold V8
  rw [V7_eq, show outs m 8 main_v13_0 c = W8 m c main_v13_0 from rfl, show outs m 8 main_v13_1 c = W8 m c main_v13_1 from rfl]
  by_cases h1 : b = Proc.devRef .tc main_v13_1
  · subst h1; rw [Function.update_self]
  rw [Function.update_of_ne h1]
  by_cases h0 : b = Proc.devRef .tc main_v13_0
  · subst h0; rw [Function.update_self]
  rw [Function.update_of_ne h0]
  by_cases h : ∃ w, Proc.devRef .tc (Pipeline.arrRef spec1 w) = b
  · obtain ⟨w, rfl⟩ := h
    fin_cases w
    · exact (W8_in m c 0 rfl).symm
    · exact (W8_in m c 1 rfl).symm
    · exact absurd rfl h0
    · exact absurd rfl h1
  · unfold W8 Pipeline.withArrays; rw [dif_neg h]

/-- The last valuation: what the host stretch after region 1 makes of what region 1 leaves. -/
def Vend (c : Dev nD) : Valuation τ sig (Elt F) := V9 m (outs m) c

/-! ## The proof data family and the thread state -/

/-- The prefetched tables' contents: each region's table of clipped sentence lengths as the region finds it. Region 1's
    is read off what region 0 leaves (which does not touch it). -/
abbrev adm : (p : Fin 2) → (pcfgs (F := F) p).Adm
  | ⟨0, _⟩ => adm0 (V5' m)
  | ⟨1, _⟩ => adm1 (V7' m)

/-- Every pipeline's proof data, each at its region's entry contents. -/
def pdats : (p : Fin 2) → (c : Dev nD) → Dat τ (Elt F) Unit ℕ (UR sig nD τ) ℕ (Pipeline.pin (pcfgs (F := F)) (adm m) p) c
  | ⟨0, _⟩ => fun c => dat0 (V5' m) c
  | ⟨1, _⟩ => fun c => dat1 (V7' m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the core's generator register at some state and its dues, none. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-- Region 0's exit contents at the TensorCore's references. -/
abbrev V6' : (c : Dev nD) → (b : Ref sig .tc) → Buf (Elt F) ((c : Thread nD τ).loc b) := fun c b => W6 m c b
/-- Region 1's exit contents at the TensorCore's references. -/
abbrev V8' : (c : Dev nD) → (b : Ref sig .tc) → Buf (Elt F) ((c : Thread nD τ).loc b) := fun c b => W8 m c b

theorem hF0 (c : Dev nD) (w : Fin 4) : (dat0 (V5' m) c).arrAt w (cfgM0 (V5' m)).N = V6' m c (Pipeline.arrRef spec0 w) :=
  (W6_arr m c w).symm
theorem hrest0 (c : Dev nD) : ∀ b, b ∉ Finset.univ.image (Pipeline.arrRef spec0) → V6' m c b = V5' m c b :=
  fun b hb => W6_of_ne m c b fun w e => hb (Finset.mem_image.mpr ⟨w, Finset.mem_univ _, e⟩)
theorem hF1 (c : Dev nD) (w : Fin 4) : (dat1 (V7' m) c).arrAt w (cfgM1 (V7' m)).N = V8' m c (Pipeline.arrRef spec1 w) :=
  (W8_arr m c w).symm
theorem hrest1 (c : Dev nD) : ∀ b, b ∉ Finset.univ.image (Pipeline.arrRef spec1) → V8' m c b = V7' m c b :=
  fun b hb => W8_of_ne m c b fun w e => hb (Finset.mem_image.mpr ⟨w, Finset.mem_univ _, e⟩)

/-- The table of region 0 as the thread state holds it is the admissible contents the pipeline is pinned at. -/
theorem tbl0_eq (c : Dev nD) : (fun k => V5' m c (pre0.ref k)) = tbl0 (V5' m) := funext fun k => V_pre0 (V5' m) c k
theorem tbl1_eq (c : Dev nD) : (fun k => V7' m c (pre1.ref k)) = tbl1 (V7' m) := funext fun k => V_pre1 (V7' m) c k

/-- The unscoped buffers that are no array of region 0: its table, and the rest. -/
theorem rest0_split (c : Dev nD) :
    (Pipeline.unscopedRest (Ix := Unit) (Name := ℕ) (U := UR sig nD τ) (Lvl := ℕ) spec0 c (V5' m c) : sProp 𝕄)
      = iprop(Pipeline.prefHeld pre0 c (fun _ => fullShare) (tbl0 (V5' m)) ∗ Pipeline.unscopedRestP pre0 spec0 c (V5' m c)) := by
  rw [Pipeline.unscopedRest_split preFacts0 c (V5' m c), tbl0_eq]
theorem rest1_split (c : Dev nD) :
    (Pipeline.unscopedRest (Ix := Unit) (Name := ℕ) (U := UR sig nD τ) (Lvl := ℕ) spec1 c (V7' m c) : sProp 𝕄)
      = iprop(Pipeline.prefHeld pre1 c (fun _ => fullShare) (tbl1 (V7' m)) ∗ Pipeline.unscopedRestP pre1 spec1 c (V7' m c)) := by
  rw [Pipeline.unscopedRest_split preFacts1 c (V7' m c), tbl1_eq]

/-! ## The regions as segments -/

set_option backward.isDefEq.respectTransparency.types false in
/-- REGION 0 over the thread state: entered from every unscoped buffer at `V5`, left at `V6` at the contents the
    pipeline leaves. Its arrays and its table are split out of the unscoped buffers and put back at the exit; the table
    rides through the invariant whole; the generator register goes into the invariant and comes back; nothing is owed. -/
def reg0 : Pipeline.RegionSeg (pcfgs (F := F)) (adm m) (pdats m) () defs₀ 𝒱₀ L lv 0 where
  win := winFacts0.to₀
  block_pos := block_pos0
  stage_whole := stage_whole0
  K := PEmpty
  osem k := k.elim
  ho := Pipeline.OwnSemFacts.none _
  hbody c := (body_obligation0 (V5' m) c).loose
  hwaits := Pipeline.hwaits_of_owed_zero _ _ _ _ L lv 0 fun _ _ => rfl
  pre c := iprop(StableHlo.held (c : Thread nD τ) (Pipeline.ucRefs τ sig) (V5 m c) ∗ E 0 c)
  post c := iprop(StableHlo.held (c : Thread nD τ) (Pipeline.ucRefs τ sig) (V6 m (outs m) c) ∗ E 1 c)
  X c := iprop(∃ r, prngReg c r)
  Y c := iprop((∃ r, prngReg c r) ∗ Pipeline.prefHeld (Ix := Unit) (Name := ℕ) (U := UR sig nD τ) (Lvl := ℕ) pre0 c (fun _ => fullShare) (tbl0 (V5' m)))
  Z c := Pipeline.unscopedRestP (Ix := Unit) (Name := ℕ) (U := UR sig nD τ) (Lvl := ℕ) pre0 spec0 c (V5' m c)
  hentry c := by
    rw [Pipeline.ownSems0_none]
    have hsplit := Pipeline.arrays_of_unscopedBufs (p := 0) (pcfgs (F := F)) (adm m) (pdats m) winFacts0 arr_whole0 c
      ((pdats m 0 c).share_full fun _ => rfl) (V5' m c) fun _ => rfl
    rw [Pipeline.unscopedBufs_held] at hsplit
    replace hsplit := hsplit.trans (sep_mono .rfl (Entails.of_eq (rest0_split m c)))
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = iprop(Pipeline.ΦA spec0 c ∗ Pipeline.prefHeld (Ix := Unit) (Name := ℕ) (U := UR sig nD τ) (Lvl := ℕ) pre0 c (fun _ => fullShare) (tbl0 (V5' m))) from rfl]
    unfold Pipeline.ΦA
    iintro ⟨Hp, Ht, Hr⟩
    isplitr [Ht]
    · isplitl [Hr]; · iexact Hr
      iexact Hp
    iexact Ht
  hout c := by
    rw [Pipeline.ownSems0_none, show (pdats m 0 c).Φ (Fin.last _) = iprop(Pipeline.ΦA spec0 c ∗ Pipeline.prefHeld (Ix := Unit) (Name := ℕ) (U := UR sig nD τ) (Lvl := ℕ) pre0 c (fun _ => fullShare) (tbl0 (V5' m))) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 0) (pcfgs (F := F)) (adm m) (Ix := Unit) (Name := ℕ) (U := UR sig nD τ) (Lvl := ℕ)
      winFacts0 arr_whole0 c (pdats m) ((pdats m 0 c).share_full fun _ => rfl)
      (V5' m c) (V6' m c) ((pdats m 0 c).arrAt · (cfgM0 (V5' m)).N) (hF0 m c) (hrest0 m c)
    rw [Pipeline.unscopedBufs_held, ← V6_eq] at hjoin
    replace hjoin := (sep_mono .rfl (Entails.of_eq (rest0_split m c).symm)).trans hjoin
    iintro ⟨Ha, HO, ⟨Hp, Ht⟩, Hrest⟩
    imodintro
    isplitl [Ha Ht Hrest]
    · iapply hjoin; isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

set_option backward.isDefEq.respectTransparency.types false in
/-- REGION 1 over the thread state: entered from every unscoped buffer at `V7`, left at `V8`, as region 0. -/
def reg1 : Pipeline.RegionSeg (pcfgs (F := F)) (adm m) (pdats m) () defs₀ 𝒱₀ L lv 1 where
  win := winFacts1.to₀
  block_pos := block_pos1
  stage_whole := stage_whole1
  K := PEmpty
  osem k := k.elim
  ho := Pipeline.OwnSemFacts.none _
  hbody c := (body_obligation1 (V7' m) c).loose
  hwaits := Pipeline.hwaits_of_owed_zero _ _ _ _ L lv 1 fun _ _ => rfl
  pre c := iprop(StableHlo.held (c : Thread nD τ) (Pipeline.ucRefs τ sig) (V7 m (outs m) c) ∗ E 1 c)
  post c := iprop(StableHlo.held (c : Thread nD τ) (Pipeline.ucRefs τ sig) (V8 m (outs m) c) ∗ E 2 c)
  X c := iprop(∃ r, prngReg c r)
  Y c := iprop((∃ r, prngReg c r) ∗ Pipeline.prefHeld (Ix := Unit) (Name := ℕ) (U := UR sig nD τ) (Lvl := ℕ) pre1 c (fun _ => fullShare) (tbl1 (V7' m)))
  Z c := Pipeline.unscopedRestP (Ix := Unit) (Name := ℕ) (U := UR sig nD τ) (Lvl := ℕ) pre1 spec1 c (V7' m c)
  hentry c := by
    rw [Pipeline.ownSems0_none]
    have hsplit := Pipeline.arrays_of_unscopedBufs (p := 1) (pcfgs (F := F)) (adm m) (pdats m) winFacts1 arr_whole1 c
      ((pdats m 1 c).share_full fun _ => rfl) (V7' m c) fun _ => rfl
    rw [Pipeline.unscopedBufs_held, ← V7_eq] at hsplit
    replace hsplit := hsplit.trans (sep_mono .rfl (Entails.of_eq (rest1_split m c)))
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = iprop(Pipeline.ΦA spec1 c ∗ Pipeline.prefHeld (Ix := Unit) (Name := ℕ) (U := UR sig nD τ) (Lvl := ℕ) pre1 c (fun _ => fullShare) (tbl1 (V7' m))) from rfl]
    unfold Pipeline.ΦA
    iintro ⟨Hp, Ht, Hr⟩
    isplitr [Ht]
    · isplitl [Hr]; · iexact Hr
      iexact Hp
    iexact Ht
  hout c := by
    rw [Pipeline.ownSems0_none, show (pdats m 1 c).Φ (Fin.last _) = iprop(Pipeline.ΦA spec1 c ∗ Pipeline.prefHeld (Ix := Unit) (Name := ℕ) (U := UR sig nD τ) (Lvl := ℕ) pre1 c (fun _ => fullShare) (tbl1 (V7' m))) from rfl]
    unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 1) (pcfgs (F := F)) (adm m) (Ix := Unit) (Name := ℕ) (U := UR sig nD τ) (Lvl := ℕ)
      winFacts1 arr_whole1 c (pdats m) ((pdats m 1 c).share_full fun _ => rfl)
      (V7' m c) (V8' m c) ((pdats m 1 c).arrAt · (cfgM1 (V7' m)).N) (hF1 m c) (hrest1 m c)
    rw [Pipeline.unscopedBufs_held, ← V8_eq] at hjoin
    replace hjoin := (sep_mono .rfl (Entails.of_eq (rest1_split m c).symm)).trans hjoin
    iintro ⟨Ha, HO, ⟨Hp, Ht⟩, Hrest⟩
    imodintro
    isplitl [Ha Ht Hrest]
    · iapply hjoin; isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

/-! ## The launch -/

variable (ρ : Dev nD → PrngReg)

/-- The launch's ghost element yields the pipeline library's at every staging cell; no ghost resource besides. -/
theorem hu₀ :
    (ownU (initOf (Pipeline.cells (Pipeline.pin (pcfgs (F := F)) (adm m)) (cellOf_inj (adm m))) (Pipeline.launchToks (Pipeline.pin (pcfgs (F := F)) (adm m)) (cellOf_inj (adm m)))) : sProp 𝕄)
      ⊢ |={Set.univ}=> iprop(BI.own ((emb₁ : Emb (UR sig nD τ) 𝕄) (initOf (Pipeline.cells (Pipeline.pin (pcfgs (F := F)) (adm m)) (cellOf_inj (adm m))) (Pipeline.launchToks (Pipeline.pin (pcfgs (F := F)) (adm m)) (cellOf_inj (adm m)))))
          ∗ bigSep Finset.univ (fun _ : Dev nD => (BI.emp : sProp 𝕄))) := by
  iintro Hu; imodintro
  isplitl [Hu]
  · iapply (show (ownU (initOf (Pipeline.cells (Pipeline.pin (pcfgs (F := F)) (adm m)) (cellOf_inj (adm m))) (Pipeline.launchToks (Pipeline.pin (pcfgs (F := F)) (adm m)) (cellOf_inj (adm m)))) : sProp 𝕄)
        ⊢ BI.own ((emb₁ : Emb (UR sig nD τ) 𝕄) (initOf (Pipeline.cells (Pipeline.pin (pcfgs (F := F)) (adm m)) (cellOf_inj (adm m))) (Pipeline.launchToks (Pipeline.pin (pcfgs (F := F)) (adm m)) (cellOf_inj (adm m))))) from .rfl)
    iexact Hu
  iapply (show (BI.emp : sProp 𝕄) ⊢ bigSep Finset.univ (fun _ : Dev nD => (BI.emp : sProp 𝕄)) from by rw [BI.bigSep_emp_const])
  iempintro

/-- The launch makes the rest state on every core: the generator register at its launch state, nothing owed. -/
theorem hE0 :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : E (F := F) 2 c ⊢ (iprop(∃ W, owes (c : Thread nD τ) (0 : CellTallies nD τ sig Unit) W) : sProp 𝕄) := by
  iintro ⟨-, HO⟩; iexact HO

set_option backward.isDefEq.respectTransparency.types false in
/-- THE FRAME at any `F`: every execution of @main terminates and the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_cond m emb₁ () 𝒱₀ L lv (fun _ _ => rfl) ρ (outs m) (adm m) (pdats m) 0 (fun _ => iprop(emp))
    (initOf (Pipeline.cells (Pipeline.pin (pcfgs (F := F)) (adm m)) (cellOf_inj (adm m))) (Pipeline.launchToks (Pipeline.pin (pcfgs (F := F)) (adm m)) (cellOf_inj (adm m))))
    (hu₀ m) E (hE0 ρ) hE2 (reg0 m) (fun _ => .rfl) (fun _ => .rfl) (reg1 m) (fun _ => .rfl) (fun _ => .rfl)

set_option backward.isDefEq.respectTransparency.types false in
/-- THE RUN WITH ITS RESULTS: as `frame`, and the two result buffers end at what the last valuation holds there. The
    launch over the same items; the last thread state holds EVERY unscoped buffer at the last valuation, so the two
    results are read off it beside the arguments. -/
theorem run_vals : θ_run defs (onTc (τ := τ) (main (F := F))) ⟨m, fun _ => 0, ρ⟩ (fun r => ∀ c : Dev nD,
      r.2.mem ((c.tc : Thread nD τ).loc main_v26) = Vend m c main_v26
      ∧ r.2.mem ((c.tc : Thread nD τ).loc main_v9) = Vend m c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) (adm m) (pdats m) () (cellOf_inj (adm m)) emb₁ defs₀ 𝒱₀ L lv m ρ main
    (segs m (outs m) 𝒱₀ L lv E () (adm m) (pdats m) (reg0 m) (reg1 m))
    (fun c Q => by
      rewrite [main_chain c, Seg.run_eq_chain,
        show (segs m (outs m) 𝒱₀ L lv E () (adm m) (pdats m) (reg0 m) (reg1 m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide) 0 (fun _ _ => rfl) (fun _ => iprop(emp))
    (initOf (Pipeline.cells (Pipeline.pin (pcfgs (F := F)) (adm m)) (cellOf_inj (adm m))) (Pipeline.launchToks (Pipeline.pin (pcfgs (F := F)) (adm m)) (cellOf_inj (adm m))))
    (hu₀ m)
    (T₀ := fun c => iprop(StableHlo.held (c : Thread nD τ) (Pipeline.ucRefs τ sig) (V0 m c) ∗ E 0 c))
    (Tₙ := fun c => StableHlo.held (c : Thread nD τ) (Pipeline.ucRefs τ sig) (V9 m (outs m) c))
    (hch := fun c => ⟨.rfl, .rfl, .rfl, .rfl, .rfl, .rfl, .rfl, .rfl, .rfl, sep_mono .rfl (hE2 c)⟩)
    (hinit := ?_) (QY := fun c s => s.mem ((c.tc : Thread nD τ).loc main_v26) = Vend m c main_v26 ∧ s.mem ((c.tc : Thread nD τ).loc main_v9) = Vend m c main_v9 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · -- the launch: the unscoped buffers are held at the launch contents; the rest makes `E 0` on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 (F := F) ρ) $$ [Hr Hla] with HE
    · isplitl [Hr]; · iexact Hr
      iexact Hla
    imodintro
    rw [bigSep_sep' Finset.univ (fun c : Dev nD => StableHlo.held (c : Thread nD τ) (Pipeline.ucRefs τ sig) (V0 m c)) (E (F := F) 0)]
    isplitl [Hh]; · iexact Hh
    iexact HE
  · -- the end: each buffer read off the last valuation
    unfold StableHlo.held
    iintro ⟨Hh, HSI⟩
    ihave Hr := (pointsTo_read_all (Pipeline.ucRefs τ sig) (fun b => ((c : Thread nD τ).1, b)) (V9 m (outs m) c) s') $$ [Hh HSI]
    · isplitl [Hh] <;> iassumption
    icases Hr with ⟨%h, HSI⟩
    imodintro
    isplitr
    · ipureintro
      exact ⟨h (Proc.devRef .tc main_v26) (Finset.mem_filter.mpr ⟨StableHlo.devRef_mem_tcRefs main_v26, by decide⟩),
        h (Proc.devRef .tc main_v9) (Finset.mem_filter.mpr ⟨StableHlo.devRef_mem_tcRefs main_v9, by decide⟩),
        (h (Proc.devRef .tc main_arg0) (Finset.mem_filter.mpr ⟨StableHlo.devRef_mem_tcRefs main_arg0, by decide⟩)).trans (V9_main_arg0 m (outs m) c),
        (h (Proc.devRef .tc main_arg1) (Finset.mem_filter.mpr ⟨StableHlo.devRef_mem_tcRefs main_arg1, by decide⟩)).trans (V9_main_arg1 m (outs m) c),
        (h (Proc.devRef .tc main_arg2) (Finset.mem_filter.mpr ⟨StableHlo.devRef_mem_tcRefs main_arg2, by decide⟩)).trans (V9_main_arg2 m (outs m) c),
        (h (Proc.devRef .tc main_arg3) (Finset.mem_filter.mpr ⟨StableHlo.devRef_mem_tcRefs main_arg3, by decide⟩)).trans (V9_main_arg3 m (outs m) c),
        (h (Proc.devRef .tc main_arg4) (Finset.mem_filter.mpr ⟨StableHlo.devRef_mem_tcRefs main_arg4, by decide⟩)).trans (V9_main_arg4 m (outs m) c),
        (h (Proc.devRef .tc main_arg5) (Finset.mem_filter.mpr ⟨StableHlo.devRef_mem_tcRefs main_arg5, by decide⟩)).trans (V9_main_arg5 m (outs m) c)⟩
    · iexact HSI

end Cert.KernelIdeal.Hand

end
-- ==== Proof.Spec.lean ====
/-
  The mathematics of the two programs, stated once over plain index types.

  One side (view 0 or view 1) has tokens `tok[b, l, d]`, one global vector per sentence `glob[g, d]` and a clipped
  sentence length `cl[b]` (a 32-bit word, read signed).  The score of token `l` of sentence `b` against sentence
  `g` is the inner product over the feature axis; `sp s` is softplus of `-s` in the stable form both programs
  compute.  The reference sums `-sp` over the valid tokens against their own sentence (`refPos`) and `sp + s` over
  the valid tokens against the other sentences (`refNeg`), selecting with booleans.  The kernel works sentence block
  by sentence block (8 sentences a block), multiplies by 0/1 masks instead of selecting, and obtains the
  "other sentences" sum as the difference of the sum over all sentences and the sum over the own sentence.
  The normaliser is the number of tokens: the reference adds the lengths as 32-bit integers and converts the sum,
  the kernel converts each length and adds the reals.
-/
import Idealize.ShloMosaic.PureOps.Ideal
import Idealize.ShloMosaic.Lib.ValueIdx

noncomputable section

namespace Cert.Spec

open Idealize.ShloMosaic Idealize.ShloMosaic.ValueIdx

abbrev STok : Shape := ⟨3, ![128, 256, 1024]⟩
abbrev SGlob : Shape := ⟨2, ![128, 1024]⟩
abbrev SLen : Shape := ⟨1, ![128]⟩
abbrev SBlk : Shape := ⟨3, ![8, 256, 1024]⟩

/-- Softplus of `-s`: `max (-s) 0 + log (1 + exp (-|s|))`. -/
def sp (s : EReal) : EReal :=
  max (-s) 0 + Ideal.log1p (Ideal.exp (-(max (-s) s)))

/-- A token position `l` is valid for a sentence of (clipped, signed) length word `n`. -/
def valid (n : BitVec 32) (l : Fin 256) : Prop := (l.val : ℤ) < n.toInt

instance (n : BitVec 32) (l : Fin 256) : Decidable (valid n l) := by unfold valid; infer_instance

/-- The 0/1 mask of the valid positions, as an extended real. -/
def vmask (n : BitVec 32) (l : Fin 256) : EReal := if valid n l then 1 else 0

/-- The 0/1 mask "global vector `g` belongs to sentence `b`". -/
def smask (g b : Fin 128) : EReal := if b = g then 1 else 0

/-- Sentence `i` of block `bb`. -/
def sent (bb : Fin 16) (i : Fin 8) : Fin 128 := ⟨8 * bb.val + i.val, by omega⟩

/-- The lengths clipped below at one (read signed): `max 1 len`, entry by entry. -/
def clipv (len : SLen.Idx → BitVec 32) : SLen.Idx → BitVec 32 :=
  fun i => if (len i).toInt < 1 then 1#32 else len i

/-! ## One block of 8 sentences, as the kernel body sees it -/

/-- The score inside a block: token `l` of the block's sentence `i` against global vector `g`. -/
def bscore (x : SBlk.Idx → EReal) (y : SGlob.Idx → EReal) (i : Fin 8) (l : Fin 256) (g : Fin 128) : EReal :=
  ∑ d : Fin 1024, x (ix3 i l d) * y (ix2 g d)

/-- What block `bb` contributes to the positive expectation: minus the masked sum of `sp`. -/
def blkPos (x : SBlk.Idx → EReal) (y : SGlob.Idx → EReal) (n : Fin 8 → BitVec 32) (bb : Fin 16) : EReal :=
  0 - ∑ i : Fin 8, ∑ l : Fin 256, ∑ g : Fin 128,
    sp (bscore x y i l g) * (vmask (n i) l * smask g (sent bb i))

/-- What block `bb` contributes to the negative expectation: the valid sum of `sp + s` less its own-sentence part. -/
def blkNeg (x : SBlk.Idx → EReal) (y : SGlob.Idx → EReal) (n : Fin 8 → BitVec 32) (bb : Fin 16) : EReal :=
  (∑ i : Fin 8, ∑ l : Fin 256, ∑ g : Fin 128, (sp (bscore x y i l g) + bscore x y i l g) * vmask (n i) l)
    - ∑ i : Fin 8, ∑ l : Fin 256, ∑ g : Fin 128,
        (sp (bscore x y i l g) + bscore x y i l g) * (vmask (n i) l * smask g (sent bb i))

/-- Block `bb` of the token array. -/
def tokBlk (tok : STok.Idx → EReal) (bb : Fin 16) : SBlk.Idx → EReal :=
  fun j => tok (ix3 (sent bb (j 0)) (j 1) (j 2))

/-- The length words of block `bb`'s sentences. -/
def lenBlk (cl : SLen.Idx → BitVec 32) (bb : Fin 16) : Fin 8 → BitVec 32 := fun i => cl (ix1 (sent bb i))

/-! ## The kernel's totals for one side -/

def kerPos (tok : STok.Idx → EReal) (glob : SGlob.Idx → EReal) (cl : SLen.Idx → BitVec 32) : EReal :=
  ∑ bb : Fin 16, blkPos (tokBlk tok bb) glob (lenBlk cl bb) bb

def kerNeg (tok : STok.Idx → EReal) (glob : SGlob.Idx → EReal) (cl : SLen.Idx → BitVec 32) : EReal :=
  ∑ bb : Fin 16, blkNeg (tokBlk tok bb) glob (lenBlk cl bb) bb

/-! ## The reference's totals for one side -/

def score (tok : STok.Idx → EReal) (glob : SGlob.Idx → EReal) (b : Fin 128) (l : Fin 256) (g : Fin 128) : EReal :=
  ∑ d : Fin 1024, tok (ix3 b l d) * glob (ix2 g d)

def refPos (tok : STok.Idx → EReal) (glob : SGlob.Idx → EReal) (cl : SLen.Idx → BitVec 32) : EReal :=
  ∑ b : Fin 128, ∑ l : Fin 256, ∑ g : Fin 128,
    if valid (cl (ix1 b)) l ∧ b = g then -(sp (score tok glob b l g)) else 0

def refNeg (tok : STok.Idx → EReal) (glob : SGlob.Idx → EReal) (cl : SLen.Idx → BitVec 32) : EReal :=
  ∑ b : Fin 128, ∑ l : Fin 256, ∑ g : Fin 128,
    if valid (cl (ix1 b)) l ∧ ¬ b = g then sp (score tok glob b l g) + score tok glob b l g else 0

/-! ## The normalisers and the two results -/

/-- The lengths added as reals (the kernel's order: convert, then add). -/
def fsum (cl : SLen.Idx → BitVec 32) : EReal := ∑ b : Fin 128, (((cl (ix1 b)).toInt : ℝ) : EReal)

/-- The lengths added as 32-bit words (the reference's order: add with wrap-around, then convert). -/
def wsum (cl : SLen.Idx → BitVec 32) : BitVec 32 := BitVec.ofInt 32 (∑ b : Fin 128, (cl (ix1 b)).toInt)

def kerNN (cl0 cl1 : SLen.Idx → BitVec 32) : EReal := fsum cl0 + fsum cl1

def refNN (cl0 cl1 : SLen.Idx → BitVec 32) : EReal := (((wsum cl0 + wsum cl1).toInt : ℝ) : EReal)

/-- The kernel's loss: `e_neg - e_pos`, the divisor of `e_neg` the token count times the literal 127. -/
def kerLoss (tok0 tok1 : STok.Idx → EReal) (glob0 glob1 : SGlob.Idx → EReal) (cl0 cl1 : SLen.Idx → BitVec 32) : EReal :=
  Ideal.div (kerNeg tok0 glob0 cl0 + kerNeg tok1 glob1 cl1) (kerNN cl0 cl1 * Ideal.ofBits .f32 0x42FE0000#32)
    - Ideal.div (kerPos tok0 glob0 cl0 + kerPos tok1 glob1 cl1) (kerNN cl0 cl1)

/-- The reference's loss: the same, the factor written `128 - 1`. -/
def refLoss (tok0 tok1 : STok.Idx → EReal) (glob0 glob1 : SGlob.Idx → EReal) (cl0 cl1 : SLen.Idx → BitVec 32) : EReal :=
  Ideal.div (refNeg tok0 glob0 cl0 + refNeg tok1 glob1 cl1)
      (refNN cl0 cl1 * (Ideal.ofBits .f32 0x43000000#32 - Ideal.ofBits .f32 0x3F800000#32))
    - Ideal.div (refPos tok0 glob0 cl0 + refPos tok1 glob1 cl1) (refNN cl0 cl1)

/-- The average sentence length, the same expression in both programs: `(mean cl0 + mean cl1) / 2`. -/
def avgLen (cl0 cl1 : SLen.Idx → BitVec 32) : EReal :=
  Ideal.div (Ideal.div (fsum cl0) (Ideal.ofBits .f32 0x43000000#32) + Ideal.div (fsum cl1) (Ideal.ofBits .f32 0x43000000#32))
    (Ideal.ofBits .f32 0x40000000#32)

end Cert.Spec

end
-- ==== Proof.KI.Payload.lean ====
/-
  The arithmetic of one grid step of the body, read at an index over the extended reals.

  A step works on a block of 8 sentences: tokens `x0[a, l, d]` (8 × 256 × 1024), the global vectors `x1[g, d]`
  (128 × 1024) and the eight length words `w a` of the block's sentences.  The score of token `l` of sentence `a`
  against global vector `g` is the inner product over the feature axis `d`; the block is flattened to 2048 rows for
  the product and folded back, so row `256 a + l` is token `(a, l)`.  From the score `s` the body forms the stable
  softplus of `-s`, `max (-s) 0 + log (1 + exp (-|s|))`, and two 0/1 masks: position `l` is valid for sentence `a`
  when `l` is below the length word read signed, and global vector `g` is sentence `a`'s own when `g = 8 bb + a`
  for the block number `bb`.  Masked values are added over the lanes `g`, then the positions `l`, then the
  sentences `a`.  The positive row is minus the own-sentence sum of the softplus; the negative row is the sum of
  `softplus + s` over all valid pairs less its own-sentence part.  Each scalar is written to lane 0 of a row of 128
  lanes by multiplying with the indicator of lane 0.

  The statements `payP_apply` / `payN_apply` say that these two rows are `Spec.blkPos` / `Spec.blkNeg` times that
  indicator; the second view runs the same body, so its statements follow from the first's.
-/
import proofs.«414042_j68504728371273_3_alg».proof.Proof.Gen.KernelIdeal.Skeleton
import proofs.«414042_j68504728371273_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Idealize.ShloMosaic Idealize.ShloMosaic.ValueIdx Cert.KernelIdeal Cert.KernelIdeal.Gen

/-! ## Words and bits -/

/-- A zero-extended bit converted to a float is 1 or 0. -/
theorem sitofp_bit (b : Bool) :
    (FloatOps.sitofp (F := Ideal) .f32 ((BitVec.ofBool b).setWidth 32) : EReal) = if b then 1 else 0 := by
  cases b
  · show (((BitVec.setWidth 32 (BitVec.ofBool false)).toInt : ℝ) : EReal) = 0
    have : (BitVec.setWidth 32 (BitVec.ofBool false)).toInt = 0 := by decide
    rw [this]; simp
  · show (((BitVec.setWidth 32 (BitVec.ofBool true)).toInt : ℝ) : EReal) = 1
    have : (BitVec.setWidth 32 (BitVec.ofBool true)).toInt = 1 := by decide
    rw [this]; simp

/-- Two numbers below 2³² are equal as 32-bit words exactly when they are equal. -/
theorem ofNat_beq (m n : Nat) (hm : m < 4294967296) (hn : n < 4294967296) :
    (BitVec.ofNat 32 m == BitVec.ofNat 32 n) = decide (m = n) := by
  rw [Bool.eq_iff_iff]
  simp only [beq_iff_eq, decide_eq_true_eq]
  constructor
  · intro h
    have := congrArg BitVec.toNat h
    simp only [BitVec.toNat_ofNat] at this
    omega
  · rintro rfl; rfl

/-- A number below 2³¹ read back signed from its 32-bit word is itself. -/
theorem toInt_ofNat_small (m : Nat) (hm : m < 2147483648) : (BitVec.ofNat 32 m).toInt = (m : ℤ) := by
  have e := BitVec.toInt_eq_toNat_cond (BitVec.ofNat 32 m)
  simp only [BitVec.toNat_ofNat] at e
  omega

/-! ## Reshapes and broadcasts read at an index -/

theorem cmpi_apply {s : Shape} {w : Nat} (p : CmpIPredicate) (x y : IVec s w) (i : s.Idx) :
    cmpi p x y i = IntOp.cmpi p (x i) (y i) := rfl

theorem addi_apply {s : Shape} {w : Nat} (x y : IVec s w) (i : s.Idx) : addi x y i = x i + y i := rfl

variable {α : Type}

/-- A vector `[a]` viewed as a column `[a, 1]`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ValueIdx.ix1 i) :=
  shapeCast_apply x h _ _ (by
    have hu : u.val = 0 := by omega
    rw [Shape.rowMajor_val_two, Shape.rowMajor_val_one]
    show i.val = i.val * 1 + u.val
    omega)

/-- A matrix `[a, b]` with a trailing unit axis added. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    omega)

/-- A matrix `[a, c]` with a unit axis put in the middle. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- A column `[a, 1]` copied along `b` columns. -/
theorem broadcastTo_a1_ab_apply {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) := by
  refine broadcastTo_apply x h (ix2 i j) (ix2 i (0 : Fin 1)) fun ax => ?_
  match ax with
  | ⟨0, _⟩ =>
    show i.val = if a = 1 then 0 else i.val
    split
    · have := i.isLt; omega
    · rfl
  | ⟨1, _⟩ => rfl

/-- An array `[a, b, 1]` copied along `c` lanes. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An array `[a, 1, c]` copied along `b` rows. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-! ## The lane selector, the valid-position mask, the own-sentence mask -/

/-- Lane 0 carries a one, the other lanes a zero. -/
theorem pay1_apply (u : Fin 1) (lane : Fin 128) :
    k0_pay1 (F := Ideal) (ix2 u lane) = if lane = 0 then 1 else 0 := by
  unfold k0_pay1
  show FloatOps.sitofp (F := Ideal) .f32 ((IntOp.cmpi .eq (iota .tc S1x128 32 [1] iota_S1x128_d1_w32 (ix2 u lane)) 0#32).setWidth 32) = _
  rw [iota_single_apply]
  show FloatOps.sitofp (F := Ideal) .f32 ((BitVec.ofBool (BitVec.ofNat 32 lane.val == BitVec.ofNat 32 0)).setWidth 32) = _
  rw [sitofp_bit, ofNat_beq _ _ (by have := lane.isLt; omega) (by omega)]
  by_cases h : lane = 0
  · subst h; simp
  · have h' : lane.val ≠ 0 := fun e => h (Fin.ext e)
    simp [h, h']

/-- The eight length words laid along one axis: entry `a` is word `a`. -/
theorem concat8_apply (w : Fin 8 → BitVec 32) (a : Fin 8) :
    concatenate S8 0 [⟨S1, broadcast S1 (w 0)⟩, ⟨S1, broadcast S1 (w 1)⟩, ⟨S1, broadcast S1 (w 2)⟩, ⟨S1, broadcast S1 (w 3)⟩,
      ⟨S1, broadcast S1 (w 4)⟩, ⟨S1, broadcast S1 (w 5)⟩, ⟨S1, broadcast S1 (w 6)⟩, ⟨S1, broadcast S1 (w 7)⟩]
      concatenates_S1_S1_S1_S1_S1_S1_S1_S1_S8_d0 (ValueIdx.ix1 a) = w a := by
  match a with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- The valid-position mask: position `l` of sentence `a` carries a one exactly when `l` is below the sentence's length word,
    read signed. -/
theorem pay4_apply (w : Fin 8 → BitVec 32) (a : Fin 8) (l : Fin 256) (u : Fin 1) :
    k0_pay4 (F := Ideal) (w 0) (w 1) (w 2) (w 3) (w 4) (w 5) (w 6) (w 7) (ix3 a l u) = Cert.Spec.vmask (w a) l := by
  unfold k0_pay4
  rw [shapeCast_ab_ab1_apply, sitofp_apply, extui_apply, cmpi_apply, iota_single_apply, broadcastTo_a1_ab_apply,
    shapeCast_a_a1_apply, concat8_apply]
  show FloatOps.sitofp (F := Ideal) .f32 ((BitVec.ofBool ((BitVec.ofNat 32 l.val).slt (w a))).setWidth 32) = _
  rw [sitofp_bit]
  unfold Cert.Spec.vmask Cert.Spec.valid
  have e : (BitVec.ofNat 32 l.val).slt (w a) = decide ((l.val : ℤ) < (w a).toInt) := by
    rw [← toInt_ofNat_small l.val (by have := l.isLt; omega)]; rfl
  rw [e]; simp

/-- The own-sentence mask: global vector `g` against sentence `a` of block `bb` carries a one exactly when `g` is that
    sentence's number `8 bb + a`. -/
theorem pay5_apply (i : grid0.Coords) (a : Fin 8) (g : Fin 128) :
    (sitofp .f32 (k0_pay5 i) : FVec Ideal S8x128 .f32) (ix2 a g) = Cert.Spec.smask g (Cert.Spec.sent (i 0) a) := by
  unfold k0_pay5
  dsimp only
  rw [sitofp_apply, extui_apply, cmpi_apply, iota_single_apply, broadcastTo_a1_ab_apply, shapeCast_a_a1_apply, addi_apply,
    broadcast_apply, shapeCast_1a_a_apply, iota_single_apply]
  have hb : (i 0).val < 16 := (i 0).isLt
  have ha := a.isLt
  have hg := g.isLt
  have hw : Scalar.muli (BitVec.ofNat 32 (i 0).val) 8#32 + BitVec.ofNat 32 a.val = BitVec.ofNat 32 (8 * (i 0).val + a.val) := by
    apply BitVec.eq_of_toNat_eq
    show (BitVec.ofNat 32 (i 0).val * 8#32 + BitVec.ofNat 32 a.val).toNat = _
    simp only [BitVec.toNat_add, BitVec.toNat_mul, BitVec.toNat_ofNat]
    omega
  show FloatOps.sitofp (F := Ideal) .f32 ((BitVec.ofBool (BitVec.ofNat 32 g.val
    == (Scalar.muli (BitVec.ofNat 32 (i 0).val) 8#32 + BitVec.ofNat 32 a.val))).setWidth 32) = _
  rw [hw, sitofp_bit, ofNat_beq _ _ (by omega) (by omega)]
  unfold Cert.Spec.smask Cert.Spec.sent
  by_cases h : g.val = 8 * (i 0).val + a.val
  · have h' : (⟨8 * (i 0).val + a.val, by omega⟩ : Fin 128) = g := Fin.ext h.symm
    simp [h, h']
  · have h' : ¬ (⟨8 * (i 0).val + a.val, by omega⟩ : Fin 128) = g := fun e => h (congrArg Fin.val e).symm
    simp [h, h']

/-! ## The scores: the block's product at an index -/

theorem lhs_dot_0 (j : S2048x128.Idx) (q : dot_S2048x1024_S128x1024_S2048x128_1_1_0_0_n_n.contr.Idx) :
    (dot_S2048x1024_S128x1024_S2048x128_1_1_0_0_n_n.lhsIdx j q 0).val = (j 0).val := by
  unfold DotDims.lhsIdx
  rw [dif_neg (show ¬(0 : Fin S2048x1024.rank) ∈ dot_S2048x1024_S128x1024_S2048x128_1_1_0_0_n_n.lhsBatch by decide), dif_pos (show (0 : Fin S2048x1024.rank) ∈ dot_S2048x1024_S128x1024_S2048x128_1_1_0_0_n_n.lhsNonContracting by decide)]
  rfl
theorem lhs_dot_1 (j : S2048x128.Idx) (q : dot_S2048x1024_S128x1024_S2048x128_1_1_0_0_n_n.contr.Idx) :
    (dot_S2048x1024_S128x1024_S2048x128_1_1_0_0_n_n.lhsIdx j q 1).val = (q ⟨0, by decide⟩).val :=
  dot_S2048x1024_S128x1024_S2048x128_1_1_0_0_n_n.lhsIdx_val_of_single rfl j q
theorem rhs_dot_0 (j : S2048x128.Idx) (q : dot_S2048x1024_S128x1024_S2048x128_1_1_0_0_n_n.contr.Idx) :
    (dot_S2048x1024_S128x1024_S2048x128_1_1_0_0_n_n.rhsIdx j q 0).val = (j 1).val := by
  unfold DotDims.rhsIdx
  rw [dif_neg (show ¬(0 : Fin S128x1024.rank) ∈ dot_S2048x1024_S128x1024_S2048x128_1_1_0_0_n_n.rhsBatch by decide), dif_pos (show (0 : Fin S128x1024.rank) ∈ dot_S2048x1024_S128x1024_S2048x128_1_1_0_0_n_n.rhsNonContracting by decide)]
  rfl
theorem rhs_dot_1 (j : S2048x128.Idx) (q : dot_S2048x1024_S128x1024_S2048x128_1_1_0_0_n_n.contr.Idx) :
    (dot_S2048x1024_S128x1024_S2048x128_1_1_0_0_n_n.rhsIdx j q 1).val = (q ⟨0, by decide⟩).val :=
  dot_S2048x1024_S128x1024_S2048x128_1_1_0_0_n_n.rhsIdx_val_of_single rfl j q

/-- Token `l` of sentence `a` against global vector `g`: the block is flattened to `2048` rows (row `256 a + l`), multiplied
    with the global vectors along the feature axis of both, and the product folded back; the change of float format is
    the identity on extended reals. -/
theorem pay6_apply (x0 : Vec Ideal S8x256x1024 .f32) (x1 : Vec Ideal S128x1024 .f32) (a : Fin 8) (l : Fin 256) (g : Fin 128) :
    k0_pay6 (F := Ideal) x0 x1 (ix3 a l g) = Cert.Spec.bscore x0 x1 a l g := by
  have ha := a.isLt
  have hl := l.isLt
  unfold k0_pay6
  refine (shapeCast_apply _ shapeCasts_S2048x128_S8x256x128 (ix3 a l g) (ix2 (⟨a.val * 256 + l.val, by omega⟩ : Fin 2048) g) ?_).trans ?_
  · rw [Shape.rowMajor_val_two, Shape.rowMajor_val_three]; rfl
  refine (Ideal.matmul_constant_zero_apply dot_S2048x1024_S128x1024_S2048x128_1_1_0_0_n_n none _ _ _).trans ?_
  rw [← Equiv.sum_comp (ValueIdx.contrEquiv1 dot_S2048x1024_S128x1024_S2048x128_1_1_0_0_n_n 1024 rfl rfl).symm]
  unfold Cert.Spec.bscore
  refine Finset.sum_congr rfl fun k _ => ?_
  have hk := ValueIdx.contrEquiv1_symm_val dot_S2048x1024_S128x1024_S2048x128_1_1_0_0_n_n 1024 rfl rfl k
  have el : dot_S2048x1024_S128x1024_S2048x128_1_1_0_0_n_n.lhsIdx (ix2 (⟨a.val * 256 + l.val, by omega⟩ : Fin 2048) g) ((ValueIdx.contrEquiv1 dot_S2048x1024_S128x1024_S2048x128_1_1_0_0_n_n 1024 rfl rfl).symm k)
      = ix2 (⟨a.val * 256 + l.val, by omega⟩ : Fin 2048) k := funext fun ax => Fin.ext (by
    match ax with
    | ⟨0, _⟩ => exact lhs_dot_0 _ _
    | ⟨1, _⟩ => exact (lhs_dot_1 _ _).trans hk)
  have er : dot_S2048x1024_S128x1024_S2048x128_1_1_0_0_n_n.rhsIdx (ix2 (⟨a.val * 256 + l.val, by omega⟩ : Fin 2048) g) ((ValueIdx.contrEquiv1 dot_S2048x1024_S128x1024_S2048x128_1_1_0_0_n_n 1024 rfl rfl).symm k)
      = ix2 g k := funext fun ax => Fin.ext (by
    match ax with
    | ⟨0, _⟩ => exact rhs_dot_0 _ _
    | ⟨1, _⟩ => exact (rhs_dot_1 _ _).trans hk)
  rw [el, er, truncf_apply]
  refine congrArg (· * x1 (ix2 g k)) ?_
  refine (shapeCast_apply _ shapeCasts_S8x256x1024_S2048x1024 (ix2 (⟨a.val * 256 + l.val, by omega⟩ : Fin 2048) k) (ix3 a l k) ?_).trans rfl
  rw [Shape.rowMajor_val_two, Shape.rowMajor_val_three]; rfl

/-! ## Softplus, and the products with the masks -/

theorem absf_apply' {s : Shape} {φ : FTy} (x : FVec Ideal s φ) (i : s.Idx) : absf x i = max (x i) (-(x i)) := rfl
theorem exp_apply' {s : Shape} {φ : FTy} (x : FVec Ideal s φ) (i : s.Idx) : exp x i = Ideal.exp (x i) := rfl
theorem log1p_apply' {s : Shape} {φ : FTy} (x : FVec Ideal s φ) (i : s.Idx) : log1p x i = Ideal.log1p (x i) := rfl

/-- The stable softplus of minus the score: the test "is not a number" never fires on extended reals, so the second
    branch is taken; `0 - s` is `-s`, `x - 0` is `x` and `|x|` is `max x (-x)`. -/
theorem pay7_apply (x0 : Vec Ideal S8x256x1024 .f32) (x1 : Vec Ideal S128x1024 .f32) (j : S8x256x128.Idx) :
    k0_pay7 (F := Ideal) x0 x1 j = Cert.Spec.sp (k0_pay6 (F := Ideal) x0 x1 j) := by
  unfold k0_pay7
  generalize k0_pay6 (F := Ideal) x0 x1 = y
  simp only [select_apply, cmpf_apply, addf_apply, subf_apply, maximumf_apply, broadcast_apply, absf_apply', exp_apply', log1p_apply']
  have hz : (FloatOps.ofBits (F := Ideal) FTy.f32 0#32) = (0 : EReal) := Ideal.ofBits_zero_f32
  have hc : ∀ x : EReal, FloatOps.cmpf (F := Ideal) (φ := FTy.f32) CmpFPredicate.one x x = 0#1 := fun x => by
    show Ideal.cmp .one x x = 0#1
    simp [Ideal.cmp]
  rw [hz, hc, select_zero]
  unfold Cert.Spec.sp
  simp only [zero_sub, sub_zero, neg_neg]

theorem pay8_apply (x0 : Vec Ideal S8x256x1024 .f32) (x1 : Vec Ideal S128x1024 .f32) (j : S8x256x128.Idx) :
    k0_pay8 (F := Ideal) x0 x1 j = k0_pay7 (F := Ideal) x0 x1 j + k0_pay6 (F := Ideal) x0 x1 j := rfl

/-- The product of the two masks at `(a, l, g)`: the valid-position mask at `(a, l)` times the own-sentence mask at `(a, g)`. -/
theorem pay9_apply (vm : FVec Ideal S8x256x1 .f32) (sm : IVec S8x128 32) (a : Fin 8) (l : Fin 256) (g : Fin 128) :
    k0_pay9 (F := Ideal) vm sm (ix3 a l g)
      = vm (ix3 a l (0 : Fin 1)) * (sitofp .f32 sm : FVec Ideal S8x128 .f32) (ix2 a g) := by
  unfold k0_pay9
  rw [mulf_apply, broadcastTo_ab1_abc_apply, broadcastTo_a1c_abc_apply, shapeCast_ac_a1c_apply]

/-! ## The three nested sums -/

/-- The sum over lanes, then over token positions, then over the block's sentences, as the kernel takes it (each over one
    axis, with a reshape between), is the triple sum over the coordinates. -/
theorem sum3_apply (v : FVec Ideal S8x256x128 .f32) (p q : Fin 1) :
    multiReduction (F := Ideal) .add [0] S1x1
      (shapeCast S8x1x1
        (multiReduction (F := Ideal) .add [1] S8x1
          (shapeCast S8x256x1
            (multiReduction (F := Ideal) .add [2] S8x256 v 0x00000000#32 reduces_S8x256x128_S8x256 (.inl rfl) rfl)
            shapeCasts_S8x256_S8x256x1)
          0x00000000#32 reduces_S8x256x1_S8x1 (.inl rfl) rfl)
        shapeCasts_S8x1_S8x1x1)
      0x00000000#32 reduces_S8x1x1_S1x1 (.inl rfl) rfl (ix2 p q)
    = ∑ a : Fin 8, ∑ l : Fin 256, ∑ g : Fin 128, v (ix3 a l g) := by
  refine (Ideal.multiReduction_add_single _ 0x00000000#32 reduces_S8x1x1_S1x1 (.inl rfl) rfl (ix2 p q)).trans ?_
  refine Finset.sum_congr rfl fun (a : Fin 8) _ => ?_
  have e0 : reduces_S8x1x1_S1x1.lift (ix2 p q) a = ix3 a p q := funext fun c => Fin.ext (by
    match c with
    | ⟨0, _⟩ => rfl
    | ⟨1, _⟩ => rfl
    | ⟨2, _⟩ => rfl)
  rw [e0, shapeCast_ab_ab1_apply]
  refine (Ideal.multiReduction_add_single _ 0x00000000#32 reduces_S8x256x1_S8x1 (.inl rfl) rfl (ix2 a p)).trans ?_
  refine Finset.sum_congr rfl fun (l : Fin 256) _ => ?_
  have e1 : reduces_S8x256x1_S8x1.lift (ix2 a p) l = ix3 a l p := funext fun c => Fin.ext (by
    match c with
    | ⟨0, _⟩ => rfl
    | ⟨1, _⟩ => rfl
    | ⟨2, _⟩ => rfl)
  rw [e1, shapeCast_ab_ab1_apply]
  refine (Ideal.multiReduction_add_single _ 0x00000000#32 reduces_S8x256x128_S8x256 (.inl rfl) rfl (ix2 a l)).trans ?_
  refine Finset.sum_congr rfl fun (g : Fin 128) _ => ?_
  have e2 : reduces_S8x256x128_S8x256.lift (ix2 a l) g = ix3 a l g := funext fun c => Fin.ext (by
    match c with
    | ⟨0, _⟩ => rfl
    | ⟨1, _⟩ => rfl
    | ⟨2, _⟩ => rfl)
  rw [e2]

/-! ## The two rows the body stores -/

theorem pay12_apply (vm : FVec Ideal S8x256x1 .f32) (sm : IVec S8x128 32) (x0 : Vec Ideal S8x256x1024 .f32)
    (x1 : Vec Ideal S128x1024 .f32) (p q : Fin 1) :
    k0_pay12 (F := Ideal) vm sm x0 x1 (ix2 p q)
      = ∑ a : Fin 8, ∑ l : Fin 256, ∑ g : Fin 128,
          k0_pay7 (F := Ideal) x0 x1 (ix3 a l g) * k0_pay9 (F := Ideal) vm sm (ix3 a l g) := by
  unfold k0_pay12
  exact sum3_apply _ p q

theorem pay11_apply (vm : FVec Ideal S8x256x1 .f32) (x0 : Vec Ideal S8x256x1024 .f32)
    (x1 : Vec Ideal S128x1024 .f32) (p q : Fin 1) :
    k0_pay11 (F := Ideal) vm x0 x1 (ix2 p q)
      = ∑ a : Fin 8, ∑ l : Fin 256, ∑ g : Fin 128,
          k0_pay8 (F := Ideal) x0 x1 (ix3 a l g) * vm (ix3 a l (0 : Fin 1)) := by
  unfold k0_pay11
  rw [shapeCast_1ab_ab_apply, shapeCast_ab_1ab_apply]
  refine (sum3_apply _ _ _).trans ?_
  refine Finset.sum_congr rfl fun a _ => Finset.sum_congr rfl fun l _ => Finset.sum_congr rfl fun g _ => ?_
  rw [mulf_apply, broadcastTo_ab1_abc_apply]

theorem pay10_apply (vm : FVec Ideal S8x256x1 .f32) (sm : IVec S8x128 32) (x0 : Vec Ideal S8x256x1024 .f32)
    (x1 : Vec Ideal S128x1024 .f32) (j : S8x256x128.Idx) :
    k0_pay10 (F := Ideal) vm sm x0 x1 j = k0_pay8 (F := Ideal) x0 x1 j * k0_pay9 (F := Ideal) vm sm j := rfl

/-- The positive row: minus the block's sum, in lane 0. -/
theorem pay2_apply (v : FVec Ideal S1x1 .f32) (lane : Fin 128) :
    k0_pay2 (F := Ideal) v (ix3 0 0 lane) = (0 - v (ix2 0 0)) * (if lane = 0 then 1 else 0) := by
  unfold k0_pay2
  have hz : (FloatOps.ofBits (F := Ideal) FTy.f32 0#32) = (0 : EReal) := Ideal.ofBits_zero_f32
  rw [shapeCast_ab_1ab_apply, mulf_apply, broadcastTo_a1_ab_apply, subf_apply, broadcast_apply, shapeCast_1ab_ab_apply,
    shapeCast_ab_1ab_apply, pay1_apply, hz]

/-- The negative row: the all-sentences sum less the own-sentence sum, in lane 0. -/
theorem pay3_apply (v : FVec Ideal S8x256x128 .f32) (t : FVec Ideal S1x1 .f32) (lane : Fin 128) :
    k0_pay3 (F := Ideal) v t (ix3 0 0 lane)
      = (t (ix2 0 0) - ∑ a : Fin 8, ∑ l : Fin 256, ∑ g : Fin 128, v (ix3 a l g)) * (if lane = 0 then 1 else 0) := by
  unfold k0_pay3
  rw [shapeCast_ab_1ab_apply, mulf_apply, broadcastTo_a1_ab_apply, subf_apply, shapeCast_1ab_ab_apply,
    shapeCast_ab_1ab_apply, sum3_apply, pay1_apply]

theorem payP_apply (i : grid0.Coords) (w : Fin 8 → BitVec 32) (x0 : Vec Ideal S8x256x1024 .f32)
    (x1 : Vec Ideal S128x1024 .f32) (lane : Fin 128) :
    k0_pay2 (F := Ideal) (k0_pay12 (k0_pay4 (w 0) (w 1) (w 2) (w 3) (w 4) (w 5) (w 6) (w 7)) (k0_pay5 i) x0 x1) (ix3 0 0 lane)
      = Cert.Spec.blkPos x0 x1 w (i 0) * (if lane = 0 then 1 else 0) := by
  rw [pay2_apply, pay12_apply]
  unfold Cert.Spec.blkPos
  refine congrArg (fun z : EReal => (0 - z) * (if lane = 0 then 1 else 0)) ?_
  refine Finset.sum_congr rfl fun a _ => Finset.sum_congr rfl fun l _ => Finset.sum_congr rfl fun g _ => ?_
  rw [pay7_apply, pay6_apply, pay9_apply, pay4_apply, pay5_apply]

theorem payN_apply (i : grid0.Coords) (w : Fin 8 → BitVec 32) (x0 : Vec Ideal S8x256x1024 .f32)
    (x1 : Vec Ideal S128x1024 .f32) (lane : Fin 128) :
    k0_pay3 (F := Ideal) (k0_pay10 (k0_pay4 (w 0) (w 1) (w 2) (w 3) (w 4) (w 5) (w 6) (w 7)) (k0_pay5 i) x0 x1)
        (k0_pay11 (k0_pay4 (w 0) (w 1) (w 2) (w 3) (w 4) (w 5) (w 6) (w 7)) x0 x1) (ix3 0 0 lane)
      = Cert.Spec.blkNeg x0 x1 w (i 0) * (if lane = 0 then 1 else 0) := by
  rw [pay3_apply, pay11_apply]
  unfold Cert.Spec.blkNeg
  refine congrArg (fun z : EReal => z * (if lane = 0 then 1 else 0)) ?_
  refine congrArg₂ (fun y z : EReal => y - z) ?_ ?_
  · refine Finset.sum_congr rfl fun a _ => Finset.sum_congr rfl fun l _ => Finset.sum_congr rfl fun g _ => ?_
    rw [pay8_apply, pay7_apply, pay6_apply, pay4_apply]
  · refine Finset.sum_congr rfl fun a _ => Finset.sum_congr rfl fun l _ => Finset.sum_congr rfl fun g _ => ?_
    rw [pay10_apply, pay8_apply, pay7_apply, pay6_apply, pay9_apply, pay4_apply, pay5_apply]

/-! ## The second view: the same body -/

theorem k1_pay4_eq (a b c d e f g h : BitVec 32) :
    k1_pay4 (F := Ideal) a b c d e f g h = k0_pay4 (F := Ideal) a b c d e f g h := rfl
theorem k1_pay5_eq (i : grid1.Coords) : k1_pay5 i = k0_pay5 i := rfl
theorem k1_pay12_eq (vm : FVec Ideal S8x256x1 .f32) (sm : IVec S8x128 32) (x0 : Vec Ideal S8x256x1024 .f32)
    (x1 : Vec Ideal S128x1024 .f32) : k1_pay12 (F := Ideal) vm sm x0 x1 = k0_pay12 (F := Ideal) vm sm x0 x1 := rfl
theorem k1_pay11_eq (vm : FVec Ideal S8x256x1 .f32) (x0 : Vec Ideal S8x256x1024 .f32)
    (x1 : Vec Ideal S128x1024 .f32) : k1_pay11 (F := Ideal) vm x0 x1 = k0_pay11 (F := Ideal) vm x0 x1 := rfl
theorem k1_pay10_eq (vm : FVec Ideal S8x256x1 .f32) (sm : IVec S8x128 32) (x0 : Vec Ideal S8x256x1024 .f32)
    (x1 : Vec Ideal S128x1024 .f32) : k1_pay10 (F := Ideal) vm sm x0 x1 = k0_pay10 (F := Ideal) vm sm x0 x1 := rfl
theorem k1_pay2_eq (v : FVec Ideal S1x1 .f32) : k1_pay2 (F := Ideal) v = k0_pay2 (F := Ideal) v := rfl
theorem k1_pay3_eq (v : FVec Ideal S8x256x128 .f32) (t : FVec Ideal S1x1 .f32) :
    k1_pay3 (F := Ideal) v t = k0_pay3 (F := Ideal) v t := rfl

theorem payP1_apply (i : grid1.Coords) (w : Fin 8 → BitVec 32) (x0 : Vec Ideal S8x256x1024 .f32)
    (x1 : Vec Ideal S128x1024 .f32) (lane : Fin 128) :
    k1_pay2 (F := Ideal) (k1_pay12 (k1_pay4 (w 0) (w 1) (w 2) (w 3) (w 4) (w 5) (w 6) (w 7)) (k1_pay5 i) x0 x1) (ix3 0 0 lane)
      = Cert.Spec.blkPos x0 x1 w (i 0) * (if lane = 0 then 1 else 0) := by
  rw [k1_pay2_eq, k1_pay12_eq, k1_pay4_eq, k1_pay5_eq]
  exact payP_apply i w x0 x1 lane

theorem payN1_apply (i : grid1.Coords) (w : Fin 8 → BitVec 32) (x0 : Vec Ideal S8x256x1024 .f32)
    (x1 : Vec Ideal S128x1024 .f32) (lane : Fin 128) :
    k1_pay3 (F := Ideal) (k1_pay10 (k1_pay4 (w 0) (w 1) (w 2) (w 3) (w 4) (w 5) (w 6) (w 7)) (k1_pay5 i) x0 x1)
        (k1_pay11 (k1_pay4 (w 0) (w 1) (w 2) (w 3) (w 4) (w 5) (w 6) (w 7)) x0 x1) (ix3 0 0 lane)
      = Cert.Spec.blkNeg x0 x1 w (i 0) * (if lane = 0 then 1 else 0) := by
  rw [k1_pay3_eq, k1_pay10_eq, k1_pay11_eq, k1_pay4_eq, k1_pay5_eq]
  exact payN_apply i w x0 x1 lane

end Cert.KernelIdeal.Payload

end
-- ==== Proof.KI.Value0.lean ====
/-
  What region 0 (the first view's kernel call) leaves in its two output arrays, each as ONE function of the region's
  operands.

  The call runs over 16 grid points; point `t` sees block `t` of the token array (sentences 8t … 8t+7), the whole
  array of global vectors, and the eight clipped length words of its sentences, and stores one row of 128 lanes into
  each output: the block's positive part (resp. negative part) in lane 0 and zero in the other lanes. The blocks of an
  output array are its rows (bb, 0, ·), one per point, so they tile it: the array after the region is the function
  (bb, 0, lane) ↦ part of block bb · [lane = 0].
-/
import proofs.«414042_j68504728371273_3_alg».proof.Proof.KI.Body
import proofs.«414042_j68504728371273_3_alg».proof.Proof.KI.Payload
import proofs.«414042_j68504728371273_3_alg».proof.Proof.Spec
import Idealize.ShloMosaic.Lib.Pipeline.Value
import Idealize.ShloMosaic.Lib.ValueIdx

noncomputable section

namespace Cert.KernelIdeal.HandValue

open Cert.KernelIdeal Cert.KernelIdeal.Gen Cert.KernelIdeal.Hand
open Idealize.ShloMosaic Idealize.ShloMosaic.TcCoe
open Idealize.ShloMosaic.Pipeline (Dat)

/-! ## Region 0: the schedule and the index maps over the grid -/

/-- The index maps at every grid point: the token window and both output windows sit at block `t` on the leading
    axis, the global vectors' window at the origin; the one grid coordinate is the point's number. -/
theorem idx_facts0 : ∀ t : Fin grid0.N,
    cc0_transform_0 (grid0.coords t) 0 = t.val ∧ cc0_transform_0 (grid0.coords t) 1 = 0 ∧ cc0_transform_0 (grid0.coords t) 2 = 0
    ∧ cc0_transform_1 (grid0.coords t) 0 = 0 ∧ cc0_transform_1 (grid0.coords t) 1 = 0
    ∧ cc0_transform_2 (grid0.coords t) 0 = t.val ∧ cc0_transform_2 (grid0.coords t) 1 = 0 ∧ cc0_transform_2 (grid0.coords t) 2 = 0
    ∧ cc0_transform_3 (grid0.coords t) 0 = t.val ∧ cc0_transform_3 (grid0.coords t) 1 = 0 ∧ cc0_transform_3 (grid0.coords t) 2 = 0
    ∧ ((grid0.coords t) 0).val = t.val := by decide +kernel

/-- Both output windows are written back at every point. -/
theorem flush0_2 (a : (pcfg0 (F := Ideal)).Adm) : ∀ t : Fin (cfg0 a).N, ((cfg0 a).win 2).flush t = true :=
  (by decide +kernel : ∀ t : Fin grid0.N, Pipeline.Window.flushOf grid0 true cc0_transform_2 t = true)
theorem flush0_3 (a : (pcfg0 (F := Ideal)).Adm) : ∀ t : Fin (cfg0 a).N, ((cfg0 a).win 3).flush t = true :=
  (by decide +kernel : ∀ t : Fin grid0.N, Pipeline.Window.flushOf grid0 true cc0_transform_3 t = true)

/-- An index of the first output array lies in point `t`'s block iff each coordinate lies in the block's range. -/
theorem mem_blk0_2 (a : (pcfg0 (F := Ideal)).Adm) (t : Fin (cfg0 a).N) (i : S16x1x128.Idx) :
    i ∈ (((cfg0 a).win 2).blk t).view.set ↔ ∀ ax : Fin 3, cc0_transform_2 (grid0.coords t) ax * S1x1x128.size ax ≤ (i ax).val
      ∧ (i ax).val < cc0_transform_2 (grid0.coords t) ax * S1x1x128.size ax + S1x1x128.size ax :=
  (Eq.to_iff (congrArg (fun s => i ∈ s) (View.set_slice_whole main_v10_0 (((cfg0 a).win 2).rect t)))).trans Rect.mem_set_unit
theorem mem_blk0_3 (a : (pcfg0 (F := Ideal)).Adm) (t : Fin (cfg0 a).N) (i : S16x1x128.Idx) :
    i ∈ (((cfg0 a).win 3).blk t).view.set ↔ ∀ ax : Fin 3, cc0_transform_3 (grid0.coords t) ax * S1x1x128.size ax ≤ (i ax).val
      ∧ (i ax).val < cc0_transform_3 (grid0.coords t) ax * S1x1x128.size ax + S1x1x128.size ax :=
  (Eq.to_iff (congrArg (fun s => i ∈ s) (View.set_slice_whole main_v10_1 (((cfg0 a).win 3).rect t)))).trans Rect.mem_set_unit

/-- Entry (bb, 0, lane) of an output array is covered by point `bb`. -/
theorem cover0_2 (a : (pcfg0 (F := Ideal)).Adm) (i : S16x1x128.Idx) :
    ∃ t : Fin (cfg0 a).N, ((cfg0 a).win 2).flush t = true ∧ i ∈ (((cfg0 a).win 2).blk t).view.set := by
  have hN : grid0.N = 16 := N_0
  have h0 : (i 0).val < 16 := (i 0).isLt
  have h1 : (i 1).val < 1 := (i 1).isLt
  have h2 : (i 2).val < 128 := (i 2).isLt
  obtain ⟨t, ht⟩ : ∃ t : Fin grid0.N, t.val = (i 0).val := ⟨⟨(i 0).val, by omega⟩, rfl⟩
  refine ⟨t, flush0_2 a t, ?_⟩
  rw [mem_blk0_2]
  obtain ⟨-, -, -, -, -, e0, e1, e2, -⟩ := idx_facts0 t
  intro ax
  match ax with
  | ⟨0, _⟩ => show cc0_transform_2 (grid0.coords t) 0 * 1 ≤ (i 0).val ∧ (i 0).val < cc0_transform_2 (grid0.coords t) 0 * 1 + 1; omega
  | ⟨1, _⟩ => show cc0_transform_2 (grid0.coords t) 1 * 1 ≤ (i 1).val ∧ (i 1).val < cc0_transform_2 (grid0.coords t) 1 * 1 + 1; omega
  | ⟨2, _⟩ => show cc0_transform_2 (grid0.coords t) 2 * 128 ≤ (i 2).val ∧ (i 2).val < cc0_transform_2 (grid0.coords t) 2 * 128 + 128; omega
theorem cover0_3 (a : (pcfg0 (F := Ideal)).Adm) (i : S16x1x128.Idx) :
    ∃ t : Fin (cfg0 a).N, ((cfg0 a).win 3).flush t = true ∧ i ∈ (((cfg0 a).win 3).blk t).view.set := by
  have hN : grid0.N = 16 := N_0
  have h0 : (i 0).val < 16 := (i 0).isLt
  have h1 : (i 1).val < 1 := (i 1).isLt
  have h2 : (i 2).val < 128 := (i 2).isLt
  obtain ⟨t, ht⟩ : ∃ t : Fin grid0.N, t.val = (i 0).val := ⟨⟨(i 0).val, by omega⟩, rfl⟩
  refine ⟨t, flush0_3 a t, ?_⟩
  rw [mem_blk0_3]
  obtain ⟨-, -, -, -, -, -, -, -, e0, e1, e2, -⟩ := idx_facts0 t
  intro ax
  match ax with
  | ⟨0, _⟩ => show cc0_transform_3 (grid0.coords t) 0 * 1 ≤ (i 0).val ∧ (i 0).val < cc0_transform_3 (grid0.coords t) 0 * 1 + 1; omega
  | ⟨1, _⟩ => show cc0_transform_3 (grid0.coords t) 1 * 1 ≤ (i 1).val ∧ (i 1).val < cc0_transform_3 (grid0.coords t) 1 * 1 + 1; omega
  | ⟨2, _⟩ => show cc0_transform_3 (grid0.coords t) 2 * 128 ≤ (i 2).val ∧ (i 2).val < cc0_transform_3 (grid0.coords t) 2 * 128 + 128; omega

/-! ## The two output arrays as functions of the arguments -/

/-- The one-hot of lane 0, as an extended real. -/
def lane0 (l : Fin 128) : EReal := if l = 0 then 1 else 0

/-- The first output array: entry (bb, 0, lane) is block `bb`'s positive part in lane 0, zero in the other lanes. -/
def arrP (tok : Cert.Spec.STok.Idx → EReal) (glob : Cert.Spec.SGlob.Idx → EReal) (cl : Cert.Spec.SLen.Idx → BitVec 32) :
    S16x1x128.Idx → EReal :=
  fun j => Cert.Spec.blkPos (Cert.Spec.tokBlk tok (j 0)) glob (Cert.Spec.lenBlk cl (j 0)) (j 0) * lane0 (j 2)
/-- The second output array: the same with the block's negative part. -/
def arrN (tok : Cert.Spec.STok.Idx → EReal) (glob : Cert.Spec.SGlob.Idx → EReal) (cl : Cert.Spec.SLen.Idx → BitVec 32) :
    S16x1x128.Idx → EReal :=
  fun j => Cert.Spec.blkNeg (Cert.Spec.tokBlk tok (j 0)) glob (Cert.Spec.lenBlk cl (j 0)) (j 0) * lane0 (j 2)

/-- What a point stores into the first output, at an entry of its block, is that entry of `arrP`: the point's token block
    is block `i 0` of the token array, its table words are the block's length words. -/
theorem pointP (i : grid0.Coords) (f : S128.Idx → BitVec 32) (x0 : Vec Ideal S8x256x1024 .f32) (x1 : Vec Ideal S128x1024 .f32)
    (tok : Cert.Spec.STok.Idx → EReal) (hx0 : x0 = Cert.Spec.tokBlk tok (i 0)) (y : S1x1x128.Idx) (k : S16x1x128.Idx)
    (hk0 : (k 0).val = (i 0).val) (hk2 : (k 2).val = (y 2).val) :
    outP0 (F := Ideal) i f x0 x1 y = arrP tok x1 f k := by
  obtain ⟨y0, y1, lane, rfl⟩ : ∃ (y0 : Fin 1) (y1 : Fin 1) (lane : Fin 128), y = ValueIdx.ix3 y0 y1 lane := ⟨y 0, y 1, y 2, ValueIdx.eq_ix3 y⟩
  obtain rfl : y0 = 0 := Subsingleton.elim _ _
  obtain rfl : y1 = 0 := Subsingleton.elim _ _
  have hk0' : k 0 = i 0 := Fin.ext hk0
  have hk2' : (k 2 : Fin 128) = lane := Fin.ext hk2
  rw [outP0_eq]
  refine (Cert.KernelIdeal.Payload.payP_apply i (fun r => wd0 i f r) x0 x1 lane).trans ?_
  show _ = Cert.Spec.blkPos (Cert.Spec.tokBlk tok (k 0)) x1 (Cert.Spec.lenBlk f (k 0)) (k 0) * lane0 (k 2)
  rw [hk0', hk2', hx0]
  refine congrArg (fun w => Cert.Spec.blkPos (Cert.Spec.tokBlk tok (i 0)) x1 w (i 0) * lane0 lane) (funext fun r => ?_)
  exact wd0_eq i f r

/-- The same for the second output, with the block's negative part. -/
theorem pointN (i : grid0.Coords) (f : S128.Idx → BitVec 32) (x0 : Vec Ideal S8x256x1024 .f32) (x1 : Vec Ideal S128x1024 .f32)
    (tok : Cert.Spec.STok.Idx → EReal) (hx0 : x0 = Cert.Spec.tokBlk tok (i 0)) (y : S1x1x128.Idx) (k : S16x1x128.Idx)
    (hk0 : (k 0).val = (i 0).val) (hk2 : (k 2).val = (y 2).val) :
    outN0 (F := Ideal) i f x0 x1 y = arrN tok x1 f k := by
  obtain ⟨y0, y1, lane, rfl⟩ : ∃ (y0 : Fin 1) (y1 : Fin 1) (lane : Fin 128), y = ValueIdx.ix3 y0 y1 lane := ⟨y 0, y 1, y 2, ValueIdx.eq_ix3 y⟩
  obtain rfl : y0 = 0 := Subsingleton.elim _ _
  obtain rfl : y1 = 0 := Subsingleton.elim _ _
  have hk0' : k 0 = i 0 := Fin.ext hk0
  have hk2' : (k 2 : Fin 128) = lane := Fin.ext hk2
  rw [outN0_eq]
  refine (Cert.KernelIdeal.Payload.payN_apply i (fun r => wd0 i f r) x0 x1 lane).trans ?_
  show _ = Cert.Spec.blkNeg (Cert.Spec.tokBlk tok (k 0)) x1 (Cert.Spec.lenBlk f (k 0)) (k 0) * lane0 (k 2)
  rw [hk0', hk2', hx0]
  refine congrArg (fun w => Cert.Spec.blkNeg (Cert.Spec.tokBlk tok (i 0)) x1 w (i 0) * lane0 lane) (funext fun r => ?_)
  exact wd0_eq i f r

variable (V : (c : Dev nD) → (b : Ref sig .tc) → Buf (Elt Ideal) ((c : Thread nD τ).loc b))

/-- The token window's block at point `t` is block `t` of the token array: a block's coordinate in the array is the
    block index times the block's extent plus the coordinate inside the block. -/
theorem iblk0_0_eq (c : Dev nD) (t : Fin (cfgM0 V).N) :
    (iblk0 V c 0 t : Vec Ideal S8x256x1024 .f32) = Cert.Spec.tokBlk (V c main_arg0) ((grid0.coords t) 0) := by
  obtain ⟨e0, e1, e2, -, -, -, -, -, -, -, -, ec⟩ := idx_facts0 t
  refine funext fun (j : S8x256x1024.Idx) => ?_
  unfold iblk0
  show V c main_arg0 ((((cfgM0 V).win 0).blk t).view.emb j) = V c main_arg0 (ValueIdx.ix3 (Cert.Spec.sent ((grid0.coords t) 0) (j 0)) (j 1) (j 2))
  refine congrArg _ (funext fun a => Fin.ext ?_)
  match a with
  | ⟨0, _⟩ => show cc0_transform_0 (grid0.coords t) 0 * 8 + 1 * (j 0).val = 8 * ((grid0.coords t) 0).val + (j 0).val; omega
  | ⟨1, _⟩ => show cc0_transform_0 (grid0.coords t) 1 * 256 + 1 * (j 1).val = (j 1).val; omega
  | ⟨2, _⟩ => show cc0_transform_0 (grid0.coords t) 2 * 1024 + 1 * (j 2).val = (j 2).val; omega

/-- The global vectors' window holds the whole array at every point. -/
theorem iblk0_1_eq (c : Dev nD) (t : Fin (cfgM0 V).N) :
    (iblk0 V c 1 t : Vec Ideal S128x1024 .f32) = V c main_arg2 := by
  obtain ⟨-, -, -, e0, e1, -⟩ := idx_facts0 t
  refine funext fun (j : S128x1024.Idx) => ?_
  unfold iblk0
  show V c main_arg2 ((((cfgM0 V).win 1).blk t).view.emb j) = V c main_arg2 j
  refine congrArg _ (funext fun a => Fin.ext ?_)
  match a with
  | ⟨0, _⟩ => show cc0_transform_1 (grid0.coords t) 0 * 128 + 1 * (j 0).val = (j 0).val; omega
  | ⟨1, _⟩ => show cc0_transform_1 (grid0.coords t) 1 * 1024 + 1 * (j 1).val = (j 1).val; omega

/-- What point `t` writes back into the first output array is its block of `arrP`. -/
theorem flushedP0 (c : Dev nD) (t : Fin (cfgM0 V).N) :
    (dat0 V c).flushed 2 t = (((cfgM0 V).win 2).blk t).view.read (Elt Ideal) (arrP (V c main_arg0) (V c main_arg2) (tbl0 V 0)) := by
  show ((cfgM0 V).win 2).cut (grid0.coords t) ((dat0 V c).after 2 t) = _
  rw [after0_2]
  obtain ⟨-, -, -, -, -, e0, e1, e2, -, -, -, ec⟩ := idx_facts0 t
  refine funext fun (y : S1x1x128.Idx) => ?_
  show outP0 (grid0.coords t) (tbl0 V 0) (iblk0 V c 0 t) (iblk0 V c 1 t) y = arrP (V c main_arg0) (V c main_arg2) (tbl0 V 0) ((((cfgM0 V).win 2).blk t).view.emb y)
  have hy0 : (y 0).val < 1 := (y 0).isLt
  refine (pointP (grid0.coords t) (tbl0 V 0) (iblk0 V c 0 t) (iblk0 V c 1 t) (V c main_arg0) (iblk0_0_eq V c t) y ((((cfgM0 V).win 2).blk t).view.emb y) ?_ ?_).trans ?_
  · show cc0_transform_2 (grid0.coords t) 0 * 1 + 1 * (y 0).val = ((grid0.coords t) 0).val; omega
  · show cc0_transform_2 (grid0.coords t) 2 * 128 + 1 * (y 2).val = (y 2).val; omega
  · rw [iblk0_1_eq]

/-- THE FIRST OUTPUT ARRAY after region 0: one function of the region's operands. -/
theorem arr0_2 (c : Dev nD) : (dat0 V c).arrAt 2 (cfgM0 V).N = arrP (V c main_arg0) (V c main_arg2) (tbl0 V 0) :=
  (dat0 V c).arrAt_eq_of_cover 2 (arrP (V c main_arg0) (V c main_arg2) (tbl0 V 0)) (fun t _ => flushedP0 V c t) (cover0_2 (adm0 V))

/-- What point `t` writes back into the second output array is its block of `arrN`. -/
theorem flushedN0 (c : Dev nD) (t : Fin (cfgM0 V).N) :
    (dat0 V c).flushed 3 t = (((cfgM0 V).win 3).blk t).view.read (Elt Ideal) (arrN (V c main_arg0) (V c main_arg2) (tbl0 V 0)) := by
  show ((cfgM0 V).win 3).cut (grid0.coords t) ((dat0 V c).after 3 t) = _
  rw [after0_3]
  obtain ⟨-, -, -, -, -, -, -, -, e0, e1, e2, ec⟩ := idx_facts0 t
  refine funext fun (y : S1x1x128.Idx) => ?_
  show outN0 (grid0.coords t) (tbl0 V 0) (iblk0 V c 0 t) (iblk0 V c 1 t) y = arrN (V c main_arg0) (V c main_arg2) (tbl0 V 0) ((((cfgM0 V).win 3).blk t).view.emb y)
  have hy0 : (y 0).val < 1 := (y 0).isLt
  refine (pointN (grid0.coords t) (tbl0 V 0) (iblk0 V c 0 t) (iblk0 V c 1 t) (V c main_arg0) (iblk0_0_eq V c t) y ((((cfgM0 V).win 3).blk t).view.emb y) ?_ ?_).trans ?_
  · show cc0_transform_3 (grid0.coords t) 0 * 1 + 1 * (y 0).val = ((grid0.coords t) 0).val; omega
  · show cc0_transform_3 (grid0.coords t) 2 * 128 + 1 * (y 2).val = (y 2).val; omega
  · rw [iblk0_1_eq]

/-- THE SECOND OUTPUT ARRAY after region 0. -/
theorem arr0_3 (c : Dev nD) : (dat0 V c).arrAt 3 (cfgM0 V).N = arrN (V c main_arg0) (V c main_arg2) (tbl0 V 0) :=
  (dat0 V c).arrAt_eq_of_cover 3 (arrN (V c main_arg0) (V c main_arg2) (tbl0 V 0)) (fun t _ => flushedN0 V c t) (cover0_3 (adm0 V))

end Cert.KernelIdeal.HandValue
end
-- ==== Proof.KI.Value1.lean ====
/-
  What region 1 (the second view's kernel call) leaves in its two output arrays, each as one function of the
  region's operands.

  The second call runs the same body over the same 16 grid points on the second view's arrays: point `t` sees block
  `t` of the second token array (sentences 8t … 8t+7), the whole second array of global vectors and the eight clipped
  length words of its sentences in the second table, and stores into each output one row of 128 lanes that carries the
  block's positive part (resp. negative part) in lane 0 and zero elsewhere.  The rows (bb, 0, ·) written by the 16
  points tile an output array, so after the region the array is (bb, 0, lane) ↦ part of block bb · [lane = 0]: the
  same two functions `arrP`, `arrN` as for the first view, at the second view's operands.
-/
import proofs.«414042_j68504728371273_3_alg».proof.Proof.KI.Value0

noncomputable section

namespace Cert.KernelIdeal.HandValue

open Cert.KernelIdeal Cert.KernelIdeal.Gen Cert.KernelIdeal.Hand
open Idealize.ShloMosaic Idealize.ShloMosaic.TcCoe
open Idealize.ShloMosaic.Pipeline (Dat)

/-! ## Region 1: the schedule and the index maps over the grid -/

/-- The index maps at every grid point: the token window and both output windows sit at block `t` on the leading
    axis, the global vectors' window at the origin; the one grid coordinate is the point's number. -/
theorem idx_facts1 : ∀ t : Fin grid1.N,
    cc1_transform_0 (grid1.coords t) 0 = t.val ∧ cc1_transform_0 (grid1.coords t) 1 = 0 ∧ cc1_transform_0 (grid1.coords t) 2 = 0
    ∧ cc1_transform_1 (grid1.coords t) 0 = 0 ∧ cc1_transform_1 (grid1.coords t) 1 = 0
    ∧ cc1_transform_2 (grid1.coords t) 0 = t.val ∧ cc1_transform_2 (grid1.coords t) 1 = 0 ∧ cc1_transform_2 (grid1.coords t) 2 = 0
    ∧ cc1_transform_3 (grid1.coords t) 0 = t.val ∧ cc1_transform_3 (grid1.coords t) 1 = 0 ∧ cc1_transform_3 (grid1.coords t) 2 = 0
    ∧ ((grid1.coords t) 0).val = t.val := by decide +kernel

/-- Both output windows are written back at every point. -/
theorem flush1_2 (a : (pcfg1 (F := Ideal)).Adm) : ∀ t : Fin (cfg1 a).N, ((cfg1 a).win 2).flush t = true :=
  (by decide +kernel : ∀ t : Fin grid1.N, Pipeline.Window.flushOf grid1 true cc1_transform_2 t = true)
theorem flush1_3 (a : (pcfg1 (F := Ideal)).Adm) : ∀ t : Fin (cfg1 a).N, ((cfg1 a).win 3).flush t = true :=
  (by decide +kernel : ∀ t : Fin grid1.N, Pipeline.Window.flushOf grid1 true cc1_transform_3 t = true)

/-- An index of an output array lies in point `t`'s block iff each coordinate lies in the block's range. -/
theorem mem_blk1_2 (a : (pcfg1 (F := Ideal)).Adm) (t : Fin (cfg1 a).N) (i : S16x1x128.Idx) :
    i ∈ (((cfg1 a).win 2).blk t).view.set ↔ ∀ ax : Fin 3, cc1_transform_2 (grid1.coords t) ax * S1x1x128.size ax ≤ (i ax).val
      ∧ (i ax).val < cc1_transform_2 (grid1.coords t) ax * S1x1x128.size ax + S1x1x128.size ax :=
  (Eq.to_iff (congrArg (fun s => i ∈ s) (View.set_slice_whole main_v13_0 (((cfg1 a).win 2).rect t)))).trans Rect.mem_set_unit
theorem mem_blk1_3 (a : (pcfg1 (F := Ideal)).Adm) (t : Fin (cfg1 a).N) (i : S16x1x128.Idx) :
    i ∈ (((cfg1 a).win 3).blk t).view.set ↔ ∀ ax : Fin 3, cc1_transform_3 (grid1.coords t) ax * S1x1x128.size ax ≤ (i ax).val
      ∧ (i ax).val < cc1_transform_3 (grid1.coords t) ax * S1x1x128.size ax + S1x1x128.size ax :=
  (Eq.to_iff (congrArg (fun s => i ∈ s) (View.set_slice_whole main_v13_1 (((cfg1 a).win 3).rect t)))).trans Rect.mem_set_unit

/-- Entry (bb, 0, lane) of an output array is covered by point `bb`. -/
theorem cover1_2 (a : (pcfg1 (F := Ideal)).Adm) (i : S16x1x128.Idx) :
    ∃ t : Fin (cfg1 a).N, ((cfg1 a).win 2).flush t = true ∧ i ∈ (((cfg1 a).win 2).blk t).view.set := by
  have hN : grid1.N = 16 := N_1
  have h0 : (i 0).val < 16 := (i 0).isLt
  have h1 : (i 1).val < 1 := (i 1).isLt
  have h2 : (i 2).val < 128 := (i 2).isLt
  obtain ⟨t, ht⟩ : ∃ t : Fin grid1.N, t.val = (i 0).val := ⟨⟨(i 0).val, by omega⟩, rfl⟩
  refine ⟨t, flush1_2 a t, ?_⟩
  rw [mem_blk1_2]
  obtain ⟨-, -, -, -, -, e0, e1, e2, -⟩ := idx_facts1 t
  intro ax
  match ax with
  | ⟨0, _⟩ => show cc1_transform_2 (grid1.coords t) 0 * 1 ≤ (i 0).val ∧ (i 0).val < cc1_transform_2 (grid1.coords t) 0 * 1 + 1; omega
  | ⟨1, _⟩ => show cc1_transform_2 (grid1.coords t) 1 * 1 ≤ (i 1).val ∧ (i 1).val < cc1_transform_2 (grid1.coords t) 1 * 1 + 1; omega
  | ⟨2, _⟩ => show cc1_transform_2 (grid1.coords t) 2 * 128 ≤ (i 2).val ∧ (i 2).val < cc1_transform_2 (grid1.coords t) 2 * 128 + 128; omega
theorem cover1_3 (a : (pcfg1 (F := Ideal)).Adm) (i : S16x1x128.Idx) :
    ∃ t : Fin (cfg1 a).N, ((cfg1 a).win 3).flush t = true ∧ i ∈ (((cfg1 a).win 3).blk t).view.set := by
  have hN : grid1.N = 16 := N_1
  have h0 : (i 0).val < 16 := (i 0).isLt
  have h1 : (i 1).val < 1 := (i 1).isLt
  have h2 : (i 2).val < 128 := (i 2).isLt
  obtain ⟨t, ht⟩ : ∃ t : Fin grid1.N, t.val = (i 0).val := ⟨⟨(i 0).val, by omega⟩, rfl⟩
  refine ⟨t, flush1_3 a t, ?_⟩
  rw [mem_blk1_3]
  obtain ⟨-, -, -, -, -, -, -, -, e0, e1, e2, -⟩ := idx_facts1 t
  intro ax
  match ax with
  | ⟨0, _⟩ => show cc1_transform_3 (grid1.coords t) 0 * 1 ≤ (i 0).val ∧ (i 0).val < cc1_transform_3 (grid1.coords t) 0 * 1 + 1; omega
  | ⟨1, _⟩ => show cc1_transform_3 (grid1.coords t) 1 * 1 ≤ (i 1).val ∧ (i 1).val < cc1_transform_3 (grid1.coords t) 1 * 1 + 1; omega
  | ⟨2, _⟩ => show cc1_transform_3 (grid1.coords t) 2 * 128 ≤ (i 2).val ∧ (i 2).val < cc1_transform_3 (grid1.coords t) 2 * 128 + 128; omega

/-! ## One point's rows against the two array functions -/

/-- What a point stores into the first output, at an entry of its block, is that entry of `arrP`: the point's token
    block is block `i 0` of the token array, its table words are the block's length words. -/
theorem pointP1 (i : grid1.Coords) (f : S128.Idx → BitVec 32) (x0 : Vec Ideal S8x256x1024 .f32) (x1 : Vec Ideal S128x1024 .f32)
    (tok : Cert.Spec.STok.Idx → EReal) (hx0 : x0 = Cert.Spec.tokBlk tok (i 0)) (y : S1x1x128.Idx) (k : S16x1x128.Idx)
    (hk0 : (k 0).val = (i 0).val) (hk2 : (k 2).val = (y 2).val) :
    outP1 (F := Ideal) i f x0 x1 y = arrP tok x1 f k := by
  obtain ⟨y0, y1, lane, rfl⟩ : ∃ (y0 : Fin 1) (y1 : Fin 1) (lane : Fin 128), y = ValueIdx.ix3 y0 y1 lane :=
    ⟨y 0, y 1, y 2, ValueIdx.eq_ix3 y⟩
  obtain rfl : y0 = 0 := Subsingleton.elim _ _
  obtain rfl : y1 = 0 := Subsingleton.elim _ _
  have hk0' : k 0 = i 0 := Fin.ext hk0
  have hk2' : (k 2 : Fin 128) = lane := Fin.ext hk2
  rw [outP1_eq]
  refine (Cert.KernelIdeal.Payload.payP1_apply i (fun r => wd1 i f r) x0 x1 lane).trans ?_
  show _ = Cert.Spec.blkPos (Cert.Spec.tokBlk tok (k 0)) x1 (Cert.Spec.lenBlk f (k 0)) (k 0) * lane0 (k 2)
  rw [hk0', hk2', hx0]
  refine congrArg (fun w => Cert.Spec.blkPos (Cert.Spec.tokBlk tok (i 0)) x1 w (i 0) * lane0 lane) (funext fun r => ?_)
  exact wd1_eq i f r

/-- The same for the second output, with the block's negative part. -/
theorem pointN1 (i : grid1.Coords) (f : S128.Idx → BitVec 32) (x0 : Vec Ideal S8x256x1024 .f32) (x1 : Vec Ideal S128x1024 .f32)
    (tok : Cert.Spec.STok.Idx → EReal) (hx0 : x0 = Cert.Spec.tokBlk tok (i 0)) (y : S1x1x128.Idx) (k : S16x1x128.Idx)
    (hk0 : (k 0).val = (i 0).val) (hk2 : (k 2).val = (y 2).val) :
    outN1 (F := Ideal) i f x0 x1 y = arrN tok x1 f k := by
  obtain ⟨y0, y1, lane, rfl⟩ : ∃ (y0 : Fin 1) (y1 : Fin 1) (lane : Fin 128), y = ValueIdx.ix3 y0 y1 lane :=
    ⟨y 0, y 1, y 2, ValueIdx.eq_ix3 y⟩
  obtain rfl : y0 = 0 := Subsingleton.elim _ _
  obtain rfl : y1 = 0 := Subsingleton.elim _ _
  have hk0' : k 0 = i 0 := Fin.ext hk0
  have hk2' : (k 2 : Fin 128) = lane := Fin.ext hk2
  rw [outN1_eq]
  refine (Cert.KernelIdeal.Payload.payN1_apply i (fun r => wd1 i f r) x0 x1 lane).trans ?_
  show _ = Cert.Spec.blkNeg (Cert.Spec.tokBlk tok (k 0)) x1 (Cert.Spec.lenBlk f (k 0)) (k 0) * lane0 (k 2)
  rw [hk0', hk2', hx0]
  refine congrArg (fun w => Cert.Spec.blkNeg (Cert.Spec.tokBlk tok (i 0)) x1 w (i 0) * lane0 lane) (funext fun r => ?_)
  exact wd1_eq i f r

variable (V : (c : Dev nD) → (b : Ref sig .tc) → Buf (Elt Ideal) ((c : Thread nD τ).loc b))

/-! ## The input windows' blocks -/

/-- The token window's block at point `t` is block `t` of the second token array: a block's coordinate in the array is
    the block index times the block's extent plus the coordinate inside the block. -/
theorem iblk1_0_eq (c : Dev nD) (t : Fin (cfgM1 V).N) :
    (iblk1 V c 0 t : Vec Ideal S8x256x1024 .f32) = Cert.Spec.tokBlk (V c main_arg1) ((grid1.coords t) 0) := by
  obtain ⟨e0, e1, e2, -, -, -, -, -, -, -, -, ec⟩ := idx_facts1 t
  refine funext fun (j : S8x256x1024.Idx) => ?_
  unfold iblk1
  show V c main_arg1 ((((cfgM1 V).win 0).blk t).view.emb j)
    = V c main_arg1 (ValueIdx.ix3 (Cert.Spec.sent ((grid1.coords t) 0) (j 0)) (j 1) (j 2))
  refine congrArg _ (funext fun a => Fin.ext ?_)
  match a with
  | ⟨0, _⟩ => show cc1_transform_0 (grid1.coords t) 0 * 8 + 1 * (j 0).val = 8 * ((grid1.coords t) 0).val + (j 0).val; omega
  | ⟨1, _⟩ => show cc1_transform_0 (grid1.coords t) 1 * 256 + 1 * (j 1).val = (j 1).val; omega
  | ⟨2, _⟩ => show cc1_transform_0 (grid1.coords t) 2 * 1024 + 1 * (j 2).val = (j 2).val; omega

/-- The global vectors' window holds the whole second array at every point. -/
theorem iblk1_1_eq (c : Dev nD) (t : Fin (cfgM1 V).N) :
    (iblk1 V c 1 t : Vec Ideal S128x1024 .f32) = V c main_arg3 := by
  obtain ⟨-, -, -, e0, e1, -⟩ := idx_facts1 t
  refine funext fun (j : S128x1024.Idx) => ?_
  unfold iblk1
  show V c main_arg3 ((((cfgM1 V).win 1).blk t).view.emb j) = V c main_arg3 j
  refine congrArg _ (funext fun a => Fin.ext ?_)
  match a with
  | ⟨0, _⟩ => show cc1_transform_1 (grid1.coords t) 0 * 128 + 1 * (j 0).val = (j 0).val; omega
  | ⟨1, _⟩ => show cc1_transform_1 (grid1.coords t) 1 * 1024 + 1 * (j 1).val = (j 1).val; omega

/-! ## The two output arrays after the region -/

/-- What point `t` writes back into the first output array is its block of `arrP`. -/
theorem flushedP1 (c : Dev nD) (t : Fin (cfgM1 V).N) :
    (dat1 V c).flushed 2 t
      = (((cfgM1 V).win 2).blk t).view.read (Elt Ideal) (arrP (V c main_arg1) (V c main_arg3) (tbl1 V 0)) := by
  show ((cfgM1 V).win 2).cut (grid1.coords t) ((dat1 V c).after 2 t) = _
  rw [after1_2]
  obtain ⟨-, -, -, -, -, e0, e1, e2, -, -, -, ec⟩ := idx_facts1 t
  refine funext fun (y : S1x1x128.Idx) => ?_
  show outP1 (grid1.coords t) (tbl1 V 0) (iblk1 V c 0 t) (iblk1 V c 1 t) y
    = arrP (V c main_arg1) (V c main_arg3) (tbl1 V 0) ((((cfgM1 V).win 2).blk t).view.emb y)
  have hy0 : (y 0).val < 1 := (y 0).isLt
  refine (pointP1 (grid1.coords t) (tbl1 V 0) (iblk1 V c 0 t) (iblk1 V c 1 t) (V c main_arg1) (iblk1_0_eq V c t) y
    ((((cfgM1 V).win 2).blk t).view.emb y) ?_ ?_).trans ?_
  · show cc1_transform_2 (grid1.coords t) 0 * 1 + 1 * (y 0).val = ((grid1.coords t) 0).val; omega
  · show cc1_transform_2 (grid1.coords t) 2 * 128 + 1 * (y 2).val = (y 2).val; omega
  · rw [iblk1_1_eq]

/-- The first output array after region 1: one function of the region's operands. -/
theorem arr1_2 (c : Dev nD) : (dat1 V c).arrAt 2 (cfgM1 V).N = arrP (V c main_arg1) (V c main_arg3) (tbl1 V 0) :=
  (dat1 V c).arrAt_eq_of_cover 2 (arrP (V c main_arg1) (V c main_arg3) (tbl1 V 0)) (fun t _ => flushedP1 V c t)
    (cover1_2 (adm1 V))

/-- What point `t` writes back into the second output array is its block of `arrN`. -/
theorem flushedN1 (c : Dev nD) (t : Fin (cfgM1 V).N) :
    (dat1 V c).flushed 3 t
      = (((cfgM1 V).win 3).blk t).view.read (Elt Ideal) (arrN (V c main_arg1) (V c main_arg3) (tbl1 V 0)) := by
  show ((cfgM1 V).win 3).cut (grid1.coords t) ((dat1 V c).after 3 t) = _
  rw [after1_3]
  obtain ⟨-, -, -, -, -, -, -, -, e0, e1, e2, ec⟩ := idx_facts1 t
  refine funext fun (y : S1x1x128.Idx) => ?_
  show outN1 (grid1.coords t) (tbl1 V 0) (iblk1 V c 0 t) (iblk1 V c 1 t) y
    = arrN (V c main_arg1) (V c main_arg3) (tbl1 V 0) ((((cfgM1 V).win 3).blk t).view.emb y)
  have hy0 : (y 0).val < 1 := (y 0).isLt
  refine (pointN1 (grid1.coords t) (tbl1 V 0) (iblk1 V c 0 t) (iblk1 V c 1 t) (V c main_arg1) (iblk1_0_eq V c t) y
    ((((cfgM1 V).win 3).blk t).view.emb y) ?_ ?_).trans ?_
  · show cc1_transform_3 (grid1.coords t) 0 * 1 + 1 * (y 0).val = ((grid1.coords t) 0).val; omega
  · show cc1_transform_3 (grid1.coords t) 2 * 128 + 1 * (y 2).val = (y 2).val; omega
  · rw [iblk1_1_eq]

/-- The second output array after region 1. -/
theorem arr1_3 (c : Dev nD) : (dat1 V c).arrAt 3 (cfgM1 V).N = arrN (V c main_arg1) (V c main_arg3) (tbl1 V 0) :=
  (dat1 V c).arrAt_eq_of_cover 3 (arrN (V c main_arg1) (V c main_arg3) (tbl1 V 0)) (fun t _ => flushedN1 V c t)
    (cover1_3 (adm1 V))

end Cert.KernelIdeal.HandValue
end
-- ==== Proof.PreFacts.lean ====
/-
  What the precondition says, entry by entry, and how both programs clip the sentence lengths.

  The precondition is the conjunction of six "for all entries" statements: for each of the four float arrays,
  `|x| < +∞` at every entry, and for each of the two length vectors, `len ≤ 256` (read signed) at every entry.
  Over the extended reals `|x| = max x (-x)`, and `max x (-x) < ⊤` excludes exactly `x = ⊤` and `x = ⊥`:
  such an `x` is a real number.  A length clipped below at one is `max 1 len` read signed; when `len ≤ 256`
  the clipped length lies in `[1, 256]`.
-/
import proofs.«414042_j68504728371273_3_alg».proof.Pre_finite_inputs
import proofs.«414042_j68504728371273_3_alg».proof.Proof.Gen.Pre_finite_inputs
import proofs.«414042_j68504728371273_3_alg».proof.Proof.Spec
import Idealize.ShloMosaic.Lib.ReduceAll
import Idealize.ShloMosaic.Lib.StableHlo.Predicate

noncomputable section

namespace Cert.PreFacts

open Idealize.ShloMosaic Idealize.ShloMosaic.ValueIdx

/-- The shape with no axes has one index. -/
instance : Subsingleton Cert.Pre_finite_inputs.S_.Idx := ⟨fun a b => funext fun d => d.elim0⟩

/-- The pattern `0x7F800000` denotes `+∞`. -/
theorem ofBits_inf : Ideal.ofBits .f32 0x7F800000#32 = ⊤ := by simp [Ideal.ofBits, Ideal.ieee]

/-- An extended real with `|x| < +∞` is a real: `max x (-x)` is `⊤` at both infinities. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- The word `256` read signed. -/
theorem toInt_256 : (256#32 : BitVec 32).toInt = 256 := by decide

/-- The word `1` read signed. -/
theorem toInt_one : (1#32 : BitVec 32).toInt = 1 := by decide

/-- The precondition, read back: every float entry is a real and every length is at most 256. -/
theorem facts_of_pre [Cert.Pre_finite_inputs.Facts]
    (a0 a1 : FVec Ideal Cert.Pre_finite_inputs.S128x256x1024 .f32) (a2 a3 : FVec Ideal Cert.Pre_finite_inputs.S128x1024 .f32)
    (a4 a5 : IVec Cert.Pre_finite_inputs.S128 32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, (a4 i).toInt ≤ 256) ∧ (∀ i, (a5 i).toInt ≤ 256) := by
  have e := congrFun h ValueIdx.ix0
  dsimp only [Cert.Pre_finite_inputs.fn, Cert.Pre_finite_inputs.fn_part1] at e
  simp only [andi, IntOp.andi_eq_one] at e
  obtain ⟨⟨⟨⟨⟨e0, e1⟩, e2⟩, e3⟩, e4⟩, e5⟩ := e
  refine ⟨fun i => ?_, fun i => ?_, fun i => ?_, fun i => ?_, fun i => ?_, fun i => ?_⟩
  · exact real_of_abs_lt_inf _ (Host.reduce_andi_all _ _ _ _ _ e0 i)
  · exact real_of_abs_lt_inf _ (Host.reduce_andi_all _ _ _ _ _ e1 i)
  · exact real_of_abs_lt_inf _ (Host.reduce_andi_all _ _ _ _ _ e2 i)
  · exact real_of_abs_lt_inf _ (Host.reduce_andi_all _ _ _ _ _ e3 i)
  · have c : IntOp.cmpi .sle (a4 i) 256#32 = 1#1 := Host.reduce_andi_all _ _ _ _ _ e4 i
    have := IntOp.cmpi_sle.1 c
    rwa [toInt_256] at this
  · have c : IntOp.cmpi .sle (a5 i) 256#32 = 1#1 := Host.reduce_andi_all _ _ _ _ _ e5 i
    have := IntOp.cmpi_sle.1 c
    rwa [toInt_256] at this

/-- A length at most 256, clipped below at one, lies in `[1, 256]`. -/
theorem clipv_bounds (len : Cert.Spec.SLen.Idx → BitVec 32) (h : ∀ i, (len i).toInt ≤ 256) (b : Fin 128) :
    1 ≤ (Cert.Spec.clipv len (ValueIdx.ix1 b)).toInt ∧ (Cert.Spec.clipv len (ValueIdx.ix1 b)).toInt ≤ 256 := by
  have hb := h (ValueIdx.ix1 b)
  unfold Cert.Spec.clipv
  split
  · rw [toInt_one]; omega
  · omega

/-- How both programs clip: the signed maximum of the broadcast constant one and the lengths is `clipv`. -/
theorem clip_term (len : IVec Cert.Pre_finite_inputs.S128 32)
    (hb : Cert.Pre_finite_inputs.S_.BroadcastsInDim Cert.Pre_finite_inputs.S128 (![] : Fin 0 → Fin Cert.Pre_finite_inputs.S128.rank)) :
    maxsi (broadcastInDim Cert.Pre_finite_inputs.S128 ![] hb (id (constantI Cert.Pre_finite_inputs.S_ 32 1#32))) len
      = Cert.Spec.clipv len := by
  funext i
  show IntOp.maxsi 1#32 (len i) = if (len i).toInt < 1 then 1#32 else len i
  unfold IntOp.maxsi
  simp only [BitVec.slt_iff_toInt_lt, toInt_one]

end Cert.PreFacts

end
-- ==== Proof.KI.HostHead.lean ====
/-
  What the kernel program's host operations before, between and after its two launches leave in the buffers the
  proof reads: the two clipped length tables and the average sentence length.

  Each `@clip` call computes `max 1 len` entry by entry, read signed: `Spec.clipv len`.  No later operation and no
  launch writes those two tables, so they hold `clipv len0` and `clipv len1` at every later point of the program.
  The average sentence length is computed before the first launch: each clipped table is converted entry by entry
  to a real, the 128 reals are added exactly from zero (`Spec.fsum`), the sum is divided by the literal 128, the two
  quotients are added and the result divided by the literal 2: `Spec.avgLen`.  Nothing later writes it either.
-/
import proofs.«414042_j68504728371273_3_alg».proof.Proof.Gen.KernelIdeal.Regions
import proofs.«414042_j68504728371273_3_alg».proof.Proof.Spec
import proofs.«414042_j68504728371273_3_alg».proof.Proof.PreFacts
import Idealize.ShloMosaic.Lib.StableHlo.Run
import Idealize.ShloMosaic.Lib.IdealHost

noncomputable section

namespace Cert.KernelIdeal.HostHead

open Cert.KernelIdeal Cert.KernelIdeal.Gen Idealize.ShloMosaic Idealize.ShloMosaic.TcCoe

variable {F : FTy → Type} [FloatOps F]

/-! ## A sum over a vector's indices is the sum over its one coordinate -/

/-- A rank-1 index set is its coordinate range … -/
def idxEquiv1 {n : Nat} : (⟨1, ![n]⟩ : Shape).Idx ≃ Fin n where
  toFun i := i 0
  invFun := ValueIdx.ix1
  left_inv i := (ValueIdx.eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ValueIdx.ix1 a) :=
  (Equiv.sum_comp (idxEquiv1 (n := n)).symm f).symm

/-- The exact sum of a 128-vector from the initial value zero: the sum of its entries. -/
theorem reduceAdd_vec (x : FVec Ideal S128 .f32) (h : S128.ReducesTo [0] S_) (hu : 0 < S_.numel) (j : S_.Idx) :
    Host.reduceAdd (F := Ideal) x (constant S_ .f32 0x00000000#32) h hu j = ∑ b : Fin 128, x (ValueIdx.ix1 b) := by
  rw [ValueIdx.hostReduceAdd_apply, Ideal.hostReduceAdd_total h (fun b => b.elim0)]
  show Ideal.ofBits .f32 0x00000000#32 + _ = _
  rw [Ideal.ofBits_zero_f32, zero_add, sum_idx1]

/-- The converted lengths summed exactly: `fsum`. -/
theorem reduceAdd_sitofp (cl : IVec S128 32) (h : S128.ReducesTo [0] S_) (hu : 0 < S_.numel) (j : S_.Idx) :
    Host.reduceAdd (F := Ideal) (sitofp .f32 cl) (constant S_ .f32 0x00000000#32) h hu j = Cert.Spec.fsum cl := by
  rw [reduceAdd_vec]
  rfl

/-! ## The clipped length tables -/

variable (m : (ℓ : Loc nD τ sig) → Buf (Elt F) ℓ) (outs : Outs (F := F))

/-- The first `@clip` call leaves `max 1 len0` in its result. -/
theorem V2_main_v0 (c : Dev nD) :
    V2 (F := F) m c main_v0 = Cert.Spec.clipv (m ((c : Thread nD τ).loc main_arg4)) := by
  show StableHlo.after hostOps0_1 (V1 m c) (Proc.devRef .tc main_v0) = _
  after_results
  exact Cert.PreFacts.clip_term (m ((c : Thread nD τ).loc main_arg4)) bcast_S_S128

/-- The second `@clip` call leaves `max 1 len1` in its result. -/
theorem V4_main_v1 (c : Dev nD) :
    V4 (F := F) m c main_v1 = Cert.Spec.clipv (m ((c : Thread nD τ).loc main_arg5)) := by
  show StableHlo.after hostOps0_3 (V3 m c) (Proc.devRef .tc main_v1) = _
  after_results
  exact Cert.PreFacts.clip_term (m ((c : Thread nD τ).loc main_arg5)) bcast_S_S128

theorem V4_main_v0 (c : Dev nD) :
    V4 (F := F) m c main_v0 = Cert.Spec.clipv (m ((c : Thread nD τ).loc main_arg4)) :=
  (V4_of m c main_v0 (by decide)).trans <| (V3_of m c main_v0 (by decide)).trans (V2_main_v0 m c)

/-- The table of lengths the first kernel launch prefetches. -/
theorem V5_main_v0 (c : Dev nD) :
    V5 (F := F) m c main_v0 = Cert.Spec.clipv (m ((c : Thread nD τ).loc main_arg4)) :=
  (V5_of m c main_v0 (by decide)).trans (V4_main_v0 m c)

theorem V5_main_v1 (c : Dev nD) :
    V5 (F := F) m c main_v1 = Cert.Spec.clipv (m ((c : Thread nD τ).loc main_arg5)) :=
  (V5_of m c main_v1 (by decide)).trans (V4_main_v1 m c)

/-- The table of lengths the second kernel launch prefetches. -/
theorem V7_main_v1 (c : Dev nD) :
    V7 (F := F) m outs c main_v1 = Cert.Spec.clipv (m ((c : Thread nD τ).loc main_arg5)) :=
  (V7_of m outs c main_v1 (by decide)).trans <| (V6_of m outs c main_v1 (by decide)).trans (V5_main_v1 m c)

theorem V7_main_v0 (c : Dev nD) :
    V7 (F := F) m outs c main_v0 = Cert.Spec.clipv (m ((c : Thread nD τ).loc main_arg4)) :=
  (V7_of m outs c main_v0 (by decide)).trans <| (V6_of m outs c main_v0 (by decide)).trans (V5_main_v0 m c)

/-- Both tables reach the last host stretch unchanged. -/
theorem V8_main_v0 (c : Dev nD) :
    V8 (F := F) m outs c main_v0 = Cert.Spec.clipv (m ((c : Thread nD τ).loc main_arg4)) :=
  (V8_of m outs c main_v0 (by decide)).trans (V7_main_v0 m outs c)

theorem V8_main_v1 (c : Dev nD) :
    V8 (F := F) m outs c main_v1 = Cert.Spec.clipv (m ((c : Thread nD τ).loc main_arg5)) :=
  (V8_of m outs c main_v1 (by decide)).trans (V7_main_v1 m outs c)

theorem V9_main_v0 (c : Dev nD) :
    V9 (F := F) m outs c main_v0 = Cert.Spec.clipv (m ((c : Thread nD τ).loc main_arg4)) :=
  (V9_of m outs c main_v0 (by decide)).trans (V8_main_v0 m outs c)

theorem V9_main_v1 (c : Dev nD) :
    V9 (F := F) m outs c main_v1 = Cert.Spec.clipv (m ((c : Thread nD τ).loc main_arg5)) :=
  (V9_of m outs c main_v1 (by decide)).trans (V8_main_v1 m outs c)

/-! ## The average sentence length -/

/-- The fifth host stretch from any contents holding the two clipped tables: the mean of each table's entries
    (the exact sum divided by the literal 128), the two means added, the sum divided by the literal 2. -/
theorem after4_main_v9 (W : Valuation τ sig (Elt Ideal)) (cl0 cl1 : IVec S128 32)
    (h0 : (W (Proc.devRef .tc main_v0) : IVec S128 32) = cl0) (h1 : (W (Proc.devRef .tc main_v1) : IVec S128 32) = cl1) :
    (StableHlo.after hostOps0_4 W (Proc.devRef .tc main_v9) : FVec Ideal S_ .f32) = fun _ => Cert.Spec.avgLen cl0 cl1 := by
  after_results
  rw [h0, h1]
  funext j
  show Ideal.div
      (Ideal.div (Host.reduceAdd (F := Ideal) (sitofp .f32 cl0) (constant S_ .f32 0x00000000#32) reducesTo_S128_S_d0 h_S_ j)
          (Ideal.ofBits .f32 0x43000000#32)
        + Ideal.div (Host.reduceAdd (F := Ideal) (sitofp .f32 cl1) (constant S_ .f32 0x00000000#32) reducesTo_S128_S_d0 h_S_ j)
          (Ideal.ofBits .f32 0x43000000#32))
      (Ideal.ofBits .f32 0x40000000#32) = _
  rw [reduceAdd_sitofp, reduceAdd_sitofp]
  rfl

variable (mI : (ℓ : Loc nD τ sig) → Buf (Elt Ideal) ℓ) (outsI : Outs (F := Ideal))

/-- After the fifth host stretch the average sentence length is in place. -/
theorem V5_main_v9 (c : Dev nD) :
    V5 (F := Ideal) mI c main_v9 = fun _ => Cert.Spec.avgLen (Cert.Spec.clipv (mI ((c : Thread nD τ).loc main_arg4)))
      (Cert.Spec.clipv (mI ((c : Thread nD τ).loc main_arg5))) :=
  after4_main_v9 (V4 mI c) _ _ (V4_main_v0 mI c) (V4_main_v1 mI c)

/-- Nothing later writes it: the program's second result. -/
theorem V9_main_v9 (c : Dev nD) :
    V9 (F := Ideal) mI outsI c main_v9 = fun _ => Cert.Spec.avgLen (Cert.Spec.clipv (mI ((c : Thread nD τ).loc main_arg4)))
      (Cert.Spec.clipv (mI ((c : Thread nD τ).loc main_arg5))) :=
  (V9_of mI outsI c main_v9 (by decide)).trans <| (V8_of mI outsI c main_v9 (by decide)).trans <|
    (V7_of mI outsI c main_v9 (by decide)).trans <| (V6_of mI outsI c main_v9 (by decide)).trans (V5_main_v9 mI c)

end Cert.KernelIdeal.HostHead

end
-- ==== Proof.KI.HostTail.lean ====
/-
  The end of the kernel program on the host, read at the exact (extended real) values.

  After the two kernel regions the host adds up each of the four `[16, 1, 128]` output arrays (a sum over every
  entry, from the constant `0`), converts the two tables of clipped lengths to reals and adds each of them up, and
  combines the six numbers: with `P0, P1` the totals of the first output of each region, `N0, N1` the totals of the
  second, and `L0, L1` the two length totals, the result is
  `(N0 + N1) / ((L0 + L1) * 127) - (P0 + P1) / (L0 + L1)`.

  A sum over the index set of a `[16, 1, 128]` array is the sum over the blocks `bb` and the lanes of the entries
  `(bb, 0, lane)`, the middle axis having one point.  When every row holds its value in lane `0` and zeros in the
  other lanes, the total is the sum of the values.
-/
import proofs.«414042_j68504728371273_3_alg».proof.Proof.Gen.KernelIdeal.Regions
import proofs.«414042_j68504728371273_3_alg».proof.Proof.Spec
import proofs.«414042_j68504728371273_3_alg».proof.Proof.KI.HostHead
import Idealize.ShloMosaic.Lib.StableHlo.Run
import Idealize.ShloMosaic.PureOps.Ideal.Laws
import Idealize.ShloMosaic.Lib.IdealHost
import Idealize.ShloMosaic.Lib.ValueIdx
import Mathlib.Algebra.BigOperators.Fin

noncomputable section

namespace Cert.KernelIdeal.HostTail

open Cert.KernelIdeal Cert.KernelIdeal.Gen Idealize.ShloMosaic Idealize.ShloMosaic.TcCoe Idealize.SL.Sem
open Idealize.ShloMosaic.StableHlo

/-! ## Sums over the index set of a `[16, 1, 128]` array -/

/-- The total of a `[16, 1, 128]` array: over the blocks and the lanes. -/
def sumAll (X : S16x1x128.Idx → EReal) : EReal := ∑ bb : Fin 16, ∑ lane : Fin 128, X (ValueIdx.ix3 bb 0 lane)

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ValueIdx.ix3 p.1 p.2.1 p.2.2
  left_inv i := (ValueIdx.eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ValueIdx.ix3 a b c) := by
  rw [← Equiv.sum_comp (idxEquiv3 (n0 := n0) (n1 := n1) (n2 := n2)).symm f, Fintype.sum_prod_type]
  refine Finset.sum_congr rfl (fun a _ => ?_)
  rw [Fintype.sum_prod_type]
  rfl

/-- The sum over every index of a `[16, 1, 128]` array is its total. -/
theorem sum_S16x1x128 (X : S16x1x128.Idx → EReal) : ∑ j : S16x1x128.Idx, X j = sumAll X := by
  unfold sumAll
  rw [sum_idx3]
  exact Finset.sum_congr rfl (fun bb _ => Fin.sum_univ_one _)

/-- Rows that hold `X bb` in lane `0` and `0` in the other lanes add up to the sum of the `X bb`. -/
theorem sumAll_of_lane0 (Y : S16x1x128.Idx → EReal) (X : Fin 16 → EReal)
    (h : ∀ (bb : Fin 16) (lane : Fin 128), Y (ValueIdx.ix3 bb 0 lane) = if lane = 0 then X bb else 0) :
    sumAll Y = ∑ bb : Fin 16, X bb := by
  unfold sumAll
  refine Finset.sum_congr rfl (fun bb _ => ?_)
  simp only [h, Finset.sum_ite_eq', Finset.mem_univ, if_true]

/-- The same with the lane selection written as a product by a 0/1 factor: `x * 1 = x` and `x * 0 = 0` hold for
    every extended real. -/
theorem sumAll_of_lane0_mul (Y : S16x1x128.Idx → EReal) (X : Fin 16 → EReal)
    (h : ∀ (bb : Fin 16) (lane : Fin 128), Y (ValueIdx.ix3 bb 0 lane) = X bb * (if lane = 0 then 1 else 0)) :
    sumAll Y = ∑ bb : Fin 16, X bb := by
  refine sumAll_of_lane0 Y X (fun bb lane => ?_)
  rw [h]
  split_ifs <;> simp

/-- The one-hot rows as a function of the index's coordinates. -/
theorem sumAll_onehot (X : Fin 16 → EReal) :
    sumAll (fun j => X (j 0) * (if (j 2).val = 0 then 1 else 0)) = ∑ bb : Fin 16, X bb :=
  sumAll_of_lane0_mul _ X (fun bb lane => by
    show X bb * (if lane.val = 0 then 1 else 0) = X bb * (if lane = 0 then 1 else 0)
    simp only [Fin.ext_iff]; rfl)

/-- The exact sum of a `[16, 1, 128]` array from the initial value zero is its total. -/
theorem reduceAdd_all (X : FVec Ideal S16x1x128 .f32) (h : S16x1x128.ReducesTo [0, 1, 2] S_) (hu : 0 < S_.numel)
    (j : S_.Idx) :
    Host.reduceAdd (F := Ideal) X (constant S_ .f32 0x00000000#32) h hu j = sumAll X := by
  rw [ValueIdx.hostReduceAdd_apply, Ideal.hostReduceAdd_total h (fun b => b.elim0)]
  show Ideal.ofBits .f32 0x00000000#32 + _ = _
  rw [Ideal.ofBits_zero_f32, zero_add, sum_S16x1x128]

/-! ## The two host stretches after the regions -/

/-- The stretch after the first region, from any contents: each of the region's two outputs is added up. -/
theorem after1_main_v11 (W : Valuation τ sig (Elt Ideal)) (P : FVec Ideal S16x1x128 .f32)
    (h : (W (Proc.devRef .tc main_v10_0) : FVec Ideal S16x1x128 .f32) = P) :
    (StableHlo.after hostOps1 W (Proc.devRef .tc main_v11) : FVec Ideal S_ .f32) = fun _ => sumAll P := by
  after_results
  rw [h]
  funext j
  exact reduceAdd_all P _ _ j

theorem after1_main_v12 (W : Valuation τ sig (Elt Ideal)) (N : FVec Ideal S16x1x128 .f32)
    (h : (W (Proc.devRef .tc main_v10_1) : FVec Ideal S16x1x128 .f32) = N) :
    (StableHlo.after hostOps1 W (Proc.devRef .tc main_v12) : FVec Ideal S_ .f32) = fun _ => sumAll N := by
  after_results
  rw [h]
  funext j
  exact reduceAdd_all N _ _ j

set_option maxHeartbeats 1000000 in
/-- The last stretch, from any contents holding the two length tables, the first region's two totals and the second
    region's two outputs: the quotient of the second totals by the token count times the literal `127`, less the
    quotient of the first totals by the token count. -/
theorem after2_main_v26 (W : Valuation τ sig (Elt Ideal)) (cl0 cl1 : IVec S128 32) (p0 n0 : FVec Ideal S_ .f32)
    (P1 N1 : FVec Ideal S16x1x128 .f32)
    (h0 : (W (Proc.devRef .tc main_v0) : IVec S128 32) = cl0) (h1 : (W (Proc.devRef .tc main_v1) : IVec S128 32) = cl1)
    (h11 : (W (Proc.devRef .tc main_v11) : FVec Ideal S_ .f32) = p0)
    (h12 : (W (Proc.devRef .tc main_v12) : FVec Ideal S_ .f32) = n0)
    (h130 : (W (Proc.devRef .tc main_v13_0) : FVec Ideal S16x1x128 .f32) = P1)
    (h131 : (W (Proc.devRef .tc main_v13_1) : FVec Ideal S16x1x128 .f32) = N1) :
    (StableHlo.after hostOps2 W (Proc.devRef .tc main_v26) : FVec Ideal S_ .f32) = fun j =>
      Ideal.div (n0 j + sumAll N1) ((Cert.Spec.fsum cl0 + Cert.Spec.fsum cl1) * Ideal.ofBits .f32 0x42FE0000#32)
        - Ideal.div (p0 j + sumAll P1) (Cert.Spec.fsum cl0 + Cert.Spec.fsum cl1) := by
  after_results_simp
  rw [h0, h1, h11, h12, h130, h131]
  funext j
  show Ideal.div
        (n0 j + Host.reduceAdd (F := Ideal) N1 (constant S_ .f32 0x00000000#32) reducesTo_S16x1x128_S_d0_1_2 h_S_ j)
        ((Host.reduceAdd (F := Ideal) (sitofp .f32 cl0) (constant S_ .f32 0x00000000#32) reducesTo_S128_S_d0 h_S_ j
            + Host.reduceAdd (F := Ideal) (sitofp .f32 cl1) (constant S_ .f32 0x00000000#32) reducesTo_S128_S_d0 h_S_ j)
          * Ideal.ofBits .f32 0x42FE0000#32)
      - Ideal.div
        (p0 j + Host.reduceAdd (F := Ideal) P1 (constant S_ .f32 0x00000000#32) reducesTo_S16x1x128_S_d0_1_2 h_S_ j)
        (Host.reduceAdd (F := Ideal) (sitofp .f32 cl0) (constant S_ .f32 0x00000000#32) reducesTo_S128_S_d0 h_S_ j
          + Host.reduceAdd (F := Ideal) (sitofp .f32 cl1) (constant S_ .f32 0x00000000#32) reducesTo_S128_S_d0 h_S_ j) = _
  rw [reduceAdd_all, reduceAdd_all, HostHead.reduceAdd_sitofp, HostHead.reduceAdd_sitofp]

/-! ## What the regions leave, read off the valuations -/

variable (m : (ℓ : Loc nD τ sig) → Buf (Elt Ideal) ℓ) (outs : Outs (F := Ideal))

theorem V6_main_v10_1 (c : Dev nD) : V6 (F := Ideal) m outs c main_v10_1 = outs 6 main_v10_1 c := by
  unfold V6
  exact Function.update_self ..

theorem V6_main_v10_0 (c : Dev nD) : V6 (F := Ideal) m outs c main_v10_0 = outs 6 main_v10_0 c := by
  unfold V6
  rw [Function.update_of_ne (StableHlo.devRef_ne_of_ne (by decide) :
    (Proc.devRef .tc main_v10_0 : DevRef τ sig) ≠ Proc.devRef .tc main_v10_1)]
  exact Function.update_self ..

theorem V8_main_v13_1 (c : Dev nD) : V8 (F := Ideal) m outs c main_v13_1 = outs 8 main_v13_1 c := by
  unfold V8
  exact Function.update_self ..

theorem V8_main_v13_0 (c : Dev nD) : V8 (F := Ideal) m outs c main_v13_0 = outs 8 main_v13_0 c := by
  unfold V8
  rw [Function.update_of_ne (StableHlo.devRef_ne_of_ne (by decide) :
    (Proc.devRef .tc main_v13_0 : DevRef τ sig) ≠ Proc.devRef .tc main_v13_1)]
  exact Function.update_self ..

/-- The first region's first total reaches the last stretch. -/
theorem V8_main_v11 (c : Dev nD) :
    (V8 (F := Ideal) m outs c main_v11 : FVec Ideal S_ .f32) = fun _ => sumAll (outs 6 main_v10_0 c) :=
  (V8_of m outs c main_v11 (by decide)).trans (after1_main_v11 (V6 m outs c) _ (V6_main_v10_0 m outs c))

/-- The first region's second total reaches the last stretch. -/
theorem V8_main_v12 (c : Dev nD) :
    (V8 (F := Ideal) m outs c main_v12 : FVec Ideal S_ .f32) = fun _ => sumAll (outs 6 main_v10_1 c) :=
  (V8_of m outs c main_v12 (by decide)).trans (after1_main_v12 (V6 m outs c) _ (V6_main_v10_1 m outs c))

/-! ## The loss the kernel program returns -/

/-- The loss, over the clipped length tables as the last valuation holds them. -/
theorem V9_main_v26 (c : Dev nD) :
    (V9 (F := Ideal) m outs c main_v26 : FVec Ideal S_ .f32) = fun _ =>
      Ideal.div (sumAll (outs 6 main_v10_1 c) + sumAll (outs 8 main_v13_1 c))
          ((Cert.Spec.fsum (V9 (F := Ideal) m outs c main_v0) + Cert.Spec.fsum (V9 (F := Ideal) m outs c main_v1))
            * Ideal.ofBits .f32 0x42FE0000#32)
        - Ideal.div (sumAll (outs 6 main_v10_0 c) + sumAll (outs 8 main_v13_0 c))
          (Cert.Spec.fsum (V9 (F := Ideal) m outs c main_v0) + Cert.Spec.fsum (V9 (F := Ideal) m outs c main_v1)) :=
  after2_main_v26 (V8 m outs c) _ _ _ _ _ _
    (V9_of m outs c main_v0 (by decide)).symm (V9_of m outs c main_v1 (by decide)).symm
    (V8_main_v11 m outs c) (V8_main_v12 m outs c) (V8_main_v13_0 m outs c) (V8_main_v13_1 m outs c)

/-- The loss, over the launch's length arguments clipped below at one. -/
theorem V9_main_v26_clipv (c : Dev nD) :
    (V9 (F := Ideal) m outs c main_v26 : FVec Ideal S_ .f32) = fun _ =>
      Ideal.div (sumAll (outs 6 main_v10_1 c) + sumAll (outs 8 main_v13_1 c))
          ((Cert.Spec.fsum (Cert.Spec.clipv (m ((c : Thread nD τ).loc main_arg4)))
              + Cert.Spec.fsum (Cert.Spec.clipv (m ((c : Thread nD τ).loc main_arg5))))
            * Ideal.ofBits .f32 0x42FE0000#32)
        - Ideal.div (sumAll (outs 6 main_v10_0 c) + sumAll (outs 8 main_v13_0 c))
          (Cert.Spec.fsum (Cert.Spec.clipv (m ((c : Thread nD τ).loc main_arg4)))
            + Cert.Spec.fsum (Cert.Spec.clipv (m ((c : Thread nD τ).loc main_arg5)))) :=
  after2_main_v26 (V8 m outs c) _ _ _ _ _ _
    (HostHead.V8_main_v0 m outs c) (HostHead.V8_main_v1 m outs c)
    (V8_main_v11 m outs c) (V8_main_v12 m outs c) (V8_main_v13_0 m outs c) (V8_main_v13_1 m outs c)

end Cert.KernelIdeal.HostTail

end
-- ==== Proof.KI.Value.lean ====
/-
  The kernel program's two results, read off the run's last valuation.

  Each kernel region leaves its two output arrays at one function of its operands: entry (bb, 0, lane) holds block bb's
  positive (first array) or negative (second array) part in lane 0 and zero elsewhere. The operands are the launch's
  arguments: no host operation before a region writes an argument, and each region's table of length words is the
  corresponding length argument clipped below at one. The host then adds each array up — a row with one value in
  lane 0 and zeros elsewhere adds up to that value, so an array's total is the sum of its blocks' parts, the kernel's
  total for that side — and combines the four totals with the two length totals into the loss. The average sentence
  length is computed on the host before the first region from the two clipped length tables alone.
-/
import proofs.«414042_j68504728371273_3_alg».proof.Proof.KI.Value0
import proofs.«414042_j68504728371273_3_alg».proof.Proof.KI.Value1
import proofs.«414042_j68504728371273_3_alg».proof.Proof.KI.Run
import proofs.«414042_j68504728371273_3_alg».proof.Proof.KI.HostHead
import proofs.«414042_j68504728371273_3_alg».proof.Proof.KI.HostTail
import proofs.«414042_j68504728371273_3_alg».proof.Proof.Spec

noncomputable section

namespace Cert.KernelIdeal.HandValue

open Cert.KernelIdeal Cert.KernelIdeal.Gen Cert.KernelIdeal.Hand
open Idealize.ShloMosaic Idealize.ShloMosaic.TcCoe

/-! ## An output array's total is the kernel's total for its side -/

/-- The first output array adds up to the sum over the blocks of their positive parts. -/
theorem sumAll_arrP (tok : Cert.Spec.STok.Idx → EReal) (glob : Cert.Spec.SGlob.Idx → EReal) (cl : Cert.Spec.SLen.Idx → BitVec 32) :
    HostTail.sumAll (arrP tok glob cl) = Cert.Spec.kerPos tok glob cl :=
  HostTail.sumAll_of_lane0_mul _ (fun bb => Cert.Spec.blkPos (Cert.Spec.tokBlk tok bb) glob (Cert.Spec.lenBlk cl bb) bb)
    (fun bb lane => rfl)

/-- The second output array adds up to the sum over the blocks of their negative parts. -/
theorem sumAll_arrN (tok : Cert.Spec.STok.Idx → EReal) (glob : Cert.Spec.SGlob.Idx → EReal) (cl : Cert.Spec.SLen.Idx → BitVec 32) :
    HostTail.sumAll (arrN tok glob cl) = Cert.Spec.kerNeg tok glob cl :=
  HostTail.sumAll_of_lane0_mul _ (fun bb => Cert.Spec.blkNeg (Cert.Spec.tokBlk tok bb) glob (Cert.Spec.lenBlk cl bb) bb)
    (fun bb lane => rfl)

variable (m : (ℓ : Loc nD τ sig) → Buf (Elt Ideal) ℓ)

/-! ## The regions' operands are the launch's arguments -/

/-- No host operation before region 0 writes the first view's tokens or global vectors. -/
theorem V5_main_arg0 (c : Dev nD) : V5 m c main_arg0 = m ((c : Thread nD τ).loc main_arg0) :=
  (V5_of m c main_arg0 (by decide)).trans <| (V4_of m c main_arg0 (by decide)).trans <| (V3_of m c main_arg0 (by decide)).trans <| (V2_of m c main_arg0 (by decide)).trans <| (V1_of m c main_arg0 (by decide)).trans rfl
theorem V5_main_arg2 (c : Dev nD) : V5 m c main_arg2 = m ((c : Thread nD τ).loc main_arg2) :=
  (V5_of m c main_arg2 (by decide)).trans <| (V4_of m c main_arg2 (by decide)).trans <| (V3_of m c main_arg2 (by decide)).trans <| (V2_of m c main_arg2 (by decide)).trans <| (V1_of m c main_arg2 (by decide)).trans rfl

/-- Nor does region 0 or the stretch after it write the second view's. -/
theorem V7_main_arg1 (o : Outs (F := Ideal)) (c : Dev nD) : V7 m o c main_arg1 = m ((c : Thread nD τ).loc main_arg1) :=
  (V7_of m o c main_arg1 (by decide)).trans <| (V6_of m o c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans rfl
theorem V7_main_arg3 (o : Outs (F := Ideal)) (c : Dev nD) : V7 m o c main_arg3 = m ((c : Thread nD τ).loc main_arg3) :=
  (V7_of m o c main_arg3 (by decide)).trans <| (V6_of m o c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans rfl

/-- Region 0's table is the first length argument clipped below at one. -/
theorem tbl0_val (c : Dev nD) : tbl0 (V5' m) 0 = Cert.Spec.clipv (m ((c : Thread nD τ).loc main_arg4)) :=
  (V_pre0 (V5' m) c 0).symm.trans (HostHead.V5_main_v0 m c)

/-- Region 1's table is the second length argument clipped below at one. -/
theorem tbl1_val (c : Dev nD) : tbl1 (V7' m) 0 = Cert.Spec.clipv (m ((c : Thread nD τ).loc main_arg5)) :=
  (V_pre1 (V7' m) c 0).symm.trans (HostHead.V7_main_v1 m (outs0 m) c)

/-! ## What the regions leave in their output arrays -/

theorem outs6_main_v10_0 (c : Dev nD) : outs m 6 main_v10_0 c
    = arrP (m ((c : Thread nD τ).loc main_arg0)) (m ((c : Thread nD τ).loc main_arg2)) (Cert.Spec.clipv (m ((c : Thread nD τ).loc main_arg4))) := by
  rw [outs_six]
  refine (W6_arr m c 2).trans ?_
  rw [arr0_2 (V5' m) c, tbl0_val m c]
  show arrP (V5 m c main_arg0) (V5 m c main_arg2) _ = _
  rw [V5_main_arg0, V5_main_arg2]

theorem outs6_main_v10_1 (c : Dev nD) : outs m 6 main_v10_1 c
    = arrN (m ((c : Thread nD τ).loc main_arg0)) (m ((c : Thread nD τ).loc main_arg2)) (Cert.Spec.clipv (m ((c : Thread nD τ).loc main_arg4))) := by
  rw [outs_six]
  refine (W6_arr m c 3).trans ?_
  rw [arr0_3 (V5' m) c, tbl0_val m c]
  show arrN (V5 m c main_arg0) (V5 m c main_arg2) _ = _
  rw [V5_main_arg0, V5_main_arg2]

theorem outs8_main_v13_0 (c : Dev nD) : outs m 8 main_v13_0 c
    = arrP (m ((c : Thread nD τ).loc main_arg1)) (m ((c : Thread nD τ).loc main_arg3)) (Cert.Spec.clipv (m ((c : Thread nD τ).loc main_arg5))) := by
  rw [outs_eight]
  refine (W8_arr m c 2).trans ?_
  rw [arr1_2 (V7' m) c, tbl1_val m c]
  show arrP (V7 m (outs0 m) c main_arg1) (V7 m (outs0 m) c main_arg3) _ = _
  rw [V7_main_arg1, V7_main_arg3]

theorem outs8_main_v13_1 (c : Dev nD) : outs m 8 main_v13_1 c
    = arrN (m ((c : Thread nD τ).loc main_arg1)) (m ((c : Thread nD τ).loc main_arg3)) (Cert.Spec.clipv (m ((c : Thread nD τ).loc main_arg5))) := by
  rw [outs_eight]
  refine (W8_arr m c 3).trans ?_
  rw [arr1_3 (V7' m) c, tbl1_val m c]
  show arrN (V7 m (outs0 m) c main_arg1) (V7 m (outs0 m) c main_arg3) _ = _
  rw [V7_main_arg1, V7_main_arg3]

/-! ## The two results -/

/-- THE LOSS the kernel program returns is the specification's kernel-side loss of the arguments. -/
theorem vend_loss (c : Dev nD) : Vend (F := Ideal) m c main_v26 = fun _ =>
    Cert.Spec.kerLoss (m ((c : Thread nD τ).loc main_arg0)) (m ((c : Thread nD τ).loc main_arg1))
      (m ((c : Thread nD τ).loc main_arg2)) (m ((c : Thread nD τ).loc main_arg3))
      (Cert.Spec.clipv (m ((c : Thread nD τ).loc main_arg4))) (Cert.Spec.clipv (m ((c : Thread nD τ).loc main_arg5))) := by
  unfold Vend
  refine (HostTail.V9_main_v26_clipv m (outs m) c).trans ?_
  rw [outs6_main_v10_0, outs6_main_v10_1, outs8_main_v13_0, outs8_main_v13_1, sumAll_arrP, sumAll_arrN, sumAll_arrP, sumAll_arrN]
  rfl

/-- THE AVERAGE SENTENCE LENGTH it returns is the specification's. -/
theorem vend_avg (c : Dev nD) : Vend (F := Ideal) m c main_v9 = fun _ =>
    Cert.Spec.avgLen (Cert.Spec.clipv (m ((c : Thread nD τ).loc main_arg4))) (Cert.Spec.clipv (m ((c : Thread nD τ).loc main_arg5))) :=
  HostHead.V9_main_v9 m (outs m) c

end Cert.KernelIdeal.HandValue

end
-- ==== Proof.RefValue.lean ====
/-
  What the reference computes, read as mathematics.

  Each of the two sides has tokens `tok[b, l, d]`, one global vector per sentence `glob[g, d]` and a vector of 32-bit
  sentence lengths. The lengths are first clipped below at one, read signed. The score of token `l` of sentence `b`
  against sentence `g` is the inner product over `d`. A token position is valid when its number, a word below 256
  and therefore equal to its own signed reading, is below the clipped length read signed; a score is against the
  token's own sentence when the two sentence numbers agree as words, which for numbers below 128 is when they agree.
  The softplus of the negated score is written with a guard that compares a value with itself for inequality; on the
  extended reals nothing differs from itself, so the guard never fires and what is left is
  `max (-s) 0 + log (1 + exp (-max (-s) s))`, the absolute value of `-s` being the larger of `-s` and `s`.
  The positive total adds `-softplus` over valid tokens against their own sentence and zero elsewhere, the negative
  total `softplus + s` over valid tokens against the other sentences; each is a sum from zero over all triples
  `(b, l, g)`, here split into the three nested sums over the coordinates. The token count adds the clipped lengths as
  32-bit words from zero: a fold of wrapping additions, which is the word of the integer sum of the signed readings.
  The average length converts each clipped length to a real first and adds the reals.
  The second side applies, operation for operation, the same composition to the other three arguments, so its totals
  are the first side's functions at those arguments. The loss and the average length are then the specification's
  quotients literally.
-/
import proofs.«414042_j68504728371273_3_alg».proof.Defs
import proofs.«414042_j68504728371273_3_alg».proof.Proof.Gen.ReferenceIdeal.Run
import proofs.«414042_j68504728371273_3_alg».proof.Proof.Gen.ReferenceIdeal.Read
import proofs.«414042_j68504728371273_3_alg».proof.Proof.Spec

noncomputable section

namespace Cert.ReferenceIdeal.RefValue

open Cert.ReferenceIdeal Cert.ReferenceIdeal.Gen Idealize.ShloMosaic Idealize.ShloMosaic.TcCoe Idealize.SL.Sem
open Idealize.ShloMosaic.ValueIdx
open scoped BigOperators

/-! ## One-bit words and small 32-bit words -/

/-- The conjunction of two truth values, as one-bit words. -/
theorem andi_bits (p q : Bool) : IntOp.andi (BitVec.ofBool p) (BitVec.ofBool q) = BitVec.ofBool (p && q) := by
  cases p <;> cases q <;> rfl

/-- The complement of a truth value's one-bit word is the negation's. -/
theorem noti_bit (p : Bool) : ~~~(BitVec.ofBool p) = BitVec.ofBool (!p) := by
  cases p <;> rfl

/-- A selection on a truth value's one-bit word is the `if`. -/
theorem select_bit {α : Type} (c : Bool) (a b : α) : Scalar.select (BitVec.ofBool c) a b = if c = true then a else b := by
  cases c
  · exact if_neg (by decide)
  · exact if_pos rfl

/-- A number below 2³¹, as a 32-bit word read signed, is itself. -/
theorem toInt_small (n : Nat) (h : n < 2 ^ 31) : (BitVec.ofNat 32 n).toInt = (n : ℤ) := by
  have e := BitVec.toInt_eq_toNat_cond (BitVec.ofNat 32 n)
  rw [BitVec.toNat_ofNat, Nat.mod_eq_of_lt (by omega)] at e
  rw [e, if_pos (by omega)]

/-- The signed maximum of the word one and a word: one where the word reads below one, else the word. -/
theorem clip_word (w : BitVec 32) : IntOp.maxsi 1#32 w = if w.toInt < 1 then 1#32 else w := by
  unfold IntOp.maxsi
  simp only [BitVec.slt, decide_eq_true_eq, show (1#32 : BitVec 32).toInt = 1 from by decide]

/-- The signed comparison of a position's word with a length word is the validity of the position. -/
theorem valid_bit (l : Fin 256) (n : BitVec 32) :
    IntOp.cmpi .slt (BitVec.ofNat 32 l.val) n = BitVec.ofBool (decide (Cert.Spec.valid n l)) := by
  unfold IntOp.cmpi Cert.Spec.valid
  simp only [BitVec.slt, toInt_small l.val (by have := l.isLt; omega)]

/-- Two sentence numbers agree as words (the first with the zero word added) exactly when they agree. -/
theorem same_bit (b g : Fin 128) :
    IntOp.cmpi .eq (IntOp.addi (BitVec.ofNat 32 b.val) 0#32) (BitVec.ofNat 32 g.val) = BitVec.ofBool (decide (b = g)) := by
  unfold IntOp.cmpi IntOp.addi
  congr 1
  rw [BitVec.add_zero]
  have hb := b.isLt
  have hg := g.isLt
  by_cases h : b = g
  · subst h; simp
  · have : ¬ BitVec.ofNat 32 b.val = BitVec.ofNat 32 g.val := by
      intro e
      have := congrArg BitVec.toNat e
      simp only [BitVec.toNat_ofNat] at this
      exact h (Fin.ext (by omega))
    simp [h, this]

/-! ## Softplus of the negated score, at a point -/

/-- With `x = -s`: the guard `x - 0 ≠ x - 0` is false on the extended reals, so the selection takes
    `max x 0 + log (1 + exp (-|x - 0|))`, and `|x| = max x (-x) = max (-s) s`. -/
theorem refsp_eq (s : EReal) :
    Scalar.select
        (FloatOps.cmpf (F := Ideal) (φ := .f32) .une (FloatOps.subf (FloatOps.hostNegf s) (FloatOps.ofBits .f32 0x00000000#32))
          (FloatOps.subf (FloatOps.hostNegf s) (FloatOps.ofBits .f32 0x00000000#32)))
        (FloatOps.addf (F := Ideal) (φ := .f32) (FloatOps.hostNegf s) (FloatOps.ofBits .f32 0x00000000#32))
        (FloatOps.addf (F := Ideal) (φ := .f32) (FloatOps.maximumf (FloatOps.hostNegf s) (FloatOps.ofBits .f32 0x00000000#32))
          (FloatOps.hostUnary .log1p (FloatOps.hostUnary .exp (FloatOps.hostNegf (FloatOps.hostAbsf
            (FloatOps.subf (FloatOps.hostNegf s) (FloatOps.ofBits .f32 0x00000000#32)))))))
      = Cert.Spec.sp s := by
  have hne : Ideal.cmp .une (-s) (-s) = 0#1 := by
    unfold Ideal.cmp
    simp
  show Scalar.select (Ideal.cmp .une (-s - Ideal.ofBits .f32 0x00000000#32) (-s - Ideal.ofBits .f32 0x00000000#32))
      (-s + Ideal.ofBits .f32 0x00000000#32)
      (max (-s) (Ideal.ofBits .f32 0x00000000#32) + Ideal.log1p (Ideal.exp (-(max (-s - Ideal.ofBits .f32 0x00000000#32) (-(-s - Ideal.ofBits .f32 0x00000000#32)))))) = _
  rw [Ideal.ofBits_zero_f32, sub_zero, hne, select_zero, neg_neg]
  rfl

/-! ## Sums -/

/-- Wrapping additions from the zero word, in any order, give the word of the integer sum of the signed readings. -/
theorem fold_addi_eq {ι : Type} [DecidableEq ι] (S : Finset ι) (f : ι → BitVec 32) :
    S.fold IntOp.addi 0#32 f = BitVec.ofInt 32 (∑ i ∈ S, (f i).toInt) := by
  induction S using Finset.cons_induction with
  | empty => rfl
  | cons a S ha ih =>
    rw [Finset.fold_cons, Finset.sum_cons, ih, BitVec.ofInt_add, BitVec.ofInt_toInt]
    rfl

/-- A rank-3 index set is the product of its three coordinate ranges … -/
def coords3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (coords3 (n0 := n0) (n1 := n1) (n2 := n2)).symm f, Fintype.sum_prod_type]
  refine Finset.sum_congr rfl fun a _ => ?_
  rw [Fintype.sum_prod_type]
  rfl

/-- A rank-1 index set is its coordinate range … -/
def coords1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (coords1 (n := n)).symm f]
  rfl

/-! ## The stages of the first side, read at an index -/

abbrev TokV := (⟨S128x256x1024, .f32⟩ : BufTy).Contents (Elt Ideal)
abbrev GlobV := (⟨S128x1024, .f32⟩ : BufTy).Contents (Elt Ideal)
abbrev LenV := (⟨S128, .i32⟩ : BufTy).Contents (Elt Ideal)

/-- The clipped lengths of the first side: the maximum of one and the length, entry by entry. -/
theorem clip0_eq (x4 : LenV) : Read.val_main_v0 (F := Ideal) x4 = Cert.Spec.clipv x4 := by
  funext i
  rw [Read.val_main_v0_apply, Read.val_main_call0_v1_apply, Read.val_main_call0_v0_apply, Read.val_main_c_apply, clip_word]
  rfl

/-- The clipped lengths of the second side. -/
theorem clip1_eq (x5 : LenV) : Read.val_main_v1 (F := Ideal) x5 = Cert.Spec.clipv x5 := by
  funext i
  rw [Read.val_main_v1_apply, Read.val_main_call1_v1_apply, Read.val_main_call1_v0_apply, Read.val_main_c_0_apply, clip_word]
  rfl

/-- The contraction over the feature axis at `(b, l, g)` is the score of token `l` of sentence `b` against `g`. -/
theorem score0_eq (x0 : TokV) (x2 : GlobV) (b : Fin 128) (l : Fin 256) (g : Fin 128) :
    Read.val_main_v10 (F := Ideal) x0 x2 (ix3 b l g) = Cert.Spec.score x0 x2 b l g := by
  rw [Read.val_main_v10_apply]
  unfold Cert.Spec.score
  refine Finset.sum_congr rfl fun k _ => ?_
  have e1 : Read.lidx_main_v10 (ix3 b l g) k = ix3 b l k :=
    funext fun a => Fin.ext (by match a with | ⟨0, _⟩ => rfl | ⟨1, _⟩ => rfl | ⟨2, _⟩ => rfl)
  have e2 : Read.ridx_main_v10 (ix3 b l g) k = ix2 g k :=
    funext fun a => Fin.ext (by match a with | ⟨0, _⟩ => rfl | ⟨1, _⟩ => rfl)
  rw [e1, e2]

/-- The mask "position below length" at `(b, l)`: position `l` is valid for sentence `b`'s clipped length. -/
theorem valid0_eq (x4 : LenV) (b : Fin 128) (l : Fin 256) :
    Read.val_main_v16 (F := Ideal) x4 (ix2 b l) = BitVec.ofBool (decide (Cert.Spec.valid (Cert.Spec.clipv x4 (ix1 b)) l)) := by
  rw [Read.val_main_v16_apply, Read.val_main_v14_apply, Read.val_main_v12_apply, Read.val_main_v11_apply,
    Read.val_main_v15_apply, Read.val_main_v13_apply, clip0_eq]
  have e : Read.idx_main_v13 (Read.idx_main_v15 (ix2 b l)) = ix1 b :=
    funext fun a => Fin.ext (by match a with | ⟨0, _⟩ => rfl)
  rw [e]
  exact valid_bit l _

/-- The mask "row number equals column number" at `(b, g)`. -/
theorem same0_eq (b g : Fin 128) :
    Read.val_main_v21 (F := Ideal) (ix2 b g) = BitVec.ofBool (decide (b = g)) := by
  rw [Read.val_main_v21_apply, Read.val_main_v20_apply, Read.val_main_v17_apply, Read.val_main_v19_apply,
    Read.val_main_c_5_apply, Read.val_main_v18_apply]
  exact same_bit b g

/-- The validity mask spread along `g`, for the positive total. -/
theorem validA0_eq (x4 : LenV) (b : Fin 128) (l : Fin 256) (g : Fin 128) :
    Read.val_main_v24 (F := Ideal) x4 (ix3 b l g) = BitVec.ofBool (decide (Cert.Spec.valid (Cert.Spec.clipv x4 (ix1 b)) l)) := by
  rw [Read.val_main_v24_apply, Read.val_main_v23_apply]
  have e : Read.idx_main_v23 (Read.idx_main_v24 (ix3 b l g)) = ix2 b l :=
    funext fun a => Fin.ext (by match a with | ⟨0, _⟩ => rfl | ⟨1, _⟩ => rfl)
  rw [e]
  exact valid0_eq x4 b l

/-- The validity mask spread along `g`, for the negative total. -/
theorem validB0_eq (x4 : LenV) (b : Fin 128) (l : Fin 256) (g : Fin 128) :
    Read.val_main_v29 (F := Ideal) x4 (ix3 b l g) = BitVec.ofBool (decide (Cert.Spec.valid (Cert.Spec.clipv x4 (ix1 b)) l)) := by
  rw [Read.val_main_v29_apply, Read.val_main_v27_apply]
  have e : Read.idx_main_v27 (Read.idx_main_v29 (ix3 b l g)) = ix2 b l :=
    funext fun a => Fin.ext (by match a with | ⟨0, _⟩ => rfl | ⟨1, _⟩ => rfl)
  rw [e]
  exact valid0_eq x4 b l

/-- The own-sentence mask spread along `l`. -/
theorem own0_eq (b : Fin 128) (l : Fin 256) (g : Fin 128) :
    Read.val_main_v25 (F := Ideal) (ix3 b l g) = BitVec.ofBool (decide (b = g)) := by
  rw [Read.val_main_v25_apply, Read.val_main_v22_apply]
  have e : Read.idx_main_v22 (Read.idx_main_v25 (ix3 b l g)) = ix2 b g :=
    funext fun a => Fin.ext (by match a with | ⟨0, _⟩ => rfl | ⟨1, _⟩ => rfl)
  rw [e]
  exact same0_eq b g

/-- Its complement, spread along `l`: the other sentences. -/
theorem other0_eq (b : Fin 128) (l : Fin 256) (g : Fin 128) :
    Read.val_main_v30 (F := Ideal) (ix3 b l g) = BitVec.ofBool (decide (¬ b = g)) := by
  rw [Read.val_main_v30_apply, Read.val_main_v28_apply, Read.val_main_v22_apply]
  have e : Read.idx_main_v22 (Read.idx_main_v30 (ix3 b l g)) = ix2 b g :=
    funext fun a => Fin.ext (by match a with | ⟨0, _⟩ => rfl | ⟨1, _⟩ => rfl)
  rw [e, same0_eq, noti_bit, decide_not]

/-- The softplus of the negated score, as the positive total uses it. -/
theorem spA0_eq (x0 : TokV) (x2 : GlobV) (i : S128x256x128.Idx) :
    Read.val_main_v33 (F := Ideal) x0 x2 i = Cert.Spec.sp (Read.val_main_v10 (F := Ideal) x0 x2 i) := by
  simp only [Read.val_main_v33_apply, Read.val_main_call2_v4_apply, Read.val_main_call2_v3_apply, Read.val_main_call2_v2_apply,
    Read.val_main_call2_cst_apply, Read.val_main_call2_v6_apply, Read.val_main_call2_v5_apply, Read.val_main_call2_v11_apply,
    Read.val_main_call2_v1_apply, Read.val_main_call2_v0_apply, Read.val_main_call2_v10_apply, Read.val_main_call2_v9_apply,
    Read.val_main_call2_v8_apply, Read.val_main_call2_v7_apply, Read.val_main_v32_apply]
  exact refsp_eq _

/-- The softplus of the negated score, as the negative total uses it. -/
theorem spB0_eq (x0 : TokV) (x2 : GlobV) (i : S128x256x128.Idx) :
    Read.val_main_v38 (F := Ideal) x0 x2 i = Cert.Spec.sp (Read.val_main_v10 (F := Ideal) x0 x2 i) := by
  simp only [Read.val_main_v38_apply, Read.val_main_call4_v4_apply, Read.val_main_call4_v3_apply, Read.val_main_call4_v2_apply,
    Read.val_main_call4_cst_apply, Read.val_main_call4_v6_apply, Read.val_main_call4_v5_apply, Read.val_main_call4_v11_apply,
    Read.val_main_call4_v1_apply, Read.val_main_call4_v0_apply, Read.val_main_call4_v10_apply, Read.val_main_call4_v9_apply,
    Read.val_main_call4_v8_apply, Read.val_main_call4_v7_apply, Read.val_main_v37_apply]
  exact refsp_eq _

/-- The positive total's term at `(b, l, g)`: minus the softplus on a valid token against its own sentence, else zero. -/
theorem pos0_at (x0 : TokV) (x2 : GlobV) (x4 : LenV) (b : Fin 128) (l : Fin 256) (g : Fin 128) :
    Read.val_main_v35 (F := Ideal) x0 x2 x4 (ix3 b l g)
      = if Cert.Spec.valid (Cert.Spec.clipv x4 (ix1 b)) l ∧ b = g then -(Cert.Spec.sp (Cert.Spec.score x0 x2 b l g)) else 0 := by
  rw [Read.val_main_v35_apply, Read.val_main_v26_apply, validA0_eq, own0_eq, andi_bits, select_bit,
    Read.val_main_v34_apply, spA0_eq, score0_eq, Read.val_main_call3_v1_apply, Read.val_main_call3_v0_apply,
    Read.val_main_cst_6_apply]
  simp only [Bool.and_eq_true, decide_eq_true_eq]
  show (if _ then -(Cert.Spec.sp _) else Ideal.ofBits .f32 0x00000000#32) = _
  rw [Ideal.ofBits_zero_f32]

/-- The negative total's term at `(b, l, g)`: softplus plus score on a valid token against another sentence, else zero. -/
theorem neg0_at (x0 : TokV) (x2 : GlobV) (x4 : LenV) (b : Fin 128) (l : Fin 256) (g : Fin 128) :
    Read.val_main_v40 (F := Ideal) x0 x2 x4 (ix3 b l g)
      = if Cert.Spec.valid (Cert.Spec.clipv x4 (ix1 b)) l ∧ ¬ b = g
          then Cert.Spec.sp (Cert.Spec.score x0 x2 b l g) + Cert.Spec.score x0 x2 b l g else 0 := by
  rw [Read.val_main_v40_apply, Read.val_main_v31_apply, validB0_eq, other0_eq, andi_bits, select_bit,
    Read.val_main_v39_apply, spB0_eq, score0_eq, Read.val_main_call5_v1_apply, Read.val_main_call5_v0_apply,
    Read.val_main_cst_8_apply]
  simp only [Bool.and_eq_true, decide_eq_true_eq]
  show (if _ then Cert.Spec.sp _ + _ else Ideal.ofBits .f32 0x00000000#32) = _
  rw [Ideal.ofBits_zero_f32]

/-- The positive total: the sum from zero over all triples, as the three nested sums. -/
theorem pos0_eq (x0 : TokV) (x2 : GlobV) (x4 : LenV) (i : S_.Idx) :
    Read.val_main_v36 (F := Ideal) x0 x2 x4 i = Cert.Spec.refPos x0 x2 (Cert.Spec.clipv x4) := by
  rw [Read.val_main_v36_apply, Read.val_main_cst_7_apply]
  show Ideal.ofBits .f32 0x00000000#32 + _ = _
  rw [Ideal.ofBits_zero_f32, zero_add, sum_idx3]
  unfold Cert.Spec.refPos
  exact Finset.sum_congr rfl fun b _ => Finset.sum_congr rfl fun l _ => Finset.sum_congr rfl fun g _ =>
    pos0_at x0 x2 x4 b l g

/-- The negative total likewise. -/
theorem neg0_eq (x0 : TokV) (x2 : GlobV) (x4 : LenV) (i : S_.Idx) :
    Read.val_main_v41 (F := Ideal) x0 x2 x4 i = Cert.Spec.refNeg x0 x2 (Cert.Spec.clipv x4) := by
  rw [Read.val_main_v41_apply, Read.val_main_cst_9_apply]
  show Ideal.ofBits .f32 0x00000000#32 + _ = _
  rw [Ideal.ofBits_zero_f32, zero_add, sum_idx3]
  unfold Cert.Spec.refNeg
  exact Finset.sum_congr rfl fun b _ => Finset.sum_congr rfl fun l _ => Finset.sum_congr rfl fun g _ =>
    neg0_at x0 x2 x4 b l g

/-- The clipped lengths added as words from zero: every entry reduces to the one result, so the fold runs over all
    of them, and it is the word of the integer sum. -/
theorem wsum0_eq (x4 : LenV) (i : S_.Idx) :
    Read.val_main_v74 (F := Ideal) x4 i = Cert.Spec.wsum (Cert.Spec.clipv x4) := by
  unfold Read.val_main_v74
  rw [Host.reduce_eq_fold, clip0_eq]
  have hf : (Finset.univ.filter fun i' : S128.Idx => reducesTo_S128_S_d0.drop i' = i) = Finset.univ :=
    Finset.filter_true_of_mem fun _ _ => funext fun a => a.elim0
  rw [hf]
  show Finset.univ.fold IntOp.addi 0#32 _ = _
  rw [fold_addi_eq, sum_idx1]
  rfl

/-- The clipped lengths converted to reals and added from zero. -/
theorem fsum0_eq (x4 : LenV) (i : S_.Idx) :
    Read.val_main_v3 (F := Ideal) x4 i = Cert.Spec.fsum (Cert.Spec.clipv x4) := by
  rw [Read.val_main_v3_apply, Read.val_main_cst_apply]
  show Ideal.ofBits .f32 0x00000000#32 + _ = _
  rw [Ideal.ofBits_zero_f32, zero_add, sum_idx1]
  unfold Cert.Spec.fsum
  refine Finset.sum_congr rfl fun b _ => ?_
  rw [Read.val_main_v2_apply, clip0_eq]
  rfl

/-! ## The second side applies the same operations to the other arguments -/

theorem pos1_same (x1 : TokV) (x3 : GlobV) (x5 : LenV) :
    Read.val_main_v68 (F := Ideal) x1 x3 x5 = Read.val_main_v36 (F := Ideal) x1 x3 x5 := rfl

theorem neg1_same (x1 : TokV) (x3 : GlobV) (x5 : LenV) :
    Read.val_main_v73 (F := Ideal) x1 x3 x5 = Read.val_main_v41 (F := Ideal) x1 x3 x5 := rfl

theorem wsum1_same (x5 : LenV) : Read.val_main_v75 (F := Ideal) x5 = Read.val_main_v74 (F := Ideal) x5 := rfl

theorem fsum1_same (x5 : LenV) : Read.val_main_v6 (F := Ideal) x5 = Read.val_main_v3 (F := Ideal) x5 := rfl

/-! ## The two results -/

/-- The loss: the negative totals over the token count times `128 - 1`, less the positive totals over the token
    count, the count being the two word sums added as words and then converted. -/
theorem loss_eq (x0 x1 : TokV) (x2 x3 : GlobV) (x4 x5 : LenV) :
    Read.val_main_v84 (F := Ideal) x0 x1 x2 x3 x4 x5
      = fun _ => Cert.Spec.refLoss x0 x1 x2 x3 (Cert.Spec.clipv x4) (Cert.Spec.clipv x5) := by
  funext i
  rw [Read.val_main_v84_apply, Read.val_main_v83_apply, Read.val_main_v80_apply, Read.val_main_v82_apply,
    Read.val_main_v79_apply, Read.val_main_v78_apply, Read.val_main_v77_apply, Read.val_main_v76_apply,
    Read.val_main_v81_apply, Read.val_main_cst_17_apply, Read.val_main_cst_18_apply,
    neg1_same, pos1_same, wsum1_same, neg0_eq, neg0_eq, pos0_eq, pos0_eq, wsum0_eq, wsum0_eq]
  rfl

/-- The average sentence length: the two means of the clipped lengths, halved. -/
theorem avg_eq (x4 x5 : LenV) :
    Read.val_main_v9 (F := Ideal) x4 x5
      = fun _ => Cert.Spec.avgLen (Cert.Spec.clipv x4) (Cert.Spec.clipv x5) := by
  funext i
  rw [Read.val_main_v9_apply, Read.val_main_v8_apply, Read.val_main_v4_apply, Read.val_main_v7_apply,
    fsum1_same, fsum0_eq, fsum0_eq, Read.val_main_cst_1_apply, Read.val_main_cst_3_apply, Read.val_main_cst_4_apply]
  rfl

/-! ## The run -/

/-- Every weakly fair execution of the reference terminates with the loss and the average length of the
    specification, of the arguments it started from, and with those arguments unchanged. -/
theorem ref_run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v84) = (fun _ => Cert.Spec.refLoss (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (Cert.Spec.clipv (m' ((c.tc : Thread Cert.ReferenceIdeal.nD Cert.ReferenceIdeal.τ).loc Cert.ReferenceIdeal.main_arg4))) (Cert.Spec.clipv (m' ((c.tc : Thread Cert.ReferenceIdeal.nD Cert.ReferenceIdeal.τ).loc Cert.ReferenceIdeal.main_arg5))))
      ∧ r.2.mem ((c.tc : Thread Cert.ReferenceIdeal.nD Cert.ReferenceIdeal.τ).loc Cert.ReferenceIdeal.main_v9) = (fun _ => Cert.Spec.avgLen (Cert.Spec.clipv (m' ((c.tc : Thread Cert.ReferenceIdeal.nD Cert.ReferenceIdeal.τ).loc Cert.ReferenceIdeal.main_arg4))) (Cert.Spec.clipv (m' ((c.tc : Thread Cert.ReferenceIdeal.nD Cert.ReferenceIdeal.τ).loc Cert.ReferenceIdeal.main_arg5))))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) :=
  (θ_run (Cert.ReferenceIdeal.defs (F := Ideal)) _ _).mono (fun _ h c =>
    ⟨((h c).1.trans (Read.val_main_v84_eq m' c)).trans (loss_eq _ _ _ _ _ _),
      ((h c).2.1.trans (Read.val_main_v9_eq _ _)).trans (avg_eq _ _),
      (h c).2.2⟩)
    (Cert.ReferenceIdeal.Value.run (F := Ideal) m' ρ')

end Cert.ReferenceIdeal.RefValue

end
-- ==== Proof.SpecAlgebra.lean ====
/-
  The algebra that identifies the kernel's totals with the reference's totals.

  Every input is finite, so every score (a finite sum of products of reals) is a real, and so is its softplus:
  all sums below are sums of reals and the whole comparison moves to the real numbers, where subtraction and
  negation distribute over finite sums (in the extended reals they do so only away from the infinities).

  Three facts carry the proof.
  * The 0/1 mask products equal the boolean selections: `x * (v * m)` with `v, m ∈ {0, 1}` is `x` when both
    conditions hold and `0` otherwise, and `x * v` is `x` when the position is valid and `0` otherwise.
  * The sum over all sentences less the sum over the own sentence is the sum over the other sentences; this is a
    difference of sums, hence needs the summands real.  The 128 sentences are the 16 blocks of 8 sentences, sentence
    `i` of block `bb` being `8 * bb + i`.
  * Each clipped length lies in `[1, 256]`, so the sum of the 128 lengths of one side lies in `[128, 32768]` and the
    sum for both sides stays below `2 ^ 31`: adding the lengths as 32-bit words does not wrap, and converting the
    word sum gives the sum of the converted lengths.
  The literal factor `127` of the kernel is the reference's `128 - 1`.
-/
import proofs.«414042_j68504728371273_3_alg».proof.Proof.Spec
import Mathlib.Algebra.BigOperators.Fin
import Mathlib.Algebra.BigOperators.Ring.Finset
import Mathlib.Algebra.Order.BigOperators.Group.Finset
import Mathlib.Analysis.SpecialFunctions.Log.Basic

noncomputable section

namespace Cert.Spec

open Idealize.ShloMosaic Idealize.ShloMosaic.ValueIdx

/-! ## Reals inside the extended reals -/

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals commutes with the maximum. -/
theorem coe_max (a b : ℝ) : ((max a b : ℝ) : EReal) = max (a : EReal) (b : EReal) :=
  EReal.coe_strictMono.monotone.map_max

/-- Softplus of `-s` on the reals. -/
def spR (s : ℝ) : ℝ := max (-s) 0 + Real.log (1 + Real.exp (-(max (-s) s)))

/-- On a real, `sp` is the real softplus: `1 + exp _` is positive, so the logarithm is the real logarithm. -/
theorem sp_coe (s : ℝ) : sp (s : EReal) = (spR s : EReal) := by
  have hpos : ¬ (1 + Real.exp (-(max (-s) s)) ≤ 0) := by
    have := Real.exp_pos (-(max (-s) s)); linarith
  unfold sp spR Ideal.log1p
  rw [← EReal.coe_neg, ← EReal.coe_zero, ← coe_max, ← coe_max, ← EReal.coe_neg, Ideal.exp_coe,
    ← EReal.coe_one, ← EReal.coe_add, Ideal.log_coe, if_neg hpos, ← EReal.coe_add]

/-- The score of real tokens against real global vectors. -/
def scoreR (t : STok.Idx → ℝ) (gl : SGlob.Idx → ℝ) (b : Fin 128) (l : Fin 256) (g : Fin 128) : ℝ :=
  ∑ d : Fin 1024, t (ix3 b l d) * gl (ix2 g d)

/-- A score of finite inputs is a real. -/
theorem score_coe (t : STok.Idx → ℝ) (gl : SGlob.Idx → ℝ) (b : Fin 128) (l : Fin 256) (g : Fin 128) :
    score (fun i => (t i : EReal)) (fun i => (gl i : EReal)) b l g = (scoreR t gl b l g : EReal) := by
  unfold score scoreR
  rw [coe_sum]
  exact Finset.sum_congr rfl (fun d _ => (EReal.coe_mul _ _).symm)

/-! ## Blocks of sentences -/

/-- A sum over the 128 sentences is the sum over the 16 blocks of the sums over the 8 sentences of a block. -/
theorem sum_sent {M : Type*} [AddCommMonoid M] (f : Fin 128 → M) :
    ∑ b : Fin 128, f b = ∑ bb : Fin 16, ∑ i : Fin 8, f (sent bb i) := by
  rw [← Fintype.sum_prod_type' (f := fun bb i => f (sent bb i))]
  symm
  apply Fintype.sum_equiv (finProdFinEquiv : Fin 16 × Fin 8 ≃ Fin (16 * 8))
  rintro ⟨bb, i⟩
  congr 1
  apply Fin.ext
  simp [sent, finProdFinEquiv]
  omega

/-- The score inside a block is the score of the block's sentence. -/
theorem bscore_tokBlk (tok : STok.Idx → EReal) (glob : SGlob.Idx → EReal) (bb : Fin 16) (i : Fin 8)
    (l : Fin 256) (g : Fin 128) :
    bscore (tokBlk tok bb) glob i l g = score tok glob (sent bb i) l g := rfl

/-! ## Masks are selections -/

/-- Multiplying a real by the two 0/1 masks selects it when both conditions hold. -/
theorem mul_masks (r : ℝ) (n : BitVec 32) (l : Fin 256) (g b : Fin 128) :
    (r : EReal) * (vmask n l * smask g b) = ((if valid n l ∧ b = g then r else 0 : ℝ) : EReal) := by
  unfold vmask smask
  by_cases hv : valid n l <;> by_cases hb : b = g <;> simp [hv, hb]

/-- Multiplying a real by the validity mask selects it at the valid positions. -/
theorem mul_vmask (r : ℝ) (n : BitVec 32) (l : Fin 256) :
    (r : EReal) * vmask n l = ((if valid n l then r else 0 : ℝ) : EReal) := by
  unfold vmask
  by_cases hv : valid n l <;> simp [hv]

/-- The kernel's positive total for a real summand `F`: minus the masked block sums is the selected sum of `-F`. -/
theorem pos_core (F : Fin 128 → Fin 256 → Fin 128 → ℝ) (cl : SLen.Idx → BitVec 32) :
    ∑ bb : Fin 16, (0 - ∑ i : Fin 8, ∑ l : Fin 256, ∑ g : Fin 128,
        (F (sent bb i) l g : EReal) * (vmask (cl (ix1 (sent bb i))) l * smask g (sent bb i)))
      = ∑ b : Fin 128, ∑ l : Fin 256, ∑ g : Fin 128,
          if valid (cl (ix1 b)) l ∧ b = g then -(F b l g : EReal) else 0 := by
  refine Eq.trans ?_ (sum_sent _).symm
  refine Finset.sum_congr rfl (fun bb _ => ?_)
  have h2 : ∀ (i : Fin 8) (l : Fin 256) (g : Fin 128),
      (if valid (cl (ix1 (sent bb i))) l ∧ sent bb i = g then -(F (sent bb i) l g : EReal) else 0)
        = ((-(if valid (cl (ix1 (sent bb i))) l ∧ sent bb i = g then F (sent bb i) l g else 0) : ℝ) : EReal) := by
    intro i l g
    split_ifs <;> simp
  simp only [mul_masks, h2, ← coe_sum]
  rw [← EReal.coe_zero, ← EReal.coe_sub]
  congr 1
  simp only [Finset.sum_neg_distrib, zero_sub]

/-- The kernel's negative total for a real summand `F`: the valid sum less its own-sentence part is the sum over
    the valid positions against the other sentences. -/
theorem neg_core (F : Fin 128 → Fin 256 → Fin 128 → ℝ) (cl : SLen.Idx → BitVec 32) :
    ∑ bb : Fin 16, ((∑ i : Fin 8, ∑ l : Fin 256, ∑ g : Fin 128,
          (F (sent bb i) l g : EReal) * vmask (cl (ix1 (sent bb i))) l)
        - ∑ i : Fin 8, ∑ l : Fin 256, ∑ g : Fin 128,
          (F (sent bb i) l g : EReal) * (vmask (cl (ix1 (sent bb i))) l * smask g (sent bb i)))
      = ∑ b : Fin 128, ∑ l : Fin 256, ∑ g : Fin 128,
          if valid (cl (ix1 b)) l ∧ ¬ b = g then (F b l g : EReal) else 0 := by
  refine Eq.trans ?_ (sum_sent _).symm
  refine Finset.sum_congr rfl (fun bb _ => ?_)
  have h2 : ∀ (i : Fin 8) (l : Fin 256) (g : Fin 128),
      (if valid (cl (ix1 (sent bb i))) l ∧ ¬ sent bb i = g then (F (sent bb i) l g : EReal) else 0)
        = ((if valid (cl (ix1 (sent bb i))) l ∧ ¬ sent bb i = g then F (sent bb i) l g else 0 : ℝ) : EReal) := by
    intro i l g
    split_ifs <;> simp
  simp only [mul_masks, mul_vmask, h2, ← coe_sum, ← EReal.coe_sub]
  congr 1
  simp only [← Finset.sum_sub_distrib]
  refine Finset.sum_congr rfl (fun i _ => Finset.sum_congr rfl (fun l _ => Finset.sum_congr rfl (fun g _ => ?_)))
  by_cases hv : valid (cl (ix1 (sent bb i))) l <;> by_cases hb : sent bb i = g <;> simp [hv, hb]

/-! ## The two expectations -/

theorem kerPos_eq_refPos (tok : STok.Idx → EReal) (glob : SGlob.Idx → EReal) (cl : SLen.Idx → BitVec 32)
    (ht : ∀ i, ∃ r : ℝ, tok i = (r : EReal)) (hg : ∀ i, ∃ r : ℝ, glob i = (r : EReal)) :
    kerPos tok glob cl = refPos tok glob cl := by
  choose t ht using ht
  choose gl hg using hg
  obtain rfl : tok = fun i => (t i : EReal) := funext ht
  obtain rfl : glob = fun i => (gl i : EReal) := funext hg
  have hs : ∀ b l g, sp (score (fun i => (t i : EReal)) (fun i => (gl i : EReal)) b l g)
      = ((spR (scoreR t gl b l g) : ℝ) : EReal) := fun b l g => by rw [score_coe, sp_coe]
  unfold kerPos refPos blkPos
  simp only [bscore_tokBlk, lenBlk, hs]
  exact pos_core (fun b l g => spR (scoreR t gl b l g)) cl

theorem kerNeg_eq_refNeg (tok : STok.Idx → EReal) (glob : SGlob.Idx → EReal) (cl : SLen.Idx → BitVec 32)
    (ht : ∀ i, ∃ r : ℝ, tok i = (r : EReal)) (hg : ∀ i, ∃ r : ℝ, glob i = (r : EReal)) :
    kerNeg tok glob cl = refNeg tok glob cl := by
  choose t ht using ht
  choose gl hg using hg
  obtain rfl : tok = fun i => (t i : EReal) := funext ht
  obtain rfl : glob = fun i => (gl i : EReal) := funext hg
  have hs : ∀ b l g, sp (score (fun i => (t i : EReal)) (fun i => (gl i : EReal)) b l g)
        + score (fun i => (t i : EReal)) (fun i => (gl i : EReal)) b l g
      = ((spR (scoreR t gl b l g) + scoreR t gl b l g : ℝ) : EReal) := fun b l g => by
    rw [score_coe, sp_coe, EReal.coe_add]
  unfold kerNeg refNeg blkNeg
  simp only [bscore_tokBlk, lenBlk, hs]
  exact neg_core (fun b l g => spR (scoreR t gl b l g) + scoreR t gl b l g) cl

/-! ## The normaliser -/

/-- The 128 lengths of one side, each in `[1, 256]`, add up to a number in `[128, 32768]`. -/
theorem sumLen_bounds (cl : SLen.Idx → BitVec 32)
    (hc : ∀ b : Fin 128, 1 ≤ (cl (ix1 b)).toInt ∧ (cl (ix1 b)).toInt ≤ 256) :
    128 ≤ ∑ b : Fin 128, (cl (ix1 b)).toInt ∧ ∑ b : Fin 128, (cl (ix1 b)).toInt ≤ 32768 := by
  constructor
  · calc (128 : ℤ) = ∑ _b : Fin 128, (1 : ℤ) := by simp
      _ ≤ _ := Finset.sum_le_sum (fun b _ => (hc b).1)
  · calc ∑ b : Fin 128, (cl (ix1 b)).toInt ≤ ∑ _b : Fin 128, (256 : ℤ) :=
          Finset.sum_le_sum (fun b _ => (hc b).2)
      _ = 32768 := by simp

/-- Adding the lengths as words then converting is converting then adding: the word sum does not wrap. -/
theorem kerNN_eq_refNN (cl0 cl1 : SLen.Idx → BitVec 32)
    (hc0 : ∀ b : Fin 128, 1 ≤ (cl0 (ix1 b)).toInt ∧ (cl0 (ix1 b)).toInt ≤ 256)
    (hc1 : ∀ b : Fin 128, 1 ≤ (cl1 (ix1 b)).toInt ∧ (cl1 (ix1 b)).toInt ≤ 256) :
    kerNN cl0 cl1 = refNN cl0 cl1 := by
  obtain ⟨l0, u0⟩ := sumLen_bounds cl0 hc0
  obtain ⟨l1, u1⟩ := sumLen_bounds cl1 hc1
  unfold kerNN refNN fsum wsum
  rw [← BitVec.ofInt_add, BitVec.toInt_ofInt_eq_self (by norm_num) (by norm_num; omega) (by norm_num; omega),
    ← coe_sum, ← coe_sum, ← EReal.coe_add]
  congr 1
  push_cast
  rfl

/-! ## The literals -/

theorem ofBits_127 : Ideal.ofBits .f32 0x42FE0000#32 = ((127 : ℝ) : EReal) := by
  simp [Ideal.ofBits, Ideal.ieee, -EReal.coe_mul]; norm_num

theorem ofBits_128 : Ideal.ofBits .f32 0x43000000#32 = ((128 : ℝ) : EReal) := by
  simp [Ideal.ofBits, Ideal.ieee, -EReal.coe_mul]; norm_num

theorem ofBits_1 : Ideal.ofBits .f32 0x3F800000#32 = ((1 : ℝ) : EReal) := by
  simp [Ideal.ofBits, Ideal.ieee, -EReal.coe_mul]; norm_num

/-! ## The loss -/

theorem loss_eq (tok0 tok1 : STok.Idx → EReal) (glob0 glob1 : SGlob.Idx → EReal) (cl0 cl1 : SLen.Idx → BitVec 32)
    (ht0 : ∀ i, ∃ r : ℝ, tok0 i = (r : EReal)) (ht1 : ∀ i, ∃ r : ℝ, tok1 i = (r : EReal))
    (hg0 : ∀ i, ∃ r : ℝ, glob0 i = (r : EReal)) (hg1 : ∀ i, ∃ r : ℝ, glob1 i = (r : EReal))
    (hc0 : ∀ b : Fin 128, 1 ≤ (cl0 (ValueIdx.ix1 b)).toInt ∧ (cl0 (ValueIdx.ix1 b)).toInt ≤ 256)
    (hc1 : ∀ b : Fin 128, 1 ≤ (cl1 (ValueIdx.ix1 b)).toInt ∧ (cl1 (ValueIdx.ix1 b)).toInt ≤ 256) :
    kerLoss tok0 tok1 glob0 glob1 cl0 cl1 = refLoss tok0 tok1 glob0 glob1 cl0 cl1 := by
  have h127 : Ideal.ofBits .f32 0x43000000#32 - Ideal.ofBits .f32 0x3F800000#32
      = Ideal.ofBits .f32 0x42FE0000#32 := by
    rw [ofBits_128, ofBits_1, ofBits_127, ← EReal.coe_sub]
    norm_num
  unfold kerLoss refLoss
  rw [kerPos_eq_refPos tok0 glob0 cl0 ht0 hg0, kerPos_eq_refPos tok1 glob1 cl1 ht1 hg1,
    kerNeg_eq_refNeg tok0 glob0 cl0 ht0 hg0, kerNeg_eq_refNeg tok1 glob1 cl1 ht1 hg1,
    kerNN_eq_refNN cl0 cl1 hc0 hc1, h127]

end Cert.Spec

end
-- ==== Proof.lean ====
/-
  The certificate's claim: the kernel program and the reference return the same loss and the same average
  sentence length over the extended reals, whenever every float input is finite and no sentence length exceeds
  the padded length 256.

  The kernel program is two pallas_calls (one per view) between host stretches. Each grid point handles a block of
  eight sentences: the scores of the block's tokens against all 128 global vectors by one matrix product, softplus of
  the negated scores, the 0/1 masks "position below the clipped sentence length" and "global vector of the token's
  own sentence", and three nested sums; the two block totals go to lane 0 of an output row, the other lanes zero,
  so that the host's sum over the whole output array is the sum of the block totals. The reference computes the same
  scores by one einsum, selects with booleans, and sums once. The two agree because the summands are real numbers
  (finite inputs), so the mask products are the selections, the difference of the all-sentences sum and the
  own-sentence sum is the other-sentences sum, and a sum over the 128 sentences is the sum over 16 blocks of 8.
  The token count is the sum of the clipped lengths: added as 32-bit integers by the reference and as reals by the
  kernel, the same number as long as the integer sum does not wrap, which lengths in [1, 256] guarantee.

  The three frame conjuncts: both kernel programs run through the several-regions launch (the body's triple at each
  grid point, the prefetched length table held by the region's invariant); the reference's frame is its run with
  the results dropped. No ideal-pass rewrite was applied, so the preservation conjunct is trivial.
-/
import proofs.«414042_j68504728371273_3_alg».proof.Defs
import proofs.«414042_j68504728371273_3_alg».proof.Proof.Gen.Kernel
import proofs.«414042_j68504728371273_3_alg».proof.Proof.Gen.KernelIdeal
import proofs.«414042_j68504728371273_3_alg».proof.Proof.Gen.ReferenceIdeal
import proofs.«414042_j68504728371273_3_alg».proof.Proof.Gen.Pre_finite_inputs
import proofs.«414042_j68504728371273_3_alg».proof.Proof.K.Run
import proofs.«414042_j68504728371273_3_alg».proof.Proof.KI.Run
import proofs.«414042_j68504728371273_3_alg».proof.Proof.KI.Value
import proofs.«414042_j68504728371273_3_alg».proof.Proof.RefValue
import proofs.«414042_j68504728371273_3_alg».proof.Proof.SpecAlgebra
import proofs.«414042_j68504728371273_3_alg».proof.Proof.PreFacts
import Idealize.ShloMosaic.Adequacy
import Idealize.ShloMosaic.Init

noncomputable section

namespace Cert.Proof

open Idealize.ShloMosaic Idealize.ShloMosaic.TcCoe Idealize.SL.Sem

/-- The word-level kernel program runs and leaves its arguments alone. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.RefValue.ref_run m ρ)

/-- The two idealized programs end with the same loss and the same average length: the kernel's run names its results
    (the specification's kernel-side formulas), the reference's run its own, and the two formulas agree under the
    precondition's facts (finite entries, lengths at most 256, hence clipped lengths in [1, 256]). -/
theorem algebraic : Cert.algebraic_KernelIdeal_ReferenceIdeal := by
  intro m ρ m' ρ' hpre hagree
  refine ⟨fun c => Cert.KernelIdeal.Hand.Vend (F := Ideal) m c Cert.KernelIdeal.main_v26,
    fun c => Cert.KernelIdeal.Hand.Vend (F := Ideal) m c Cert.KernelIdeal.main_v9,
    Cert.KernelIdeal.Hand.run_vals m ρ, ?_⟩
  refine (θ_run Cert.ReferenceIdeal.defs _ _).mono (fun _ h c => ⟨(h c).1.trans ?_, (h c).2.1.trans ?_, (h c).2.2⟩)
    (Cert.ReferenceIdeal.RefValue.ref_run m' ρ')
  · obtain ⟨ht0, ht1, hg0, hg1, hl0, hl1⟩ := Cert.PreFacts.facts_of_pre _ _ _ _ _ _ (hpre c)
    rw [(hagree c).1, (hagree c).2.1, (hagree c).2.2.1, (hagree c).2.2.2.1, (hagree c).2.2.2.2.1, (hagree c).2.2.2.2.2]
    refine Eq.trans ?_ (Cert.KernelIdeal.HandValue.vend_loss m c).symm
    funext _
    exact (Cert.Spec.loss_eq _ _ _ _ _ _ ht0 ht1 hg0 hg1
      (Cert.PreFacts.clipv_bounds _ hl0) (Cert.PreFacts.clipv_bounds _ hl1)).symm
  · rw [(hagree c).2.2.2.2.1, (hagree c).2.2.2.2.2]
    exact (Cert.KernelIdeal.HandValue.vend_avg m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
